-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S100000x200 : Shape := ⟨2, ![100000, 200]⟩
abbrev S500x200 : Shape := ⟨2, ![500, 200]⟩
abbrev S6144x200 : Shape := ⟨2, ![6144, 200]⟩
abbrev S200 : Shape := ⟨1, ![200]⟩
abbrev S200x288 : Shape := ⟨2, ![200, 288]⟩
abbrev S288 : Shape := ⟨1, ![288]⟩
abbrev S1 : Shape := ⟨1, ![1]⟩
abbrev S32 : Shape := ⟨1, ![32]⟩
abbrev S100000 : Shape := ⟨1, ![100000]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S500x200 : S_.BroadcastsInDim S500x200 (![] : Fin 0 → Fin S500x200.rank)
  reducesTo_S500x200_S_d0_1 : S500x200.ReducesTo [0, 1] S_
  bcast_S_S6144x200 : S_.BroadcastsInDim S6144x200 (![] : Fin 0 → Fin S6144x200.rank)
  reducesTo_S6144x200_S_d0_1 : S6144x200.ReducesTo [0, 1] S_
  bcast_S_S200 : S_.BroadcastsInDim S200 (![] : Fin 0 → Fin S200.rank)
  reducesTo_S200_S_d0 : S200.ReducesTo [0] S_
  bcast_S_S200x288 : S_.BroadcastsInDim S200x288 (![] : Fin 0 → Fin S200x288.rank)
  reducesTo_S200x288_S_d0_1 : S200x288.ReducesTo [0, 1] S_
  bcast_S_S288 : S_.BroadcastsInDim S288 (![] : Fin 0 → Fin S288.rank)
  reducesTo_S288_S_d0 : S288.ReducesTo [0] S_
  bcast_S_S1 : S_.BroadcastsInDim S1 (![] : Fin 0 → Fin S1.rank)
  reducesTo_S1_S_d0 : S1.ReducesTo [0] S_
  bcast_S_S32 : S_.BroadcastsInDim S32 (![] : Fin 0 → Fin S32.rank)
  reducesTo_S32_S_d0 : S32.ReducesTo [0] S_
  bcast_S_S100000 : S_.BroadcastsInDim S100000 (![] : Fin 0 → Fin S100000.rank)
  reducesTo_S100000_S_d0 : S100000.ReducesTo [0] S_

variable [Facts]

def fn_part6 {F : FTy → Type} [FloatOps F] (main_arg19 : FVec F S200 .f32) (main_v101 : IVec S_ 1) : IVec S_ 1 :=
  let main_cst_40 : FVec F S_ .f32 := constant S_ .f32 0x00000000#32
  let main_v102 : FVec F S200 .f32 := broadcastInDim S200 ![] bcast_S_S200 main_cst_40
  let main_v103 : IVec S200 1 := cmpf .oge main_arg19 main_v102
  let main_c_41 : IVec S_ 1 := constantI S_ 1 1#1
  let main_v104 : IVec S_ 1 := (fun x v => Host.reduce IntOp.andi x v reducesTo_S200_S_d0 h_S_) main_v103 main_c_41
  let main_v105 : IVec S_ 1 := andi main_v101 main_v104
  main_v105

def fn_part5 {F : FTy → Type} [FloatOps F] (main_arg11 : FVec F S1 .f32) (main_arg15 : FVec F S32 .f32) (main_arg19 : FVec F S200 .f32) (main_arg20 : FVec F S100000 .f32) (main_v83 : IVec S_ 1) (main_v84 : FVec F S200 .f32) (main_cst_32 : FVec F S_ .f32) : IVec S_ 1 :=
  let main_v85 : FVec F S200 .f32 := broadcastInDim S200 ![] bcast_S_S200 main_cst_32
  let main_v86 : IVec S200 1 := cmpf .olt main_v84 main_v85
  let main_c_33 : IVec S_ 1 := constantI S_ 1 1#1
  let main_v87 : IVec S_ 1 := (fun x v => Host.reduce IntOp.andi x v reducesTo_S200_S_d0 h_S_) main_v86 main_c_33
  let main_v88 : IVec S_ 1 := andi main_v83 main_v87
  let main_v89 : FVec F S100000 .f32 := Host.absf main_arg20
  let main_cst_34 : FVec F S_ .f32 := constant S_ .f32 0x7F800000#32
  let main_v90 : FVec F S100000 .f32 := broadcastInDim S100000 ![] bcast_S_S100000 main_cst_34
  let main_v91 : IVec S100000 1 := cmpf .olt main_v89 main_v90
  let main_c_35 : IVec S_ 1 := constantI S_ 1 1#1
  let main_v92 : IVec S_ 1 := (fun x v => Host.reduce IntOp.andi x v reducesTo_S100000_S_d0 h_S_) main_v91 main_c_35
  let main_v93 : IVec S_ 1 := andi main_v88 main_v92
  let main_cst_36 : FVec F S_ .f32 := constant S_ .f32 0x00000000#32
  let main_v94 : FVec F S1 .f32 := broadcastInDim S1 ![] bcast_S_S1 main_cst_36
  let main_v95 : IVec S1 1 := cmpf .oge main_arg11 main_v94
  let main_c_37 : IVec S_ 1 := constantI S_ 1 1#1
  let main_v96 : IVec S_ 1 := (fun x v => Host.reduce IntOp.andi x v reducesTo_S1_S_d0 h_S_) main_v95 main_c_37
  let main_v97 : IVec S_ 1 := andi main_v93 main_v96
  let main_cst_38 : FVec F S_ .f32 := constant S_ .f32 0x00000000#32
  let main_v98 : FVec F S32 .f32 := broadcastInDim S32 ![] bcast_S_S32 main_cst_38
  let main_v99 : IVec S32 1 := cmpf .oge main_arg15 main_v98
  let main_c_39 : IVec S_ 1 := constantI S_ 1 1#1
  let main_v100 : IVec S_ 1 := (fun x v => Host.reduce IntOp.andi x v reducesTo_S32_S_d0 h_S_) main_v99 main_c_39
  let main_v101 : IVec S_ 1 := andi main_v97 main_v100
  fn_part6 (F := F) main_arg19 main_v101

def fn_part4 {F : FTy → Type} [FloatOps F] (main_arg11 : FVec F S1 .f32) (main_arg15 : FVec F S32 .f32) (main_arg16 : FVec F S200 .f32) (main_arg17 : FVec F S200 .f32) (main_arg18 : FVec F S200 .f32) (main_arg19 : FVec F S200 .f32) (main_arg20 : FVec F S100000 .f32) (main_v63 : IVec S_ 1) (main_v67 : IVec S_ 1) : IVec S_ 1 :=
  let main_v68 : IVec S_ 1 := andi main_v63 main_v67
  let main_v69 : FVec F S200 .f32 := Host.absf main_arg16
  let main_cst_26 : FVec F S_ .f32 := constant S_ .f32 0x7F800000#32
  let main_v70 : FVec F S200 .f32 := broadcastInDim S200 ![] bcast_S_S200 main_cst_26
  let main_v71 : IVec S200 1 := cmpf .olt main_v69 main_v70
  let main_c_27 : IVec S_ 1 := constantI S_ 1 1#1
  let main_v72 : IVec S_ 1 := (fun x v => Host.reduce IntOp.andi x v reducesTo_S200_S_d0 h_S_) main_v71 main_c_27
  let main_v73 : IVec S_ 1 := andi main_v68 main_v72
  let main_v74 : FVec F S200 .f32 := Host.absf main_arg17
  let main_cst_28 : FVec F S_ .f32 := constant S_ .f32 0x7F800000#32
  let main_v75 : FVec F S200 .f32 := broadcastInDim S200 ![] bcast_S_S200 main_cst_28
  let main_v76 : IVec S200 1 := cmpf .olt main_v74 main_v75
  let main_c_29 : IVec S_ 1 := constantI S_ 1 1#1
  let main_v77 : IVec S_ 1 := (fun x v => Host.reduce IntOp.andi x v reducesTo_S200_S_d0 h_S_) main_v76 main_c_29
  let main_v78 : IVec S_ 1 := andi main_v73 main_v77
  let main_v79 : FVec F S200 .f32 := Host.absf main_arg18
  let main_cst_30 : FVec F S_ .f32 := constant S_ .f32 0x7F800000#32
  let main_v80 : FVec F S200 .f32 := broadcastInDim S200 ![] bcast_S_S200 main_cst_30
  let main_v81 : IVec S200 1 := cmpf .olt main_v79 main_v80
  let main_c_31 : IVec S_ 1 := constantI S_ 1 1#1
  let main_v82 : IVec S_ 1 := (fun x v => Host.reduce IntOp.andi x v reducesTo_S200_S_d0 h_S_) main_v81 main_c_31
  let main_v83 : IVec S_ 1 := andi main_v78 main_v82
  let main_v84 : FVec F S200 .f32 := Host.absf main_arg19
  let main_cst_32 : FVec F S_ .f32 := constant S_ .f32 0x7F800000#32
  fn_part5 (F := F) main_arg11 main_arg15 main_arg19 main_arg20 main_v83 main_v84 main_cst_32

def fn_part3 {F : FTy → Type} [FloatOps F] (main_arg11 : FVec F S1 .f32) (main_arg13 : FVec F S32 .f32) (main_arg14 : FVec F S32 .f32) (main_arg15 : FVec F S32 .f32) (main_arg16 : FVec F S200 .f32) (main_arg17 : FVec F S200 .f32) (main_arg18 : FVec F S200 .f32) (main_arg19 : FVec F S200 .f32) (main_arg20 : FVec F S100000 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg11 main_arg15 main_arg16 main_arg17 main_arg18 main_arg19 main_arg20 main_v63 main_v67

def fn_part2 {F : FTy → Type} [FloatOps F] (main_arg9 : FVec F S1 .f32) (main_arg10 : FVec F S1 .f32) (main_arg11 : FVec F S1 .f32) (main_arg12 : FVec F S32 .f32) (main_arg13 : FVec F S32 .f32) (main_arg14 : FVec F S32 .f32) (main_arg15 : FVec F S32 .f32) (main_arg16 : FVec F S200 .f32) (main_arg17 : FVec F S200 .f32) (main_arg18 : FVec F S200 .f32) (main_arg19 : FVec F S200 .f32) (main_arg20 : FVec F S100000 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg11 main_arg13 main_arg14 main_arg15 main_arg16 main_arg17 main_arg18 main_arg19 main_arg20 main_v48 main_v49 main_v50

def fn_part1 {F : FTy → Type} [FloatOps F] (main_arg6 : FVec F S200x288 .f32) (main_arg7 : FVec F S288 .f32) (main_arg8 : FVec F S1 .f32) (main_arg9 : FVec F S1 .f32) (main_arg10 : FVec F S1 .f32) (main_arg11 : FVec F S1 .f32) (main_arg12 : FVec F S32 .f32) (main_arg13 : FVec F S32 .f32) (main_arg14 : FVec F S32 .f32) (main_arg15 : FVec F S32 .f32) (main_arg16 : FVec F S200 .f32) (main_arg17 : FVec F S200 .f32) (main_arg18 : FVec F S200 .f32) (main_arg19 : FVec F S200 .f32) (main_arg20 : FVec F S100000 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S200x288 .f32 := Host.absf main_arg6
  let main_cst_6 : FVec F S_ .f32 := constant S_ .f32 0x7F800000#32
  let main_v20 : FVec F S200x288 .f32 := broadcastInDim S200x288 ![] bcast_S_S200x288 main_cst_6
  let main_v21 : IVec S200x288 1 := cmpf .olt main_v19 main_v20
  let main_c_7 : IVec S_ 1 := constantI S_ 1 1#1
  let main_v22 : IVec S_ 1 := (fun x v => Host.reduce IntOp.andi x v reducesTo_S200x288_S_d0_1 h_S_) main_v21 main_c_7
  let main_v23 : IVec S_ 1 := andi main_v18 main_v22
  let main_v24 : FVec F S288 .f32 := Host.absf main_arg7
  let main_cst_8 : FVec F S_ .f32 := constant S_ .f32 0x7F800000#32
  let main_v25 : FVec F S288 .f32 := broadcastInDim S288 ![] bcast_S_S288 main_cst_8
  let main_v26 : IVec S288 1 := cmpf .olt main_v24 main_v25
  let main_c_9 : IVec S_ 1 := constantI S_ 1 1#1
  let main_v27 : IVec S_ 1 := (fun x v => Host.reduce IntOp.andi x v reducesTo_S288_S_d0 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : IVec S1024 32) (main_arg1 : IVec S1024 32) (main_arg2 : FVec F S100000x200 .f32) (main_arg3 : FVec F S500x200 .f32) (main_arg4 : FVec F S6144x200 .f32) (main_arg5 : FVec F S200 .f32) (main_arg6 : FVec F S200x288 .f32) (main_arg7 : FVec F S288 .f32) (main_arg8 : FVec F S1 .f32) (main_arg9 : FVec F S1 .f32) (main_arg10 : FVec F S1 .f32) (main_arg11 : FVec F S1 .f32) (main_arg12 : FVec F S32 .f32) (main_arg13 : FVec F S32 .f32) (main_arg14 : FVec F S32 .f32) (main_arg15 : FVec F S32 .f32) (main_arg16 : FVec F S200 .f32) (main_arg17 : FVec F S200 .f32) (main_arg18 : FVec F S200 .f32) (main_arg19 : FVec F S200 .f32) (main_arg20 : FVec F S100000 .f32) : IVec S_ 1 :=
  let main_v0 : FVec F S100000x200 .f32 := Host.absf main_arg2
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S500x200 .f32 := Host.absf main_arg3
  let main_cst_0 : FVec F S_ .f32 := constant S_ .f32 0x7F800000#32
  let main_v5 : FVec F S500x200 .f32 := broadcastInDim S500x200 ![] bcast_S_S500x200 main_cst_0
  let main_v6 : IVec S500x200 1 := cmpf .olt main_v4 main_v5
  let main_c_1 : IVec S_ 1 := constantI S_ 1 1#1
  let main_v7 : IVec S_ 1 := (fun x v => Host.reduce IntOp.andi x v reducesTo_S500x200_S_d0_1 h_S_) main_v6 main_c_1
  let main_v8 : IVec S_ 1 := andi main_v3 main_v7
  let main_v9 : FVec F S6144x200 .f32 := Host.absf main_arg4
  let main_cst_2 : FVec F S_ .f32 := constant S_ .f32 0x7F800000#32
  let main_v10 : FVec F S6144x200 .f32 := broadcastInDim S6144x200 ![] bcast_S_S6144x200 main_cst_2
  let main_v11 : IVec S6144x200 1 := cmpf .olt main_v9 main_v10
  let main_c_3 : IVec S_ 1 := constantI S_ 1 1#1
  let main_v12 : IVec S_ 1 := (fun x v => Host.reduce IntOp.andi x v reducesTo_S6144x200_S_d0_1 h_S_) main_v11 main_c_3
  let main_v13 : IVec S_ 1 := andi main_v8 main_v12
  let main_v14 : FVec F S200 .f32 := Host.absf main_arg5
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S1024 : Shape := ⟨1, ![1024]⟩
abbrev S100000x200 : Shape := ⟨2, ![100000, 200]⟩
abbrev S500x200 : Shape := ⟨2, ![500, 200]⟩
abbrev S6144x200 : Shape := ⟨2, ![6144, 200]⟩
abbrev S200 : Shape := ⟨1, ![200]⟩
abbrev S200x288 : Shape := ⟨2, ![200, 288]⟩
abbrev S288 : Shape := ⟨1, ![288]⟩
abbrev S1 : Shape := ⟨1, ![1]⟩
abbrev S32 : Shape := ⟨1, ![32]⟩
abbrev S100000 : Shape := ⟨1, ![100000]⟩
abbrev S_ : Shape := ⟨0, ![]⟩
abbrev S1024x1 : Shape := ⟨2, ![1024, 1]⟩
abbrev S1024x200 : Shape := ⟨2, ![1024, 200]⟩
abbrev S256x200 : Shape := ⟨2, ![256, 200]⟩
abbrev S1x1 : Shape := ⟨2, ![1, 1]⟩
abbrev S256x288 : Shape := ⟨2, ![256, 288]⟩
abbrev S1x288 : Shape := ⟨2, ![1, 288]⟩
abbrev S256x32x9 : Shape := ⟨3, ![256, 32, 9]⟩
abbrev S256x32x192 : Shape := ⟨3, ![256, 32, 192]⟩
abbrev S256x32x1 : Shape := ⟨3, ![256, 32, 1]⟩
abbrev S256x32 : Shape := ⟨2, ![256, 32]⟩
abbrev S256x192 : Shape := ⟨2, ![256, 192]⟩
abbrev S256x1x192 : Shape := ⟨3, ![256, 1, 192]⟩
abbrev S1x32x1 : Shape := ⟨3, ![1, 32, 1]⟩
abbrev S256x6144 : Shape := ⟨2, ![256, 6144]⟩
abbrev S1x200 : Shape := ⟨2, ![1, 200]⟩
abbrev S101376x200 : Shape := ⟨2, ![101376, 200]⟩
abbrev S101376 : Shape := ⟨1, ![101376]⟩
abbrev S1x101376 : Shape := ⟨2, ![1, 101376]⟩
abbrev S1024x101376 : Shape := ⟨2, ![1024, 101376]⟩
abbrev S1536x200 : Shape := ⟨2, ![1536, 200]⟩
abbrev S1x1536 : Shape := ⟨2, ![1, 1536]⟩
abbrev S1024x1536 : Shape := ⟨2, ![1024, 1536]⟩
abbrev S1024x100000 : Shape := ⟨2, ![1024, 100000]⟩

abbrev nBuf : Space → Nat
  | .hbm => 49
  | .vmem => 29
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x200, .f32⟩
  | .hbm, ⟨3, _⟩ => ⟨S500x200, .f32⟩
  | .hbm, ⟨4, _⟩ => ⟨S6144x200, .f32⟩
  | .hbm, ⟨5, _⟩ => ⟨S200, .f32⟩
  | .hbm, ⟨6, _⟩ => ⟨S200x288, .f32⟩
  | .hbm, ⟨7, _⟩ => ⟨S288, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S200, .f32⟩
  | .hbm, ⟨17, _⟩ => ⟨S200, .f32⟩
  | .hbm, ⟨18, _⟩ => ⟨S200, .f32⟩
  | .hbm, ⟨19, _⟩ => ⟨S200, .f32⟩
  | .hbm, ⟨20, _⟩ => ⟨S100000, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x200, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1024x200, .f32⟩
  | .hbm, ⟨39, _⟩ => ⟨S1024x200, .f32⟩
  | .hbm, ⟨40, _⟩ => ⟨S_, .i32⟩
  | .hbm, ⟨41, _⟩ => ⟨S_, .f32⟩
  | .hbm, ⟨42, _⟩ => ⟨S101376x200, .f32⟩
  | .hbm, ⟨43, _⟩ => ⟨S_, .i32⟩
  | .hbm, ⟨44, _⟩ => ⟨S_, .f32⟩
  | .hbm, ⟨45, _⟩ => ⟨S101376, .f32⟩
  | .hbm, ⟨46, _⟩ => ⟨S1x101376, .f32⟩
  | .hbm, ⟨47, _⟩ => ⟨S1024x101376, .f32⟩
  | .hbm, ⟨48, _⟩ => ⟨S1024x100000, .f32⟩
  | .local _ .vmem, ⟨0, _⟩ => ⟨S256x200, .f32⟩
  | .local _ .vmem, ⟨1, _⟩ => ⟨S256x200, .f32⟩
  | .local _ .vmem, ⟨2, _⟩ => ⟨S256x200, .f32⟩
  | .local _ .vmem, ⟨3, _⟩ => ⟨S256x200, .f32⟩
  | .local _ .vmem, ⟨4, _⟩ => ⟨S200x288, .f32⟩
  | .local _ .vmem, ⟨5, _⟩ => ⟨S288, .f32⟩
  | .local _ .vmem, ⟨6, _⟩ => ⟨S1, .f32⟩
  | .local _ .vmem, ⟨7, _⟩ => ⟨S1, .f32⟩
  | .local _ .vmem, ⟨8, _⟩ => ⟨S1, .f32⟩
  | .local _ .vmem, ⟨9, _⟩ => ⟨S1, .f32⟩
  | .local _ .vmem, ⟨10, _⟩ => ⟨S32, .f32⟩
  | .local _ .vmem, ⟨11, _⟩ => ⟨S32, .f32⟩
  | .local _ .vmem, ⟨12, _⟩ => ⟨S32, .f32⟩
  | .local _ .vmem, ⟨13, _⟩ => ⟨S32, .f32⟩
  | .local _ .vmem, ⟨14, _⟩ => ⟨S200, .f32⟩
  | .local _ .vmem, ⟨15, _⟩ => ⟨S200, .f32⟩
  | .local _ .vmem, ⟨16, _⟩ => ⟨S200, .f32⟩
  | .local _ .vmem, ⟨17, _⟩ => ⟨S200, .f32⟩
  | .local _ .vmem, ⟨18, _⟩ => ⟨S6144x200, .f32⟩
  | .local _ .vmem, ⟨19, _⟩ => ⟨S200, .f32⟩
  | .local _ .vmem, ⟨20, _⟩ => ⟨S256x200, .f32⟩
  | .local _ .vmem, ⟨21, _⟩ => ⟨S256x200, .f32⟩
  | .local _ .vmem, ⟨22, _⟩ => ⟨S1024x200, .f32⟩
  | .local _ .vmem, ⟨23, _⟩ => ⟨S1536x200, .f32⟩
  | .local _ .vmem, ⟨24, _⟩ => ⟨S1536x200, .f32⟩
  | .local _ .vmem, ⟨25, _⟩ => ⟨S1x1536, .f32⟩
  | .local _ .vmem, ⟨26, _⟩ => ⟨S1x1536, .f32⟩
  | .local _ .vmem, ⟨27, _⟩ => ⟨S1024x1536, .f32⟩
  | .local _ .vmem, ⟨28, _⟩ => ⟨S1024x1536, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_call0_v0 : Ref sig .tc := ⟨.hbm, 41, rfl⟩
abbrev main_v15 : Ref sig .tc := ⟨.hbm, 42, rfl⟩
abbrev main_c_4 : Ref sig .tc := ⟨.hbm, 43, rfl⟩
abbrev main_call1_v0 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc1_stg0_0 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc1_sem0_0 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S200x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S200 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S200 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S200 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S200 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S6144x200 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S200 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x200 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![66], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x200 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1536x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  inb_S256x200_S256x200_0_0 : ∀ a, (![0, 0] : Fin 2 → Nat) a + S256x200.size a ≤ S256x200.size a
  h_S256x200 : 0 < S256x200.numel
  shapeCasts_S256x200_S256x200 : S256x200.ShapeCasts S256x200
  inb_S1_S1_0 : ∀ a, (![0] : Fin 1 → Nat) a + S1.size a ≤ S1.size a
  h_S1 : 0 < S1.numel
  shapeCasts_S1_S1x1 : S1.ShapeCasts S1x1
  broadcasts_S1x1_S256x200 : S1x1.Broadcasts S256x200
  inb_S200x288_S200x288_0_0 : ∀ a, (![0, 0] : Fin 2 → Nat) a + S200x288.size a ≤ S200x288.size a
  h_S200x288 : 0 < S200x288.numel
  inb_S288_S288_0 : ∀ a, (![0] : Fin 1 → Nat) a + S288.size a ≤ S288.size a
  h_S288 : 0 < S288.numel
  bitsLt_bf16_f32 : FTy.bits .bf16 < FTy.bits .f32
  shapeCasts_S288_S1x288 : S288.ShapeCasts S1x288
  broadcasts_S1x288_S256x288 : S1x288.Broadcasts S256x288
  shapeCasts_S256x288_S256x32x9 : S256x288.ShapeCasts S256x32x9
  slices_S256x32x9_o0_0_0_S256x32x1 : S256x32x9.Slices ![0, 0, 0] S256x32x1
  shapeCasts_S256x32x1_S256x32 : S256x32x1.ShapeCasts S256x32
  shapeCasts_S256x32_S256x32x1 : S256x32.ShapeCasts S256x32x1
  slices_S256x200_o0_0_S256x192 : S256x200.Slices ![0, 0] S256x192
  shapeCasts_S256x192_S256x1x192 : S256x192.ShapeCasts S256x1x192
  broadcasts_S256x32x1_S256x32x192 : S256x32x1.Broadcasts S256x32x192
  broadcasts_S256x1x192_S256x32x192 : S256x1x192.Broadcasts S256x32x192
  slices_S256x32x9_o0_0_1_S256x32x1 : S256x32x9.Slices ![0, 0, 1] S256x32x1
  slices_S256x200_o0_1_S256x192 : S256x200.Slices ![0, 1] S256x192
  slices_S256x32x9_o0_0_2_S256x32x1 : S256x32x9.Slices ![0, 0, 2] S256x32x1
  slices_S256x200_o0_2_S256x192 : S256x200.Slices ![0, 2] S256x192
  slices_S256x32x9_o0_0_3_S256x32x1 : S256x32x9.Slices ![0, 0, 3] S256x32x1
  slices_S256x200_o0_3_S256x192 : S256x200.Slices ![0, 3] S256x192
  slices_S256x32x9_o0_0_4_S256x32x1 : S256x32x9.Slices ![0, 0, 4] S256x32x1
  slices_S256x200_o0_4_S256x192 : S256x200.Slices ![0, 4] S256x192
  slices_S256x32x9_o0_0_5_S256x32x1 : S256x32x9.Slices ![0, 0, 5] S256x32x1
  slices_S256x200_o0_5_S256x192 : S256x200.Slices ![0, 5] S256x192
  slices_S256x32x9_o0_0_6_S256x32x1 : S256x32x9.Slices ![0, 0, 6] S256x32x1
  slices_S256x200_o0_6_S256x192 : S256x200.Slices ![0, 6] S256x192
  slices_S256x32x9_o0_0_7_S256x32x1 : S256x32x9.Slices ![0, 0, 7] S256x32x1
  slices_S256x200_o0_7_S256x192 : S256x200.Slices ![0, 7] S256x192
  slices_S256x32x9_o0_0_8_S256x32x1 : S256x32x9.Slices ![0, 0, 8] S256x32x1
  slices_S256x200_o0_8_S256x192 : S256x200.Slices ![0, 8] S256x192
  inb_S32_S32_0 : ∀ a, (![0] : Fin 1 → Nat) a + S32.size a ≤ S32.size a
  h_S32 : 0 < S32.numel
  shapeCasts_S32_S1x32x1 : S32.ShapeCasts S1x32x1
  broadcasts_S1x32x1_S256x32x192 : S1x32x1.Broadcasts S256x32x192
  shapeCasts_S256x32x192_S256x6144 : S256x32x192.ShapeCasts S256x6144
  inb_S6144x200_S6144x200_0_0 : ∀ a, (![0, 0] : Fin 2 → Nat) a + S6144x200.size a ≤ S6144x200.size a
  h_S6144x200 : 0 < S6144x200.numel
  inb_S200_S200_0 : ∀ a, (![0] : Fin 1 → Nat) a + S200.size a ≤ S200.size a
  h_S200 : 0 < S200.numel
  shapeCasts_S200_S1x200 : S200.ShapeCasts S1x200
  broadcasts_S1x200_S256x200 : S1x200.Broadcasts S256x200
  pads_S100000x200_S101376x200_013760_000 : S100000x200.Pads (![0, 0] : Fin 2 → Nat) ![1376, 0] ![0, 0] S101376x200
  h_S_ : 0 < S_.numel
  pads_S100000_S101376_013760 : S100000.Pads (![0] : Fin 1 → Nat) ![1376] ![0] S101376
  shapeCasts_S101376_S1x101376 : S101376.ShapeCasts S1x101376
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S1536x200_S1536x200_0_0 : ∀ a, (![0, 0] : Fin 2 → Nat) a + S1536x200.size a ≤ S1536x200.size a
  h_S1536x200 : 0 < S1536x200.numel
  shapeCasts_S1536x200_S1536x200 : S1536x200.ShapeCasts S1536x200
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  slices_S1024x101376_S1024x100000_0_0 : S1024x101376.Slices ![0, 0] S1024x100000
  gather_S100000x200_S1024x1_S1024x200_1_0_n_n_0_1_1200_wf : GatherDims.WF S100000x200 S1024x1 S1024x200 [1] [0] [] [0] [] 1 ![1, 200]
  gather_S500x200_S1024x1_S1024x200_1_0_n_n_0_1_1200_wf : GatherDims.WF S500x200 S1024x1 S1024x200 [1] [0] [] [0] [] 1 ![1, 200]
  dot_S256x200_S200x288_S256x288_1_0_0_1_n_n_wf : DotDims.WF S256x200 S200x288 S256x288 [1] [0] [0] [1] [] []
  dot_S256x6144_S6144x200_S256x200_1_0_0_1_n_n_wf : DotDims.WF S256x6144 S6144x200 S256x200 [1] [0] [0] [1] [] []
  dot_S1024x200_S1536x200_S1024x1536_1_1_0_0_n_n_wf : DotDims.WF S1024x200 S1536x200 S1024x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x200.size a ≤ S1024x200.size a
  hwx0_0 : ∀ i : grid0.Coords, EltTy.bits .f32 = 32 ∨ (Rect.block (s := S1024x200) S256x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x200.size a ≤ S1024x200.size a
  hwx0_1 : ∀ i : grid0.Coords, EltTy.bits .f32 = 32 ∨ (Rect.block (s := S1024x200) S256x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x288.size a ≤ S200x288.size a
  hwx0_2 : ∀ i : grid0.Coords, EltTy.bits .f32 = 32 ∨ (Rect.block (s := S200x288) S200x288.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288.size a ≤ S288.size a
  hwx0_3 : ∀ i : grid0.Coords, EltTy.bits .f32 = 32 ∨ (Rect.block (s := S288) S288.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32.size a ≤ S32.size a
  hwx0_11 : ∀ i : grid0.Coords, EltTy.bits .f32 = 32 ∨ (Rect.block (s := S32) S32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S200.size a ≤ S200.size a
  hwx0_12 : ∀ i : grid0.Coords, EltTy.bits .f32 = 32 ∨ (Rect.block (s := S200) S200.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S200.size a ≤ S200.size a
  hwx0_13 : ∀ i : grid0.Coords, EltTy.bits .f32 = 32 ∨ (Rect.block (s := S200) S200.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S200.size a ≤ S200.size a
  hwx0_14 : ∀ i : grid0.Coords, EltTy.bits .f32 = 32 ∨ (Rect.block (s := S200) S200.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S200.size a ≤ S200.size a
  hwx0_15 : ∀ i : grid0.Coords, EltTy.bits .f32 = 32 ∨ (Rect.block (s := S200) S200.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S6144x200.size a ≤ S6144x200.size a
  hwx0_16 : ∀ i : grid0.Coords, EltTy.bits .f32 = 32 ∨ (Rect.block (s := S6144x200) S6144x200.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S200.size a ≤ S200.size a
  hwx0_17 : ∀ i : grid0.Coords, EltTy.bits .f32 = 32 ∨ (Rect.block (s := S200) S200.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x200.size a ≤ S1024x200.size a
  hwx0_18 : ∀ i : grid0.Coords, EltTy.bits .f32 = 32 ∨ (Rect.block (s := S1024x200) S256x200.size (cc0_transform_18 i) (hinb0_18 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x200.size a ≤ S1024x200.size a
  hwx1_0 : ∀ i : grid1.Coords, EltTy.bits .f32 = 32 ∨ (Rect.block (s := S1024x200) S1024x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1536x200.size a ≤ S101376x200.size a
  hwx1_1 : ∀ i : grid1.Coords, EltTy.bits .f32 = 32 ∨ (Rect.block (s := S101376x200) S1536x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1536.size a ≤ S1x101376.size a
  hwx1_2 : ∀ i : grid1.Coords, EltTy.bits .f32 = 32 ∨ (Rect.block (s := S1x101376) S1x1536.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1536.size a ≤ S1024x101376.size a
  hwx1_3 : ∀ i : grid1.Coords, EltTy.bits .f32 = 32 ∨ (Rect.block (s := S1024x101376) S1024x1536.size (cc1_transform_3 i) (hinb1_3 i)).WholeWords (EltTy.packing .f32)

variable [Facts₀]

def gather_S100000x200_S1024x1_S1024x200_1_0_n_n_0_1_1200 : GatherDims S100000x200 S1024x1 S1024x200 where
  offsetDims := [1]
  collapsedSliceDims := [0]
  operandBatchingDims := []
  startIndicesBatchingDims := []
  startIndexMap := [0]
  indexVectorDim := 1
  sliceSizes := ![1, 200]
  wf := gather_S100000x200_S1024x1_S1024x200_1_0_n_n_0_1_1200_wf
def gather_S500x200_S1024x1_S1024x200_1_0_n_n_0_1_1200 : GatherDims S500x200 S1024x1 S1024x200 where
  offsetDims := [1]
  collapsedSliceDims := [0]
  operandBatchingDims := []
  startIndicesBatchingDims := []
  startIndexMap := [0]
  indexVectorDim := 1
  sliceSizes := ![1, 200]
  wf := gather_S500x200_S1024x1_S1024x200_1_0_n_n_0_1_1200_wf
def dot_S256x200_S200x288_S256x288_1_0_0_1_n_n : DotDims S256x200 S200x288 S256x288 where
  lhsContracting := [1]
  rhsContracting := [0]
  lhsNonContracting := [0]
  rhsNonContracting := [1]
  lhsBatch := []
  rhsBatch := []
  wf := dot_S256x200_S200x288_S256x288_1_0_0_1_n_n_wf
def dot_S256x6144_S6144x200_S256x200_1_0_0_1_n_n : DotDims S256x6144 S6144x200 S256x200 where
  lhsContracting := [1]
  rhsContracting := [0]
  lhsNonContracting := [0]
  rhsNonContracting := [1]
  lhsBatch := []
  rhsBatch := []
  wf := dot_S256x6144_S6144x200_S256x200_1_0_0_1_n_n_wf
def dot_S1024x200_S1536x200_S1024x1536_1_1_0_0_n_n : DotDims S1024x200 S1536x200 S1024x1536 where
  lhsContracting := [1]
  rhsContracting := [1]
  lhsNonContracting := [0]
  rhsNonContracting := [0]
  lhsBatch := []
  rhsBatch := []
  wf := dot_S1024x200_S1536x200_S1024x1536_1_1_0_0_n_n_wf

abbrev win0_0 : Pipeline.Window sig grid0 :=
  Pipeline.Window.ofSpec (Memref.whole main_v6) S256x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S200x288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S288.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S200.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg17) S200.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg18) S200.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg19) S200.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg4) S6144x200.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg5) S200.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v14) S256x200.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v14) S1024x200.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1536x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x1536.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1024x1536.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024 : Shape := ⟨1, ![1024]⟩
abbrev S100000x200 : Shape := ⟨2, ![100000, 200]⟩
abbrev S500x200 : Shape := ⟨2, ![500, 200]⟩
abbrev S6144x200 : Shape := ⟨2, ![6144, 200]⟩
abbrev S200 : Shape := ⟨1, ![200]⟩
abbrev S200x288 : Shape := ⟨2, ![200, 288]⟩
abbrev S288 : Shape := ⟨1, ![288]⟩
abbrev S1 : Shape := ⟨1, ![1]⟩
abbrev S32 : Shape := ⟨1, ![32]⟩
abbrev S100000 : Shape := ⟨1, ![100000]⟩
abbrev S_ : Shape := ⟨0, ![]⟩
abbrev S1024x1 : Shape := ⟨2, ![1024, 1]⟩
abbrev S1024x200 : Shape := ⟨2, ![1024, 200]⟩
abbrev S1x1 : Shape := ⟨2, ![1, 1]⟩
abbrev S1024x288 : Shape := ⟨2, ![1024, 288]⟩
abbrev S1x288 : Shape := ⟨2, ![1, 288]⟩
abbrev S1024x32x9 : Shape := ⟨3, ![1024, 32, 9]⟩
abbrev S192 : Shape := ⟨1, ![192]⟩
abbrev S192x1 : Shape := ⟨2, ![192, 1]⟩
abbrev S9 : Shape := ⟨1, ![9]⟩
abbrev S1x9 : Shape := ⟨2, ![1, 9]⟩
abbrev S192x9 : Shape := ⟨2, ![192, 9]⟩
abbrev S192x9x1 : Shape := ⟨3, ![192, 9, 1]⟩
abbrev S1024x192x9 : Shape := ⟨3, ![1024, 192, 9]⟩
abbrev S1024x32x192 : Shape := ⟨3, ![1024, 32, 192]⟩
abbrev S32x1 : Shape := ⟨2, ![32, 1]⟩
abbrev S1x32x1 : Shape := ⟨3, ![1, 32, 1]⟩
abbrev S1024x6144 : Shape := ⟨2, ![1024, 6144]⟩
abbrev S1x200 : Shape := ⟨2, ![1, 200]⟩
abbrev S200x100000 : Shape := ⟨2, ![200, 100000]⟩
abbrev S1024x100000 : Shape := ⟨2, ![1024, 100000]⟩
abbrev S1x100000 : Shape := ⟨2, ![1, 100000]⟩

abbrev nBuf : Space → Nat
  | .hbm => 127
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x200, .f32⟩
  | .hbm, ⟨3, _⟩ => ⟨S500x200, .f32⟩
  | .hbm, ⟨4, _⟩ => ⟨S6144x200, .f32⟩
  | .hbm, ⟨5, _⟩ => ⟨S200, .f32⟩
  | .hbm, ⟨6, _⟩ => ⟨S200x288, .f32⟩
  | .hbm, ⟨7, _⟩ => ⟨S288, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S200, .f32⟩
  | .hbm, ⟨17, _⟩ => ⟨S200, .f32⟩
  | .hbm, ⟨18, _⟩ => ⟨S200, .f32⟩
  | .hbm, ⟨19, _⟩ => ⟨S200, .f32⟩
  | .hbm, ⟨20, _⟩ => ⟨S100000, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x200, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1024x200, .f32⟩
  | .hbm, ⟨39, _⟩ => ⟨S1x1, .f32⟩
  | .hbm, ⟨40, _⟩ => ⟨S1024x200, .f32⟩
  | .hbm, ⟨41, _⟩ => ⟨S1024x200, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S1, .f32⟩
  | .hbm, ⟨46, _⟩ => ⟨S1, .f32⟩
  | .hbm, ⟨47, _⟩ => ⟨S1x1, .f32⟩
  | .hbm, ⟨48, _⟩ => ⟨S1024x200, .f32⟩
  | .hbm, ⟨49, _⟩ => ⟨S1024x200, .f32⟩
  | .hbm, ⟨50, _⟩ => ⟨S1x1, .f32⟩
  | .hbm, ⟨51, _⟩ => ⟨S1024x200, .f32⟩
  | .hbm, ⟨52, _⟩ => ⟨S1024x200, .f32⟩
  | .hbm, ⟨53, _⟩ => ⟨S1024x288, .f32⟩
  | .hbm, ⟨54, _⟩ => ⟨S1x288, .f32⟩
  | .hbm, ⟨55, _⟩ => ⟨S1024x288, .f32⟩
  | .hbm, ⟨56, _⟩ => ⟨S1024x288, .f32⟩
  | .hbm, ⟨57, _⟩ => ⟨S1024x32x9, .f32⟩
  | .hbm, ⟨58, _⟩ => ⟨S192, .i32⟩
  | .hbm, ⟨59, _⟩ => ⟨S192x1, .i32⟩
  | .hbm, ⟨60, _⟩ => ⟨S9, .i32⟩
  | .hbm, ⟨61, _⟩ => ⟨S1x9, .i32⟩
  | .hbm, ⟨62, _⟩ => ⟨S192x9, .i32⟩
  | .hbm, ⟨63, _⟩ => ⟨S192x9, .i32⟩
  | .hbm, ⟨64, _⟩ => ⟨S192x9, .i32⟩
  | .hbm, ⟨65, _⟩ => ⟨S_, .i32⟩
  | .hbm, ⟨66, _⟩ => ⟨S192x9, .i32⟩
  | .hbm, ⟨67, _⟩ => ⟨S192x9, .i1⟩
  | .hbm, ⟨68, _⟩ => ⟨S_, .i32⟩
  | .hbm, ⟨69, _⟩ => ⟨S192x9, .i32⟩
  | .hbm, ⟨70, _⟩ => ⟨S192x9, .i32⟩
  | .hbm, ⟨71, _⟩ => ⟨S192x9, .i32⟩
  | .hbm, ⟨72, _⟩ => ⟨S192x9x1, .i32⟩
  | .hbm, ⟨73, _⟩ => ⟨S1024x192x9, .f32⟩
  | .hbm, ⟨74, _⟩ => ⟨S1024x32x192, .f32⟩
  | .hbm, ⟨75, _⟩ => ⟨S32x1, .f32⟩
  | .hbm, ⟨76, _⟩ => ⟨S1x32x1, .f32⟩
  | .hbm, ⟨77, _⟩ => ⟨S1024x32x192, .f32⟩
  | .hbm, ⟨78, _⟩ => ⟨S1024x32x192, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S32, .f32⟩
  | .hbm, ⟨83, _⟩ => ⟨S32, .f32⟩
  | .hbm, ⟨84, _⟩ => ⟨S32x1, .f32⟩
  | .hbm, ⟨85, _⟩ => ⟨S1x32x1, .f32⟩
  | .hbm, ⟨86, _⟩ => ⟨S1024x32x192, .f32⟩
  | .hbm, ⟨87, _⟩ => ⟨S1024x32x192, .f32⟩
  | .hbm, ⟨88, _⟩ => ⟨S32x1, .f32⟩
  | .hbm, ⟨89, _⟩ => ⟨S1x32x1, .f32⟩
  | .hbm, ⟨90, _⟩ => ⟨S1024x32x192, .f32⟩
  | .hbm, ⟨91, _⟩ => ⟨S1024x32x192, .f32⟩
  | .hbm, ⟨92, _⟩ => ⟨S1024x6144, .f32⟩
  | .hbm, ⟨93, _⟩ => ⟨S1024x200, .f32⟩
  | .hbm, ⟨94, _⟩ => ⟨S1x200, .f32⟩
  | .hbm, ⟨95, _⟩ => ⟨S1024x200, .f32⟩
  | .hbm, ⟨96, _⟩ => ⟨S1024x200, .f32⟩
  | .hbm, ⟨97, _⟩ => ⟨S1x200, .f32⟩
  | .hbm, ⟨98, _⟩ => ⟨S1024x200, .f32⟩
  | .hbm, ⟨99, _⟩ => ⟨S1024x200, .f32⟩
  | .hbm, ⟨100, _⟩ => ⟨S_, .f32⟩
  | .hbm, ⟨101, _⟩ => ⟨S200, .f32⟩
  | .hbm, ⟨102, _⟩ => ⟨S200, .f32⟩
  | .hbm, ⟨103, _⟩ => ⟨S200, .f32⟩
  | .hbm, ⟨104, _⟩ => ⟨S200, .f32⟩
  | .hbm, ⟨105, _⟩ => ⟨S1x200, .f32⟩
  | .hbm, ⟨106, _⟩ => ⟨S1024x200, .f32⟩
  | .hbm, ⟨107, _⟩ => ⟨S1024x200, .f32⟩
  | .hbm, ⟨108, _⟩ => ⟨S1x200, .f32⟩
  | .hbm, ⟨109, _⟩ => ⟨S1024x200, .f32⟩
  | .hbm, ⟨110, _⟩ => ⟨S1024x200, .f32⟩
  | .hbm, ⟨111, _⟩ => ⟨S_, .f32⟩
  | .hbm, ⟨112, _⟩ => ⟨S1024x200, .f32⟩
  | .hbm, ⟨113, _⟩ => ⟨S1024x200, .f32⟩
  | .hbm, ⟨114, _⟩ => ⟨S200x100000, .f32⟩
  | .hbm, ⟨115, _⟩ => ⟨S1024x100000, .f32⟩
  | .hbm, ⟨116, _⟩ => ⟨S1x100000, .f32⟩
  | .hbm, ⟨117, _⟩ => ⟨S1024x100000, .f32⟩
  | .hbm, ⟨118, _⟩ => ⟨S1024x100000, .f32⟩
  | .hbm, ⟨119, _⟩ => ⟨S1024x100000, .f32⟩
  | .hbm, ⟨120, _⟩ => ⟨S1024x100000, .f32⟩
  | .hbm, ⟨121, _⟩ => ⟨S_, .f32⟩
  | .hbm, ⟨122, _⟩ => ⟨S1024x100000, .f32⟩
  | .hbm, ⟨123, _⟩ => ⟨S1024x100000, .f32⟩
  | .hbm, ⟨124, _⟩ => ⟨S_, .f32⟩
  | .hbm, ⟨125, _⟩ => ⟨S1024x100000, .f32⟩
  | .hbm, ⟨126, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_3 : Ref sig .tc := ⟨.hbm, 65, rfl⟩
abbrev main_v39 : Ref sig .tc := ⟨.hbm, 66, rfl⟩
abbrev main_v40 : Ref sig .tc := ⟨.hbm, 67, rfl⟩
abbrev main_c_4 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_6 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call0_cst : Ref sig .tc := ⟨.hbm, 111, rfl⟩
abbrev main_call0_v0 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_7 : Ref sig .tc := ⟨.hbm, 121, rfl⟩
abbrev main_v89 : Ref sig .tc := ⟨.hbm, 122, rfl⟩
abbrev main_v90 : Ref sig .tc := ⟨.hbm, 123, rfl⟩
abbrev main_cst_8 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1_S1x1_1 : S1.BroadcastsInDim S1x1 (![1] : Fin 1 → Fin S1x1.rank)
  bcast_S1x1_S1024x200_0_1 : S1x1.BroadcastsInDim S1024x200 (![0, 1] : Fin 2 → Fin S1024x200.rank)
  bcast_S_S1 : S_.BroadcastsInDim S1 (![] : Fin 0 → Fin S1.rank)
  bcast_S288_S1x288_1 : S288.BroadcastsInDim S1x288 (![1] : Fin 1 → Fin S1x288.rank)
  bcast_S1x288_S1024x288_0_1 : S1x288.BroadcastsInDim S1024x288 (![0, 1] : Fin 2 → Fin S1024x288.rank)
  shapeCasts_S1024x288_S1024x32x9 : S1024x288.ShapeCasts S1024x32x9
  bcast_S192_S192x1_0 : S192.BroadcastsInDim S192x1 (![0] : Fin 1 → Fin S192x1.rank)
  bcast_S9_S1x9_1 : S9.BroadcastsInDim S1x9 (![1] : Fin 1 → Fin S1x9.rank)
  bcast_S192x1_S192x9_0_1 : S192x1.BroadcastsInDim S192x9 (![0, 1] : Fin 2 → Fin S192x9.rank)
  bcast_S1x9_S192x9_0_1 : S1x9.BroadcastsInDim S192x9 (![0, 1] : Fin 2 → Fin S192x9.rank)
  bcast_S_S192x9 : S_.BroadcastsInDim S192x9 (![] : Fin 0 → Fin S192x9.rank)
  bcast_S192x9_S192x9x1_0_1 : S192x9.BroadcastsInDim S192x9x1 (![0, 1] : Fin 2 → Fin S192x9x1.rank)
  bcast_S32_S32x1_0 : S32.BroadcastsInDim S32x1 (![0] : Fin 1 → Fin S32x1.rank)
  bcast_S32x1_S1x32x1_1_2 : S32x1.BroadcastsInDim S1x32x1 (![1, 2] : Fin 2 → Fin S1x32x1.rank)
  bcast_S1x32x1_S1024x32x192_0_1_2 : S1x32x1.BroadcastsInDim S1024x32x192 (![0, 1, 2] : Fin 3 → Fin S1024x32x192.rank)
  bcast_S_S32 : S_.BroadcastsInDim S32 (![] : Fin 0 → Fin S32.rank)
  shapeCasts_S1024x32x192_S1024x6144 : S1024x32x192.ShapeCasts S1024x6144
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  bcast_S_S200 : S_.BroadcastsInDim S200 (![] : Fin 0 → Fin S200.rank)
  bcast_S_S1024x200 : S_.BroadcastsInDim S1024x200 (![] : Fin 0 → Fin S1024x200.rank)
  transposes_S100000x200_S200x100000_1_0 : S100000x200.Transposes [1, 0] S200x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  bcast_S_S1024x100000 : S_.BroadcastsInDim S1024x100000 (![] : Fin 0 → Fin S1024x100000.rank)
  gather_S100000x200_S1024x1_S1024x200_1_0_n_n_0_1_1200_wf : GatherDims.WF S100000x200 S1024x1 S1024x200 [1] [0] [] [0] [] 1 ![1, 200]
  gather_S500x200_S1024x1_S1024x200_1_0_n_n_0_1_1200_wf : GatherDims.WF S500x200 S1024x1 S1024x200 [1] [0] [] [0] [] 1 ![1, 200]
  dot_S1024x200_S200x288_S1024x288_1_0_0_1_n_n_wf : DotDims.WF S1024x200 S200x288 S1024x288 [1] [0] [0] [1] [] []
  gather_S1024x200_S192x9x1_S1024x192x9_0_1_n_n_1_2_10241_wf : GatherDims.WF S1024x200 S192x9x1 S1024x192x9 [0] [1] [] [1] [] 2 ![1024, 1]
  dot_S1024x32x9_S1024x192x9_S1024x32x192_2_2_1_1_0_0_wf : DotDims.WF S1024x32x9 S1024x192x9 S1024x32x192 [2] [2] [1] [1] [0] [0]
  dot_S1024x6144_S6144x200_S1024x200_1_0_0_1_n_n_wf : DotDims.WF S1024x6144 S6144x200 S1024x200 [1] [0] [0] [1] [] []
  dot_S1024x200_S200x100000_S1024x100000_1_0_0_1_n_n_wf : DotDims.WF S1024x200 S200x100000 S1024x100000 [1] [0] [0] [1] [] []

variable [Facts₀]

def gather_S100000x200_S1024x1_S1024x200_1_0_n_n_0_1_1200 : GatherDims S100000x200 S1024x1 S1024x200 where
  offsetDims := [1]
  collapsedSliceDims := [0]
  operandBatchingDims := []
  startIndicesBatchingDims := []
  startIndexMap := [0]
  indexVectorDim := 1
  sliceSizes := ![1, 200]
  wf := gather_S100000x200_S1024x1_S1024x200_1_0_n_n_0_1_1200_wf
def gather_S500x200_S1024x1_S1024x200_1_0_n_n_0_1_1200 : GatherDims S500x200 S1024x1 S1024x200 where
  offsetDims := [1]
  collapsedSliceDims := [0]
  operandBatchingDims := []
  startIndicesBatchingDims := []
  startIndexMap := [0]
  indexVectorDim := 1
  sliceSizes := ![1, 200]
  wf := gather_S500x200_S1024x1_S1024x200_1_0_n_n_0_1_1200_wf
def dot_S1024x200_S200x288_S1024x288_1_0_0_1_n_n : DotDims S1024x200 S200x288 S1024x288 where
  lhsContracting := [1]
  rhsContracting := [0]
  lhsNonContracting := [0]
  rhsNonContracting := [1]
  lhsBatch := []
  rhsBatch := []
  wf := dot_S1024x200_S200x288_S1024x288_1_0_0_1_n_n_wf
def gather_S1024x200_S192x9x1_S1024x192x9_0_1_n_n_1_2_10241 : GatherDims S1024x200 S192x9x1 S1024x192x9 where
  offsetDims := [0]
  collapsedSliceDims := [1]
  operandBatchingDims := []
  startIndicesBatchingDims := []
  startIndexMap := [1]
  indexVectorDim := 2
  sliceSizes := ![1024, 1]
  wf := gather_S1024x200_S192x9x1_S1024x192x9_0_1_n_n_1_2_10241_wf
def dot_S1024x32x9_S1024x192x9_S1024x32x192_2_2_1_1_0_0 : DotDims S1024x32x9 S1024x192x9 S1024x32x192 where
  lhsContracting := [2]
  rhsContracting := [2]
  lhsNonContracting := [1]
  rhsNonContracting := [1]
  lhsBatch := [0]
  rhsBatch := [0]
  wf := dot_S1024x32x9_S1024x192x9_S1024x32x192_2_2_1_1_0_0_wf
def dot_S1024x6144_S6144x200_S1024x200_1_0_0_1_n_n : DotDims S1024x6144 S6144x200 S1024x200 where
  lhsContracting := [1]
  rhsContracting := [0]
  lhsNonContracting := [0]
  rhsNonContracting := [1]
  lhsBatch := []
  rhsBatch := []
  wf := dot_S1024x6144_S6144x200_S1024x200_1_0_0_1_n_n_wf
def dot_S1024x200_S200x100000_S1024x100000_1_0_0_1_n_n : DotDims S1024x200 S200x100000 S1024x100000 where
  lhsContracting := [1]
  rhsContracting := [0]
  lhsNonContracting := [0]
  rhsNonContracting := [1]
  lhsBatch := []
  rhsBatch := []
  wf := dot_S1024x200_S200x100000_S1024x100000_1_0_0_1_n_n_wf

class Facts : Prop extends Facts₀ where

variable [Facts]
-- ==== Proof.RowMath.lean ====
/-
  The mathematics of the scoring network, one sample (one row of the batch) at a time, over the extended reals.

  A sample has an entity row `e` and a relation row `r` (200 entries each). The entity row is normalised
  (`xrow`), the relation row is sent through a 200 × 288 linear map to 32 filters of 9 taps (`filt`), each filter
  slides over the normalised row (`conv`: position `l` reads entries `l … l + 8`), every channel is normalised
  (`ybn`), the 32 × 192 results are flattened channel-major and sent through a 6144 × 200 linear map (`hpre`),
  normalised once more and clipped at zero (`hrow`). The score of a sample against an entity row is the
  logistic function of their inner product plus a bias (`score`).

  Two things are parameters, because the two programs spell them differently: `sc g v`, the factor a
  normalisation multiplies by (gain `g`, variance `v`), and `cv`, how nine tap products are added up.
-/
import Idealize.ShloMosaic.PureOps.Ideal
import Idealize.ShloMosaic.Lib.ValueIdx

noncomputable section

namespace Cert.HyperConv

open Idealize.ShloMosaic Idealize.ShloMosaic.ValueIdx

/-- The stabiliser added to a variance: the binary32 number nearest 1e-5, read exactly. -/
abbrev eps : EReal := Ideal.ofBits .f32 0x3727C5AC#32

/-- Gain times the reciprocal square root of the stabilised variance. -/
def scaleMul (g v : EReal) : EReal := g * Ideal.rsqrt (v + eps)

/-- Gain divided by the square root of the stabilised variance. -/
def scaleDiv (g v : EReal) : EReal := Ideal.div g (Ideal.sqrt (v + eps))

/-- Nine terms added one after the other onto zero. -/
def tapsInOrder (f : Fin 9 → EReal) : EReal :=
  ((((((((0 + f 0) + f 1) + f 2) + f 3) + f 4) + f 5) + f 6) + f 7) + f 8

/-- Nine terms as one finite sum. -/
def tapsSum (f : Fin 9 → EReal) : EReal := ∑ w : Fin 9, f w

/-- The network's weights: the filter map, the three normalisations (gain, shift, mean, variance) and the
    output map. -/
structure Params where
  W1 : (⟨2, ![200, 288]⟩ : Shape).Idx → EReal
  c1 : (⟨1, ![288]⟩ : Shape).Idx → EReal
  g0 : (⟨1, ![1]⟩ : Shape).Idx → EReal
  b0 : (⟨1, ![1]⟩ : Shape).Idx → EReal
  m0 : (⟨1, ![1]⟩ : Shape).Idx → EReal
  v0 : (⟨1, ![1]⟩ : Shape).Idx → EReal
  g1 : (⟨1, ![32]⟩ : Shape).Idx → EReal
  b1 : (⟨1, ![32]⟩ : Shape).Idx → EReal
  m1 : (⟨1, ![32]⟩ : Shape).Idx → EReal
  v1 : (⟨1, ![32]⟩ : Shape).Idx → EReal
  g2 : (⟨1, ![200]⟩ : Shape).Idx → EReal
  b2 : (⟨1, ![200]⟩ : Shape).Idx → EReal
  m2 : (⟨1, ![200]⟩ : Shape).Idx → EReal
  v2 : (⟨1, ![200]⟩ : Shape).Idx → EReal
  Wf : (⟨2, ![6144, 200]⟩ : Shape).Idx → EReal
  cf : (⟨1, ![200]⟩ : Shape).Idx → EReal

/-- The normalised entity row. -/
def xrow (sc : EReal → EReal → EReal) (P : Params) (e : Fin 200 → EReal) (j : Fin 200) : EReal :=
  (e j - P.m0 (ix1 0)) * sc (P.g0 (ix1 0)) (P.v0 (ix1 0)) + P.b0 (ix1 0)

/-- The sample's 288 filter taps (32 filters of 9, filter-major). -/
def filt (P : Params) (r : Fin 200 → EReal) (n : Fin 288) : EReal :=
  (∑ k : Fin 200, r k * P.W1 (ix2 k n)) + P.c1 (ix1 n)

/-- Filter `o` at position `l`: tap `w` times entry `l + w` of the normalised row, the nine added by `cv`. -/
def conv (sc : EReal → EReal → EReal) (cv : (Fin 9 → EReal) → EReal) (P : Params) (e r : Fin 200 → EReal)
    (o : Fin 32) (l : Fin 192) : EReal :=
  cv fun w => filt P r ⟨o.val * 9 + w.val, by omega⟩ * xrow sc P e ⟨l.val + w.val, by omega⟩

/-- The channel normalisation of the sliding products. -/
def ybn (sc : EReal → EReal → EReal) (cv : (Fin 9 → EReal) → EReal) (P : Params) (e r : Fin 200 → EReal)
    (o : Fin 32) (l : Fin 192) : EReal :=
  (conv sc cv P e r o l - P.m1 (ix1 o)) * sc (P.g1 (ix1 o)) (P.v1 (ix1 o)) + P.b1 (ix1 o)

/-- The output map on the 6144 flattened entries (entry `k` is channel `k / 192`, position `k % 192`). -/
def hpre (sc : EReal → EReal → EReal) (cv : (Fin 9 → EReal) → EReal) (P : Params) (e r : Fin 200 → EReal)
    (j : Fin 200) : EReal :=
  (∑ k : Fin 6144, ybn sc cv P e r ⟨k.val / 192, by omega⟩ ⟨k.val % 192, by omega⟩ * P.Wf (ix2 k j)) + P.cf (ix1 j)

/-- The sample's hidden row: the last normalisation, clipped at zero. -/
def hrow (sc : EReal → EReal → EReal) (cv : (Fin 9 → EReal) → EReal) (P : Params) (e r : Fin 200 → EReal)
    (j : Fin 200) : EReal :=
  max ((hpre sc cv P e r j - P.m2 (ix1 j)) * sc (P.g2 (ix1 j)) (P.v2 (ix1 j)) + P.b2 (ix1 j)) 0

/-- The score of a hidden row against an entity row with bias `c`. -/
def score (h e : Fin 200 → EReal) (c : EReal) : EReal :=
  Ideal.logistic ((∑ d : Fin 200, h d * e d) + c)

end Cert.HyperConv

end
-- ==== Proof.RowLaws.lean ====
/-
  The two spellings of the network agree wherever every variance is nonnegative.

  The stabiliser is a positive real, so a nonnegative variance plus the stabiliser is a positive real (or +∞), and there
  the reciprocal square root is the inverse of the square root: gain times the one is gain divided by the other.
  (Below zero the two spellings part: the reciprocal square root of a negative number is read as −∞ while a quotient by
  the square root's −∞ is zero. That is why the variances' sign is asked of the inputs.) Nine terms added one after the
  other onto zero are their finite sum. The hidden row is built from these two pieces only, so the two spellings of the
  hidden row agree.
-/
import proofs.«159688_j3453153706530_1_alg».proof.Proof.RowMath

noncomputable section

namespace Cert.HyperConv

open Idealize.ShloMosaic Idealize.ShloMosaic.ValueIdx

/-- The stabiliser's exact value: 10995116 · 2⁻⁴⁰, a positive real. -/
theorem eps_eq : eps = (((10995116 : ℝ) * (2 : ℝ) ^ (-40 : ℤ) : ℝ) : EReal) := by
  unfold eps
  simp [Ideal.ofBits, Ideal.ieee, -EReal.coe_mul]

theorem eps_pos_real : (0 : ℝ) < (10995116 : ℝ) * (2 : ℝ) ^ (-40 : ℤ) := by positivity

/-- For a nonnegative variance, gain times the reciprocal square root is gain divided by the square root. -/
theorem scale_eq (g v : EReal) (hv : 0 ≤ v) : scaleMul g v = scaleDiv g v := by
  unfold scaleMul scaleDiv
  rw [eps_eq]
  induction v using EReal.rec with
  | bot => exact absurd hv (by simp)
  | top =>
    rw [EReal.top_add_coe, Ideal.rsqrt_top, Ideal.sqrt_top, mul_zero]
    unfold Ideal.div
    rw [if_neg (by simp), EReal.inv_top, mul_zero]
  | coe x =>
    have hx : 0 ≤ x := by exact_mod_cast hv
    have hpos : 0 < x + (10995116 : ℝ) * (2 : ℝ) ^ (-40 : ℤ) := add_pos_of_nonneg_of_pos hx eps_pos_real
    rw [← EReal.coe_add, Ideal.rsqrt_coe, Ideal.sqrt_coe, if_neg (not_lt.mpr hpos.le), if_neg hpos.ne',
      if_neg (not_lt.mpr hpos.le)]
    unfold Ideal.div
    have hs : ((Real.sqrt (x + (10995116 : ℝ) * (2 : ℝ) ^ (-40 : ℤ)) : ℝ) : EReal) ≠ 0 := by
      exact_mod_cast (Real.sqrt_pos.mpr hpos).ne'
    rw [if_neg hs, ← EReal.coe_inv]

/-- Nine terms added in order onto zero are their sum. -/
theorem taps_eq (f : Fin 9 → EReal) : tapsInOrder f = tapsSum f := by
  unfold tapsInOrder tapsSum
  rw [Fin.sum_univ_castSucc, Fin.sum_univ_eight, zero_add]
  rfl

/-- The two spellings of the hidden row agree when every variance is nonnegative. -/
theorem hrow_eq (P : Params) (e r : Fin 200 → EReal) (h0 : 0 ≤ P.v0 (ix1 0)) (h1 : ∀ o : Fin 32, 0 ≤ P.v1 (ix1 o))
    (h2 : ∀ j : Fin 200, 0 ≤ P.v2 (ix1 j)) (j : Fin 200) :
    hrow scaleMul tapsInOrder P e r j = hrow scaleDiv tapsSum P e r j := by
  have hx : ∀ j, xrow scaleMul P e j = xrow scaleDiv P e j := fun j => by
    unfold xrow; rw [scale_eq _ _ h0]
  have hc : ∀ o l, conv scaleMul tapsInOrder P e r o l = conv scaleDiv tapsSum P e r o l := fun o l => by
    unfold conv; rw [taps_eq]; simp only [hx]
  have hy : ∀ o l, ybn scaleMul tapsInOrder P e r o l = ybn scaleDiv tapsSum P e r o l := fun o l => by
    unfold ybn; rw [hc, scale_eq _ _ (h1 o)]
  have hp : ∀ j, hpre scaleMul tapsInOrder P e r j = hpre scaleDiv tapsSum P e r j := fun j => by
    unfold hpre; simp only [hy]
  unfold hrow
  rw [hp, scale_eq _ _ (h2 j)]

end Cert.HyperConv

end
-- ==== Proof.PreDecode.lean ====
/-
  What the precondition says about the three variance inputs: every entry is at least zero. The precondition is one
  conjunction of "all entries of …" tests; the last three compare a variance array with zero.

  The conjunction is a left-nested chain of `and`s of one-bit words, so the last three tests are its three outermost
  conjuncts: a chain that is 1 has each of them 1. A test "all entries of x are ≥ 0" is an `and`-reduction of the
  entrywise comparison of x with the zero array; it is 1 only if every entry's comparison is 1, and at the extended
  reals the comparison `x ≥ 0` is the order's own `0 ≤ x`.
-/
import proofs.«159688_j3453153706530_1_alg».proof.Pre_finite_inputs
import proofs.«159688_j3453153706530_1_alg».proof.Proof.Gen.Pre_finite_inputs
import Idealize.ShloMosaic.PureOps.Ideal
import Idealize.ShloMosaic.PureOps.Ideal.Laws
import Idealize.ShloMosaic.Lib.ValueIdx
import Idealize.ShloMosaic.Lib.IdealHost
import Idealize.ShloMosaic.Lib.ReduceAll
import Idealize.ShloMosaic.Lib.StableHlo.Predicate

noncomputable section

namespace Cert.Pre_finite_inputs.Decode

open Cert.Pre_finite_inputs Idealize.ShloMosaic Idealize.ShloMosaic.ValueIdx

/-- The rank-0 shape has exactly one index. -/
instance scalarIdxSubsingleton : Subsingleton S_.Idx := ⟨fun a b => funext fun d => d.elim0⟩

/-- At the extended reals the comparison "x ≥ y" that came out 1 is the order's `y ≤ x`. -/
theorem le_of_cmp_oge {x y : EReal} (h : Ideal.cmp .oge x y = 1#1) : y ≤ x := by
  change BitVec.ofBool (decide (y ≤ x)) = 1#1 at h
  cases hd : decide (y ≤ x) with
  | true => exact of_decide_eq_true hd
  | false => rw [hd] at h; exact absurd h (by decide)

/-- A test "all entries of x are ≥ 0" (the `and`-reduction, over every axis, of the entrywise comparison of x with the
    zero scalar spread over x's shape) that came out 1 says every entry of x is at least zero. -/
theorem all_ge_zero {s : Shape} {axes : List (Fin s.rank)} (hb : S_.BroadcastsInDim s (![] : Fin 0 → Fin s.rank))
    (hr : s.ReducesTo axes S_) (hu : 0 < S_.numel) (x : FVec Ideal s .f32) (init : IVec S_ 1) (j : S_.Idx)
    (e : Host.reduce IntOp.andi
        (cmpf .oge x (broadcastInDim s ![] hb (constant (F := Ideal) S_ .f32 0x00000000#32))) init hr hu j = 1#1) :
    ∀ i, (0 : EReal) ≤ x i := by
  intro i
  have h1 := Host.reduce_andi_all _ init hr hu j e i
  rw [cmpf_apply, broadcastInDim_scalar_apply, constant_apply, Ideal.ofBits_zero_f32] at h1
  exact le_of_cmp_oge h1

/-- The last stretch of the chain: if it is 1, the chain so far was 1 and the last variance array is entrywise ≥ 0. -/
theorem part6_one [Cert.Pre_finite_inputs.Facts] (a19 : FVec Ideal S200 .f32) (v : IVec S_ 1) (h : fn_part6 (F := Ideal) a19 v ix0 = 1#1) :
    v ix0 = 1#1 ∧ ∀ i, (0 : EReal) ≤ a19 i := by
  dsimp only [fn_part6] at h
  obtain ⟨hv, h1⟩ := IntOp.andi_eq_one.1 h
  exact ⟨hv, all_ge_zero _ _ _ a19 _ _ h1⟩

/-- The stretch before it ends in the tests of the first two variance arrays and then calls the last stretch: if the
    whole is 1, all three variance arrays are entrywise ≥ 0. (The earlier conjuncts of the chain are not opened.) -/
theorem part5_one [Cert.Pre_finite_inputs.Facts] (a11 : FVec Ideal S1 .f32) (a15 : FVec Ideal S32 .f32) (a19 : FVec Ideal S200 .f32)
    (a20 : FVec Ideal S100000 .f32) (v83 : IVec S_ 1) (v84 : FVec Ideal S200 .f32) (c32 : FVec Ideal S_ .f32)
    (h : fn_part5 (F := Ideal) a11 a15 a19 a20 v83 v84 c32 ix0 = 1#1) :
    (∀ i, (0 : EReal) ≤ a11 i) ∧ (∀ i, (0 : EReal) ≤ a15 i) ∧ (∀ i, (0 : EReal) ≤ a19 i) := by
  dsimp only [fn_part5] at h
  obtain ⟨h101, h19⟩ := part6_one a19 _ h
  obtain ⟨h97, h100⟩ := IntOp.andi_eq_one.1 h101
  obtain ⟨-, h96⟩ := IntOp.andi_eq_one.1 h97
  exact ⟨all_ge_zero _ _ _ a11 _ _ h96, all_ge_zero _ _ _ a15 _ _ h100, h19⟩

/-- Under the precondition every variance entry is nonnegative. -/
theorem variances_nonneg [Cert.Pre_finite_inputs.Facts] (a0 a1 : IVec S1024 32) (a2 : FVec Ideal S100000x200 .f32) (a3 : FVec Ideal S500x200 .f32)
    (a4 : FVec Ideal S6144x200 .f32) (a5 : FVec Ideal S200 .f32) (a6 : FVec Ideal S200x288 .f32) (a7 : FVec Ideal S288 .f32)
    (a8 a9 a10 a11 : FVec Ideal S1 .f32) (a12 a13 a14 a15 : FVec Ideal S32 .f32) (a16 a17 a18 a19 : FVec Ideal S200 .f32)
    (a20 : FVec Ideal S100000 .f32)
    (h : Cert.Pre_finite_inputs.fn (F := Ideal) a0 a1 a2 a3 a4 a5 a6 a7 a8 a9 a10 a11 a12 a13 a14 a15 a16 a17 a18 a19 a20
      = fun _ => 1#1) :
    (∀ i, (0 : EReal) ≤ a11 i) ∧ (∀ i, (0 : EReal) ≤ a15 i) ∧ (∀ i, (0 : EReal) ≤ a19 i) := by
  have h0 : Cert.Pre_finite_inputs.fn (F := Ideal) a0 a1 a2 a3 a4 a5 a6 a7 a8 a9 a10 a11 a12 a13 a14 a15 a16 a17 a18 a19 a20 ix0
      = 1#1 := congrFun h ix0
  dsimp only [fn, fn_part1, fn_part2, fn_part3, fn_part4] at h0
  exact part5_one a11 a15 a19 a20 _ _ _ h0

end Cert.Pre_finite_inputs.Decode

end
-- ==== Proof.LayoutReads.lean ====
/-
  Layout operations read at an index given by coordinates: the forms a convolution written as broadcast
  products meets. A column of taps `[a, b, 1]` stretched along a new last axis, a row `[a, 1, c]` stretched
  along a new middle axis, a per-channel vector `[1, b, 1]` stretched over rows and positions, a single entry
  `[1, 1]` stretched over a matrix; the shape casts that add or drop the unit axis those broadcasts need; a
  slice along the last of three axes; and the two casts between a matrix `[a, b * c]` and the stack
  `[a, b, c]` of its rows cut into `b` pieces of `c`. Each lemma rewrites the operation at coordinates to
  its operand at coordinates, for any extents.
-/
import Idealize.ShloMosaic.Lib.ValueIdx
import Idealize.ShloMosaic.Lib.ValueLayout
import Idealize.ShloMosaic.Lib.Pipeline.Value

namespace Cert.LayoutReads

open Idealize.ShloMosaic Idealize.ShloMosaic.ValueIdx

variable {α : Type}

/-! ## Broadcasts -/

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a, b, 1]` array broadcast to `[a, b, c]` reads, at `(p, o, l)`, the operand at `(p, o, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (o : Fin b) (l : Fin c) :
    broadcastTo ⟨3, ![a, b, c]⟩ v h (ix3 p o l) = v (ix3 p o (0 : Fin 1)) := by
  refine broadcastTo_apply v h (ix3 p o l) (ix3 p o (0 : Fin 1)) fun ax => ?_
  match ax with
  | ⟨0, _⟩ =>
    show p.val = if a = 1 then 0 else p.val
    split
    · have := p.isLt; omega
    · rfl
  | ⟨1, _⟩ =>
    show o.val = if b = 1 then 0 else o.val
    split
    · have := o.isLt; omega
    · rfl
  | ⟨2, _⟩ => rfl

/-- An `[a, 1, c]` array broadcast to `[a, b, c]` reads, at `(p, o, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (o : Fin b) (l : Fin c) :
    broadcastTo ⟨3, ![a, b, c]⟩ v h (ix3 p o l) = v (ix3 p (0 : Fin 1) l) := by
  refine broadcastTo_apply v h (ix3 p o l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, 1]` array broadcast to `[a, b, c]` reads, at `(p, o, l)`, the operand at `(0, o, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (o : Fin b) (l : Fin c) :
    broadcastTo ⟨3, ![a, b, c]⟩ v h (ix3 p o l) = v (ix3 (0 : Fin 1) o (0 : Fin 1)) := by
  refine broadcastTo_apply v h (ix3 p o l) (ix3 (0 : Fin 1) o (0 : Fin 1)) fun ax => ?_
  match ax with
  | ⟨0, _⟩ => rfl
  | ⟨1, _⟩ =>
    show o.val = if b = 1 then 0 else o.val
    split
    · have := o.isLt; omega
    · rfl
  | ⟨2, _⟩ => rfl

/-! ## Shape casts that add or drop a unit axis -/

/-- An `[a, b, 1]` array cast to `[a, b]` reads, at `(p, o)`, the operand at `(p, o, 0)`. -/
theorem shapeCast_ab1_ab_apply {a b : ℕ} (x : (⟨3, ![a, b, 1]⟩ : Shape).Idx → α)
    (h : (⟨3, ![a, b, 1]⟩ : Shape).ShapeCasts ⟨2, ![a, b]⟩) (p : Fin a) (o : Fin b) :
    shapeCast ⟨2, ![a, b]⟩ x h (ix2 p o) = x (ix3 p o (0 : Fin 1)) :=
  shapeCast_apply x h _ _ (by
    rw [Shape.rowMajor_val_three, Shape.rowMajor_val_two]
    show (p.val * b + o.val) * 1 + 0 = p.val * b + o.val
    rw [Nat.mul_one, Nat.add_zero])

/-- An `[a, b]` array cast to `[a, b, 1]` reads, at `(p, o, u)`, the operand at `(p, o)`. -/
theorem shapeCast_ab_ab1_apply {a b : ℕ} (x : (⟨2, ![a, b]⟩ : Shape).Idx → α)
    (h : (⟨2, ![a, b]⟩ : Shape).ShapeCasts ⟨3, ![a, b, 1]⟩) (p : Fin a) (o : Fin b) (u : Fin 1) :
    shapeCast ⟨3, ![a, b, 1]⟩ x h (ix3 p o u) = x (ix2 p o) :=
  shapeCast_apply x h _ _ (by
    have hu : u.val = 0 := by omega
    rw [Shape.rowMajor_val_three, Shape.rowMajor_val_two]
    show p.val * b + o.val = (p.val * b + o.val) * 1 + u.val
    rw [hu, Nat.mul_one, Nat.add_zero])

/-- An `[a, c]` array cast to `[a, 1, c]` reads, at `(p, u, l)`, the operand at `(p, l)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (l : Fin c) :
    shapeCast ⟨3, ![a, 1, c]⟩ x h (ix3 p u l) = x (ix2 p l) :=
  shapeCast_apply x h _ _ (by
    have hu : u.val = 0 := by omega
    rw [Shape.rowMajor_val_three, Shape.rowMajor_val_two]
    show p.val * c + l.val = (p.val * 1 + u.val) * c + l.val
    rw [hu, Nat.mul_one, Nat.add_zero])

/-- A `[b]` array cast to `[1, b, 1]` reads, at `(u, o, w)`, the operand at `o`. -/
theorem shapeCast_b_1b1_apply {b : ℕ} (x : (⟨1, ![b]⟩ : Shape).Idx → α)
    (h : (⟨1, ![b]⟩ : Shape).ShapeCasts ⟨3, ![1, b, 1]⟩) (u : Fin 1) (o : Fin b) (w : Fin 1) :
    shapeCast ⟨3, ![1, b, 1]⟩ x h (ix3 u o w) = x (ix1 o) :=
  shapeCast_apply x h _ _ (by
    have hu : u.val = 0 := by omega
    have hw : w.val = 0 := by omega
    rw [Shape.rowMajor_val_three, Shape.rowMajor_val_one]
    show o.val = (u.val * b + o.val) * 1 + w.val
    rw [hu, hw, Nat.zero_mul, Nat.zero_add, Nat.mul_one, Nat.add_zero])

/-! ## A matrix's rows cut into pieces, and the pieces laid end to end -/

/-- An `[a, n]` array cast to `[a, b, c]` reads, at `(p, o, w)`, the operand at `(p, k)` with `k = o * c + w`. -/
theorem shapeCast_an_abc_apply {a n b c : ℕ} (hn : n = b * c) (x : (⟨2, ![a, n]⟩ : Shape).Idx → α)
    (h : (⟨2, ![a, n]⟩ : Shape).ShapeCasts ⟨3, ![a, b, c]⟩) (p : Fin a) (o : Fin b) (w : Fin c) (k : Fin n)
    (hk : k.val = o.val * c + w.val) :
    shapeCast ⟨3, ![a, b, c]⟩ x h (ix3 p o w) = x (ix2 p k) :=
  shapeCast_apply x h _ _ (by
    rw [Shape.rowMajor_val_three, Shape.rowMajor_val_two]
    show p.val * n + k.val = (p.val * b + o.val) * c + w.val
    rw [hk, hn, Nat.add_mul, Nat.mul_assoc, Nat.add_assoc])

/-- An `[a, b, c]` array cast to `[a, n]` reads, at `(p, k)` with `k = o * c + w`, the operand at `(p, o, w)`. -/
theorem shapeCast_abc_an_apply {a n b c : ℕ} (hn : n = b * c) (x : (⟨3, ![a, b, c]⟩ : Shape).Idx → α)
    (h : (⟨3, ![a, b, c]⟩ : Shape).ShapeCasts ⟨2, ![a, n]⟩) (p : Fin a) (k : Fin n) (o : Fin b) (w : Fin c)
    (hk : k.val = o.val * c + w.val) :
    shapeCast ⟨2, ![a, n]⟩ x h (ix2 p k) = x (ix3 p o w) :=
  shapeCast_apply x h _ _ (by
    rw [Shape.rowMajor_val_three, Shape.rowMajor_val_two]
    show (p.val * b + o.val) * c + w.val = p.val * n + k.val
    rw [hk, hn, Nat.add_mul, Nat.mul_assoc, Nat.add_assoc])

/-! ## A slice along the last of three axes -/

/-- A rank-3 array cut along axis 2 from `o` reads, at `(a, b, j)`, the source at `(a, b, k)` with `k = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LayoutReads
-- ==== Proof.HyperHead.lean ====
/-
  Region 0's body, its head: the first normalisation and the filter map, each read at one entry.
  The normalised block at row `p`, column `j` is the normalised entity row `xrow` of sample `p` at `j`; the
  filter block at row `p`, filter `o`, tap `w` is entry `o * 9 + w` of sample `p`'s filter taps `filt`: a
  256 × 200 by 200 × 288 product into a zero accumulator, plus the bias row, its 288 columns cut into 32 filters
  of 9 taps.
-/
import proofs.«159688_j3453153706530_1_alg».proof.Proof.Gen.KernelIdeal.Skeleton
import proofs.«159688_j3453153706530_1_alg».proof.Proof.RowMath
import proofs.«159688_j3453153706530_1_alg».proof.Proof.LayoutReads
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HyperHead

open Cert.KernelIdeal Cert.KernelIdeal.Gen Cert.HyperConv Cert.LayoutReads Idealize.ShloMosaic Idealize.ShloMosaic.ValueIdx

/-! ## The filter map's product read at an index

The product contracts the left operand's axis 1 with the right operand's axis 0. The four lemmas below say
which coordinates the two operand indices take from the output index and which from the contraction index. -/

theorem lhs_filt_0 (i : S256x288.Idx) (q : dot_S256x200_S200x288_S256x288_1_0_0_1_n_n.contr.Idx) :
    (dot_S256x200_S200x288_S256x288_1_0_0_1_n_n.lhsIdx i q 0).val = (i 0).val := by
  unfold DotDims.lhsIdx
  rw [dif_neg (show ¬(0 : Fin S256x200.rank) ∈ dot_S256x200_S200x288_S256x288_1_0_0_1_n_n.lhsBatch by decide), dif_pos (show (0 : Fin S256x200.rank) ∈ dot_S256x200_S200x288_S256x288_1_0_0_1_n_n.lhsNonContracting by decide)]
  rfl
theorem lhs_filt_1 (i : S256x288.Idx) (q : dot_S256x200_S200x288_S256x288_1_0_0_1_n_n.contr.Idx) :
    (dot_S256x200_S200x288_S256x288_1_0_0_1_n_n.lhsIdx i q 1).val = (q ⟨0, by decide⟩).val :=
  dot_S256x200_S200x288_S256x288_1_0_0_1_n_n.lhsIdx_val_of_single rfl i q
theorem rhs_filt_0 (i : S256x288.Idx) (q : dot_S256x200_S200x288_S256x288_1_0_0_1_n_n.contr.Idx) :
    (dot_S256x200_S200x288_S256x288_1_0_0_1_n_n.rhsIdx i q 0).val = (q ⟨0, by decide⟩).val :=
  dot_S256x200_S200x288_S256x288_1_0_0_1_n_n.rhsIdx_val_of_single rfl i q
theorem rhs_filt_1 (i : S256x288.Idx) (q : dot_S256x200_S200x288_S256x288_1_0_0_1_n_n.contr.Idx) :
    (dot_S256x200_S200x288_S256x288_1_0_0_1_n_n.rhsIdx i q 1).val = (i 1).val := by
  unfold DotDims.rhsIdx
  rw [dif_neg (show ¬(1 : Fin S200x288.rank) ∈ dot_S256x200_S200x288_S256x288_1_0_0_1_n_n.rhsBatch by decide), dif_pos (show (1 : Fin S200x288.rank) ∈ dot_S256x200_S200x288_S256x288_1_0_0_1_n_n.rhsNonContracting by decide)]
  rfl

/-- The block product into the zero accumulator, at row `p` and column `n`: the sum over the 200 contracted
    entries of the left operand's row `p` times the right operand's column `n`. -/
theorem filt_matmul_apply (lhs : FVec Ideal S256x200 .bf16) (rhs : FVec Ideal S200x288 .bf16) (p : Fin 256) (n : Fin 288) :
    matmul dot_S256x200_S200x288_S256x288_1_0_0_1_n_n none lhs rhs (constant (F := Ideal) S256x288 .f32 0x00000000#32) (ix2 p n)
      = ∑ k : Fin 200, lhs (ix2 p k) * rhs (ix2 k n) := by
  simp only [matmul]
  rw [Ideal.matmul_constant_zero_apply, ← Equiv.sum_comp (ValueIdx.contrEquiv1 dot_S256x200_S200x288_S256x288_1_0_0_1_n_n 200 rfl rfl).symm]
  refine Finset.sum_congr rfl fun k _ => ?_
  have hk := ValueIdx.contrEquiv1_symm_val dot_S256x200_S200x288_S256x288_1_0_0_1_n_n 200 rfl rfl k
  have el : dot_S256x200_S200x288_S256x288_1_0_0_1_n_n.lhsIdx (ix2 p n) ((ValueIdx.contrEquiv1 dot_S256x200_S200x288_S256x288_1_0_0_1_n_n 200 rfl rfl).symm k) = ix2 p k := funext fun a => Fin.ext (by
    match a with
    | ⟨0, _⟩ => exact lhs_filt_0 _ _
    | ⟨1, _⟩ => exact (lhs_filt_1 _ _).trans hk)
  have er : dot_S256x200_S200x288_S256x288_1_0_0_1_n_n.rhsIdx (ix2 p n) ((ValueIdx.contrEquiv1 dot_S256x200_S200x288_S256x288_1_0_0_1_n_n 200 rfl rfl).symm k) = ix2 k n := funext fun a => Fin.ext (by
    match a with
    | ⟨0, _⟩ => exact (rhs_filt_0 _ _).trans hk
    | ⟨1, _⟩ => exact rhs_filt_1 _ _)
  rw [el, er]

/-! ## The normalised entity rows and the filter taps -/

/-- The first normalisation at row `p`, column `j`: the normalised entity row of sample `p`. The mean, the
    stabilised variance's reciprocal root times the gain, and the shift are single entries stretched over the
    block. -/
theorem pay2_apply (P : Params) (v0 : Vec Ideal S256x200 .f32) (p : Fin 256) (j : Fin 200) :
    k0_pay2 (F := Ideal) v0 P.m0 P.v0 P.g0 P.b0 (ix2 p j) = xrow scaleMul P (fun j => v0 (ix2 p j)) j := by
  unfold k0_pay2
  rw [addf_apply, mulf_apply, subf_apply, shapeCast_self, broadcastTo_11_ab_apply, broadcastTo_11_ab_apply,
    broadcastTo_11_ab_apply, shapeCast_a_1a_apply, shapeCast_a_1a_apply, shapeCast_a_1a_apply]
  rfl

/-- The filter map at row `p`, filter `o`, tap `w`: entry `o * 9 + w` of sample `p`'s 288 filter taps. The
    narrowing of the two operands is the identity on extended reals. -/
theorem pay3_apply (P : Params) (v19 : Vec Ideal S256x200 .f32) (p : Fin 256) (o : Fin 32) (w : Fin 9) :
    k0_pay3 (F := Ideal) v19 P.W1 P.c1 (ix3 p o w)
      = filt P (fun k => v19 (ix2 p k)) ⟨o.val * 9 + w.val, by omega⟩ := by
  unfold k0_pay3
  rw [shapeCast_an_abc_apply (b := 32) (c := 9) rfl _ _ p o w ⟨o.val * 9 + w.val, by omega⟩ rfl,
    addf_apply, filt_matmul_apply, broadcastTo_1b_ab_apply, shapeCast_a_1a_apply]
  simp only [truncf_apply, shapeCast_self]
  rfl

end Cert.KernelIdeal.HyperHead

end
-- ==== Proof.HyperTaps.lean ====
/-
  The sliding products of region 0's body, tap by tap, each read at one entry: tap `w` of filter `o` (a column of the
  filter array broadcast along the positions) times the normalised row shifted by `w` (a slice of the row broadcast
  along the filters), the products added in order onto zero.
-/
import proofs.«159688_j3453153706530_1_alg».proof.Proof.Gen.KernelIdeal.Skeleton
import proofs.«159688_j3453153706530_1_alg».proof.Proof.RowMath
import proofs.«159688_j3453153706530_1_alg».proof.Proof.LayoutReads
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HyperTaps

open Cert.KernelIdeal Cert.KernelIdeal.Gen Cert.HyperConv Cert.LayoutReads Idealize.ShloMosaic Idealize.ShloMosaic.ValueIdx

/-! ## One tap's two factors -/

/-- Tap `w` of every filter kept as a column: the slice of the filter array at tap `w`, its unit axis dropped and
    added again, reads tap `w` of filter `o` of sample `p`. -/
theorem tapColumn_apply (f : FVec Ideal S256x32x9 .f32) (w : ℕ) (h : S256x32x9.Slices ![0, 0, w] S256x32x1)
    (k : Fin 9) (hk : k.val = w) (p : Fin 256) (o : Fin 32) (u : Fin 1) :
    shapeCast S256x32x1
        (shapeCast S256x32 (extractStridedSlice S256x32x1 ![0, 0, w] f h) shapeCasts_S256x32x1_S256x32)
        shapeCasts_S256x32_S256x32x1 (ix3 p o u)
      = f (ix3 p o k) := by
  have hu : u.val = 0 := by omega
  rw [shapeCast_shapeCast]
  exact slice3_axis2_apply w f h p o u k (by rw [hk, hu, Nat.add_zero])

/-- The normalised rows shifted by `w` positions, kept as a row: the slice of 192 entries from `w`, a unit axis
    added in the middle, reads entry `l + w` of sample `p`'s row. -/
theorem rowShift_apply (x : FVec Ideal S256x200 .f32) (w : ℕ) (h : S256x200.Slices ![0, w] S256x192)
    (p : Fin 256) (u : Fin 1) (l : Fin 192) (j : Fin 200) (hj : j.val = l.val + w) :
    shapeCast S256x1x192 (extractStridedSlice S256x192 ![0, w] x h) shapeCasts_S256x192_S256x1x192 (ix3 p u l)
      = x (ix2 p j) := by
  refine (shapeCast_ac_a1c_apply (extractStridedSlice S256x192 ![0, w] x h) shapeCasts_S256x192_S256x1x192 p u l).trans ?_
  exact slice2_axis1_apply w x h p l j (by rw [hj, Nat.add_comm])

/-- A column of taps times a row of entries, each stretched to the full 256 × 32 × 192 box: at `(p, o, l)` the
    column's entry for filter `o` times the row's entry at position `l`. -/
theorem columnTimesRow_apply (c : FVec Ideal S256x32x1 .f32) (r : FVec Ideal S256x1x192 .f32)
    (p : Fin 256) (o : Fin 32) (l : Fin 192) :
    mulf (broadcastTo S256x32x192 c broadcasts_S256x32x1_S256x32x192)
        (broadcastTo S256x32x192 r broadcasts_S256x1x192_S256x32x192) (ix3 p o l)
      = c (ix3 p o 0) * r (ix3 p 0 l) := by
  show broadcastTo S256x32x192 c broadcasts_S256x32x1_S256x32x192 (ix3 p o l)
      * broadcastTo S256x32x192 r broadcasts_S256x1x192_S256x32x192 (ix3 p o l) = _
  rw [broadcastTo_ab1_abc_apply c broadcasts_S256x32x1_S256x32x192 p o l,
    broadcastTo_a1c_abc_apply r broadcasts_S256x1x192_S256x32x192 p o l]

/-- Tap `w`'s product at `(p, o, l)`: tap `w` of filter `o` times entry `l + w` of the normalised row. -/
theorem tapProduct_apply (f : FVec Ideal S256x32x9 .f32) (x : FVec Ideal S256x200 .f32) (w : ℕ)
    (hs : S256x32x9.Slices ![0, 0, w] S256x32x1) (hr : S256x200.Slices ![0, w] S256x192)
    (k : Fin 9) (hk : k.val = w) (p : Fin 256) (o : Fin 32) (l : Fin 192) (j : Fin 200) (hj : j.val = l.val + w) :
    mulf
        (broadcastTo S256x32x192
          (shapeCast S256x32x1
            (shapeCast S256x32 (extractStridedSlice S256x32x1 ![0, 0, w] f hs) shapeCasts_S256x32x1_S256x32)
            shapeCasts_S256x32_S256x32x1)
          broadcasts_S256x32x1_S256x32x192)
        (broadcastTo S256x32x192
          (shapeCast S256x1x192 (extractStridedSlice S256x192 ![0, w] x hr) shapeCasts_S256x192_S256x1x192)
          broadcasts_S256x1x192_S256x32x192) (ix3 p o l)
      = f (ix3 p o k) * x (ix2 p j) := by
  rw [columnTimesRow_apply, tapColumn_apply f w hs k hk p o 0, rowShift_apply x w hr p 0 l j hj]

/-! ## The payloads -/

/-- The second tap of every filter, kept as a column. -/
theorem pay5_apply (v19 : Vec Ideal S256x200 .f32) (v21 : Vec Ideal S200x288 .f32) (v22 : Vec Ideal S288 .f32)
    (p : Fin 256) (o : Fin 32) :
    k0_pay5 (F := Ideal) v19 v21 v22 (ix3 p o 0) = k0_pay3 (F := Ideal) v19 v21 v22 (ix3 p o (1 : Fin 9)) := by
  unfold k0_pay5
  exact tapColumn_apply (k0_pay3 (F := Ideal) v19 v21 v22) 1 slices_S256x32x9_o0_0_1_S256x32x1 (1 : Fin 9) rfl p o 0

/-- The normalised rows shifted by one position, kept as a row. -/
theorem pay6_apply (v0 : Vec Ideal S256x200 .f32) (v2 v3 v4 v5 : Vec Ideal S1 .f32) (p : Fin 256) (l : Fin 192) :
    k0_pay6 (F := Ideal) v0 v2 v3 v4 v5 (ix3 p 0 l)
      = k0_pay2 (F := Ideal) v0 v2 v3 v4 v5 (ix2 p (⟨l.val + 1, by omega⟩ : Fin 200)) := by
  unfold k0_pay6
  exact rowShift_apply (k0_pay2 (F := Ideal) v0 v2 v3 v4 v5) 1 slices_S256x200_o0_1_S256x192 p 0 l _ rfl

/-- The first tap's product added onto zero. -/
theorem pay4_apply (v0 : Vec Ideal S256x200 .f32) (v2 v3 v4 v5 : Vec Ideal S1 .f32) (v19 : Vec Ideal S256x200 .f32)
    (v21 : Vec Ideal S200x288 .f32) (v22 : Vec Ideal S288 .f32) (p : Fin 256) (o : Fin 32) (l : Fin 192) :
    k0_pay4 (F := Ideal) v0 v2 v3 v4 v5 v19 v21 v22 (ix3 p o l)
      = 0 + k0_pay3 (F := Ideal) v19 v21 v22 (ix3 p o (0 : Fin 9))
            * k0_pay2 (F := Ideal) v0 v2 v3 v4 v5 (ix2 p (⟨l.val + 0, by omega⟩ : Fin 200)) := by
  unfold k0_pay4
  show Ideal.ofBits .f32 0x00000000#32 + mulf _ _ (ix3 p o l) = _
  rw [Ideal.ofBits_zero_f32,
    tapProduct_apply (k0_pay3 (F := Ideal) v19 v21 v22) (k0_pay2 (F := Ideal) v0 v2 v3 v4 v5) 0
      slices_S256x32x9_o0_0_0_S256x32x1 slices_S256x200_o0_0_S256x192 (0 : Fin 9) rfl p o l ⟨l.val + 0, by omega⟩ rfl]

/-- Taps two to eight added in order onto the first: `v39` holds the first tap's sum, `v42` and `v44` the second
    tap's two factors, `v29` the filters, `v18` the normalised rows. -/
theorem pay7_apply (v18 : FVec Ideal S256x200 .f32) (v29 : FVec Ideal S256x32x9 .f32) (v39 : FVec Ideal S256x32x192 .f32)
    (v42 : FVec Ideal S256x32x1 .f32) (v44 : FVec Ideal S256x1x192 .f32) (p : Fin 256) (o : Fin 32) (l : Fin 192) :
    k0_pay7 (F := Ideal) v18 v29 v39 v42 v44 (ix3 p o l)
      = ((((((v39 (ix3 p o l) + v42 (ix3 p o 0) * v44 (ix3 p 0 l))
            + v29 (ix3 p o (2 : Fin 9)) * v18 (ix2 p (⟨l.val + 2, by omega⟩ : Fin 200)))
            + v29 (ix3 p o (3 : Fin 9)) * v18 (ix2 p (⟨l.val + 3, by omega⟩ : Fin 200)))
            + v29 (ix3 p o (4 : Fin 9)) * v18 (ix2 p (⟨l.val + 4, by omega⟩ : Fin 200)))
            + v29 (ix3 p o (5 : Fin 9)) * v18 (ix2 p (⟨l.val + 5, by omega⟩ : Fin 200)))
            + v29 (ix3 p o (6 : Fin 9)) * v18 (ix2 p (⟨l.val + 6, by omega⟩ : Fin 200)))
            + v29 (ix3 p o (7 : Fin 9)) * v18 (ix2 p (⟨l.val + 7, by omega⟩ : Fin 200)) := by
  unfold k0_pay7
  show ((((((v39 (ix3 p o l) + mulf _ _ (ix3 p o l)) + mulf _ _ (ix3 p o l)) + mulf _ _ (ix3 p o l))
      + mulf _ _ (ix3 p o l)) + mulf _ _ (ix3 p o l)) + mulf _ _ (ix3 p o l)) + mulf _ _ (ix3 p o l) = _
  rw [columnTimesRow_apply v42 v44 p o l,
    tapProduct_apply v29 v18 2 slices_S256x32x9_o0_0_2_S256x32x1 slices_S256x200_o0_2_S256x192 (2 : Fin 9) rfl p o l ⟨l.val + 2, by omega⟩ rfl,
    tapProduct_apply v29 v18 3 slices_S256x32x9_o0_0_3_S256x32x1 slices_S256x200_o0_3_S256x192 (3 : Fin 9) rfl p o l ⟨l.val + 3, by omega⟩ rfl,
    tapProduct_apply v29 v18 4 slices_S256x32x9_o0_0_4_S256x32x1 slices_S256x200_o0_4_S256x192 (4 : Fin 9) rfl p o l ⟨l.val + 4, by omega⟩ rfl,
    tapProduct_apply v29 v18 5 slices_S256x32x9_o0_0_5_S256x32x1 slices_S256x200_o0_5_S256x192 (5 : Fin 9) rfl p o l ⟨l.val + 5, by omega⟩ rfl,
    tapProduct_apply v29 v18 6 slices_S256x32x9_o0_0_6_S256x32x1 slices_S256x200_o0_6_S256x192 (6 : Fin 9) rfl p o l ⟨l.val + 6, by omega⟩ rfl,
    tapProduct_apply v29 v18 7 slices_S256x32x9_o0_0_7_S256x32x1 slices_S256x200_o0_7_S256x192 (7 : Fin 9) rfl p o l ⟨l.val + 7, by omega⟩ rfl]

/-- The ninth tap of every filter. -/
theorem pay8_apply (v29 : FVec Ideal S256x32x9 .f32) (p : Fin 256) (o : Fin 32) :
    k0_pay8 (F := Ideal) v29 (ix2 p o) = v29 (ix3 p o (8 : Fin 9)) := by
  unfold k0_pay8
  refine (shapeCast_ab1_ab_apply (extractStridedSlice S256x32x1 ![0, 0, 8] v29 slices_S256x32x9_o0_0_8_S256x32x1)
    shapeCasts_S256x32x1_S256x32 p o).trans ?_
  exact slice3_axis2_apply 8 v29 slices_S256x32x9_o0_0_8_S256x32x1 p o 0 (8 : Fin 9) rfl

end Cert.KernelIdeal.HyperTaps

end
-- ==== Proof.HyperTail.lean ====
/-
  The tail of region 0's body, stage by stage, each read at one entry: the ninth tap added onto the first eight, the
  channel normalisation, the channel-major flattening, the 6144 × 200 output map with its bias, the last
  normalisation and the clip at zero.

  Every stage is entrywise except three kinds of step, each read at explicit coordinates: a unit axis added to an array
  and the array then spread over the full extents (the entry read does not depend on the spread coordinates), the
  window of columns 8 … 199 of the normalised rows (column l of the window is column l + 8), and the flattening of
  [256, 32, 192] to [256, 6144] (entry k of a flattened row is channel k / 192, position k % 192, because
  k = (k / 192) · 192 + k % 192). The output map is a matrix product into a zero accumulator: its entry (p, q) is the sum
  over the 6144 contracted positions k of the left factor at (p, k) times the right factor at (k, q).
-/
import proofs.«159688_j3453153706530_1_alg».proof.Proof.Gen.KernelIdeal.Skeleton
import proofs.«159688_j3453153706530_1_alg».proof.Proof.RowMath
import proofs.«159688_j3453153706530_1_alg».proof.Proof.LayoutReads
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HyperTail

open Cert.KernelIdeal Cert.KernelIdeal.Gen Cert.HyperConv Cert.LayoutReads Idealize.ShloMosaic Idealize.ShloMosaic.ValueIdx

/-! ## Two layout steps at this body's extents -/

section Layout
variable {α : Type}

/-- The window of the normalised rows that the ninth tap reads: column `l` of the window is column `l + 8`. -/
theorem window8_apply (x : S256x200.Idx → α) (h : S256x200.Slices ![0, 8] S256x192) (p : Fin 256) (l : Fin 192) :
    extractStridedSlice S256x192 ![0, 8] x h (ix2 p l) = x (ix2 p (⟨l.val + 8, by omega⟩ : Fin 200)) :=
  slice2_axis1_apply 8 x h p l _ (Nat.add_comm _ _)

/-- The channel-major flattening: entry `k` of a flattened row is channel `k / 192`, position `k % 192`. -/
theorem flatten_apply (y : S256x32x192.Idx → α) (h : S256x32x192.ShapeCasts S256x6144) (p : Fin 256) (k : Fin 6144) :
    shapeCast S256x6144 y h (ix2 p k)
      = y (ix3 p (⟨k.val / 192, by omega⟩ : Fin 32) (⟨k.val % 192, by omega⟩ : Fin 192)) :=
  shapeCast_abc_an_apply (by decide) y h p k _ _ (by show k.val = k.val / 192 * 192 + k.val % 192; omega)

end Layout

/-! ## The output map: the matrix unit's product read at an entry -/

theorem lhs_outmap_0 (i : S256x200.Idx) (c : dot_S256x6144_S6144x200_S256x200_1_0_0_1_n_n.contr.Idx) :
    (dot_S256x6144_S6144x200_S256x200_1_0_0_1_n_n.lhsIdx i c 0).val = (i 0).val := by
  unfold DotDims.lhsIdx
  rw [dif_neg (show ¬(0 : Fin S256x6144.rank) ∈ dot_S256x6144_S6144x200_S256x200_1_0_0_1_n_n.lhsBatch by decide), dif_pos (show (0 : Fin S256x6144.rank) ∈ dot_S256x6144_S6144x200_S256x200_1_0_0_1_n_n.lhsNonContracting by decide)]
  rfl
theorem lhs_outmap_1 (i : S256x200.Idx) (c : dot_S256x6144_S6144x200_S256x200_1_0_0_1_n_n.contr.Idx) :
    (dot_S256x6144_S6144x200_S256x200_1_0_0_1_n_n.lhsIdx i c 1).val = (c ⟨0, by decide⟩).val :=
  dot_S256x6144_S6144x200_S256x200_1_0_0_1_n_n.lhsIdx_val_of_single rfl i c
theorem rhs_outmap_0 (i : S256x200.Idx) (c : dot_S256x6144_S6144x200_S256x200_1_0_0_1_n_n.contr.Idx) :
    (dot_S256x6144_S6144x200_S256x200_1_0_0_1_n_n.rhsIdx i c 0).val = (c ⟨0, by decide⟩).val :=
  dot_S256x6144_S6144x200_S256x200_1_0_0_1_n_n.rhsIdx_val_of_single rfl i c
theorem rhs_outmap_1 (i : S256x200.Idx) (c : dot_S256x6144_S6144x200_S256x200_1_0_0_1_n_n.contr.Idx) :
    (dot_S256x6144_S6144x200_S256x200_1_0_0_1_n_n.rhsIdx i c 1).val = (i 1).val := by
  unfold DotDims.rhsIdx
  rw [dif_neg (show ¬(1 : Fin S6144x200.rank) ∈ dot_S256x6144_S6144x200_S256x200_1_0_0_1_n_n.rhsBatch by decide), dif_pos (show (1 : Fin S6144x200.rank) ∈ dot_S256x6144_S6144x200_S256x200_1_0_0_1_n_n.rhsNonContracting by decide)]
  rfl

/-- The [256, 6144] × [6144, 200] product into a zero accumulator, at row `p`, column `q`: the sum over the 6144
    contracted positions of the left operand at `(p, k)` times the right at `(k, q)`. -/
theorem outmap_apply {φ₁ φ₂ : FTy} (X : FVec Ideal S256x6144 φ₁) (W : FVec Ideal S6144x200 φ₂) (p : Fin 256) (q : Fin 200) :
    matmul dot_S256x6144_S6144x200_S256x200_1_0_0_1_n_n none X W (constant (F := Ideal) S256x200 .f32 0x00000000#32) (ix2 p q)
      = ∑ k : Fin 6144, X (ix2 p k) * W (ix2 k q) := by
  simp only [matmul]
  rw [Ideal.matmul_constant_zero_apply, ← Equiv.sum_comp (ValueIdx.contrEquiv1 dot_S256x6144_S6144x200_S256x200_1_0_0_1_n_n 6144 rfl rfl).symm]
  refine Finset.sum_congr rfl fun k _ => ?_
  have hk := ValueIdx.contrEquiv1_symm_val dot_S256x6144_S6144x200_S256x200_1_0_0_1_n_n 6144 rfl rfl k
  have el : dot_S256x6144_S6144x200_S256x200_1_0_0_1_n_n.lhsIdx (ix2 p q) ((ValueIdx.contrEquiv1 dot_S256x6144_S6144x200_S256x200_1_0_0_1_n_n 6144 rfl rfl).symm k) = ix2 p k := funext fun a => Fin.ext (by
    match a with
    | ⟨0, _⟩ => exact lhs_outmap_0 _ _
    | ⟨1, _⟩ => exact (lhs_outmap_1 _ _).trans hk)
  have er : dot_S256x6144_S6144x200_S256x200_1_0_0_1_n_n.rhsIdx (ix2 p q) ((ValueIdx.contrEquiv1 dot_S256x6144_S6144x200_S256x200_1_0_0_1_n_n 6144 rfl rfl).symm k) = ix2 k q := funext fun a => Fin.ext (by
    match a with
    | ⟨0, _⟩ => exact (rhs_outmap_0 _ _).trans hk
    | ⟨1, _⟩ => exact rhs_outmap_1 _ _)
  rw [el, er]

/-! ## The channel normalisation's factor -/

/-- Gain times reciprocal square root of the stabilised variance, both laid out as `[1, 32, 1]`, at channel `o`. -/
theorem chanScale_apply (g v : Vec Ideal S32 .f32) (h : S32.ShapeCasts S1x32x1) (o : Fin 32) :
    mulf (shapeCast S1x32x1 g h)
        (rsqrt (addf (shapeCast S1x32x1 v h) (broadcast S1x32x1 (Scalar.ofBits (F := Ideal) .f32 0x3727C5AC#32))))
        (ix3 (0 : Fin 1) o (0 : Fin 1))
      = scaleMul (g (ix1 o)) (v (ix1 o)) := by
  show shapeCast S1x32x1 g h (ix3 (0 : Fin 1) o (0 : Fin 1))
      * Ideal.rsqrt (shapeCast S1x32x1 v h (ix3 (0 : Fin 1) o (0 : Fin 1)) + eps) = _
  rw [shapeCast_b_1b1_apply, shapeCast_b_1b1_apply]
  rfl

/-! ## The three stages -/

/-- The last normalisation's factor at column `q`: gain times reciprocal square root of the stabilised variance. -/
theorem pay10_apply (v140 v141 : Vec Ideal S200 .f32) (q : Fin 200) :
    k0_pay10 (F := Ideal) v140 v141 (ix2 0 q) = scaleMul (v141 (ix1 q)) (v140 (ix1 q)) := by
  unfold k0_pay10
  refine (shapeCast_a_1a_apply _ shapeCasts_S200_S1x200 0 q).trans ?_
  rfl

/-- The last multiply-add and the clip at zero, at row `p`, column `q`. -/
theorem pay1_apply (v142 : Vec Ideal S200 .f32) (v145 : FVec Ideal S256x200 .f32) (v150 : FVec Ideal S1x200 .f32)
    (p : Fin 256) (q : Fin 200) :
    k0_pay1 (F := Ideal) v142 v145 v150 (ix2 p q) = max (v145 (ix2 p q) * v150 (ix2 0 q) + v142 (ix1 q)) 0 := by
  dsimp only [k0_pay1]
  rw [maximumf_apply, addf_apply, mulf_apply, broadcast_apply, broadcastTo_1b_ab_apply, broadcastTo_1b_ab_apply,
    shapeCast_a_1a_apply]
  exact congrArg (max _) Ideal.ofBits_zero_f32

/-- The ninth tap, the channel normalisation, the flattening and the output map, less the last mean, at row `p`,
    column `q`: `v102` holds the first eight taps' sum, `v104` the ninth tap of every filter, `v18` the normalised rows. -/
theorem pay9_apply (v18 : FVec Ideal S256x200 .f32) (v102 : FVec Ideal S256x32x192 .f32) (v104 : FVec Ideal S256x32 .f32)
    (v112 v114 v116 v118 : Vec Ideal S32 .f32) (v131 : Vec Ideal S6144x200 .f32) (v132 v139 : Vec Ideal S200 .f32)
    (p : Fin 256) (q : Fin 200) :
    k0_pay9 (F := Ideal) v18 v102 v104 v112 v114 v116 v118 v131 v132 v139 (ix2 p q)
      = ((∑ k : Fin 6144,
            (((v102 (ix3 p (⟨k.val / 192, by omega⟩ : Fin 32) (⟨k.val % 192, by omega⟩ : Fin 192))
                  + v104 (ix2 p (⟨k.val / 192, by omega⟩ : Fin 32)) * v18 (ix2 p (⟨k.val % 192 + 8, by omega⟩ : Fin 200)))
                - v112 (ix1 (⟨k.val / 192, by omega⟩ : Fin 32)))
              * scaleMul (v116 (ix1 (⟨k.val / 192, by omega⟩ : Fin 32))) (v114 (ix1 (⟨k.val / 192, by omega⟩ : Fin 32)))
              + v118 (ix1 (⟨k.val / 192, by omega⟩ : Fin 32)))
            * v131 (ix2 k q)) + v132 (ix1 q)) - v139 (ix1 q) := by
  dsimp only [k0_pay9]
  rw [subf_apply, addf_apply, broadcastTo_1b_ab_apply, broadcastTo_1b_ab_apply, shapeCast_a_1a_apply, shapeCast_a_1a_apply,
    outmap_apply]
  refine congrArg (· - v139 (ix1 q)) (congrArg (· + v132 (ix1 q)) (Finset.sum_congr rfl fun k _ => ?_))
  rw [truncf_apply, truncf_apply, flatten_apply, addf_apply, mulf_apply, subf_apply, addf_apply, mulf_apply,
    broadcastTo_ab1_abc_apply, shapeCast_ab_ab1_apply, broadcastTo_a1c_abc_apply, shapeCast_ac_a1c_apply, window8_apply,
    broadcastTo_1b1_abc_apply, shapeCast_b_1b1_apply, broadcastTo_1b1_abc_apply, chanScale_apply,
    broadcastTo_1b1_abc_apply, shapeCast_b_1b1_apply]

end Cert.KernelIdeal.HyperTail

end
-- ==== Proof.HyperBody.lean ====
/-
  Region 0's body at one entry. The body's single store writes, at row `p` and column `q` of the 256 × 200 block,
  the hidden row of sample `p` of the block at column `q`: the function `hrow` of RowMath, with the
  normalisation factor spelt as gain times reciprocal square root and the nine taps added in order.

  The stages are read one entry at a time elsewhere: the normalised rows and the filter taps (HyperHead), the nine
  sliding products (HyperTaps), the channel normalisation, the output map and the last normalisation (HyperTail).
  Here they are put together: the first eight products plus the ninth are `conv` at a filter and a position, the
  output map's 6144 summands are then `ybn` times the map's entry, and what is left is `hrow` unfolded.
-/
import proofs.«159688_j3453153706530_1_alg».proof.Proof.Gen.KernelIdeal.Frame
import proofs.«159688_j3453153706530_1_alg».proof.Proof.RowMath
import proofs.«159688_j3453153706530_1_alg».proof.Proof.HyperHead
import proofs.«159688_j3453153706530_1_alg».proof.Proof.HyperTaps
import proofs.«159688_j3453153706530_1_alg».proof.Proof.HyperTail
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HyperBody

open Cert.KernelIdeal Cert.KernelIdeal.Gen Cert.HyperConv Idealize.ShloMosaic Idealize.ShloMosaic.ValueIdx
open Cert.KernelIdeal.HyperHead Cert.KernelIdeal.HyperTaps Cert.KernelIdeal.HyperTail

/-- The network's weights as the blocks the body loads them from. -/
abbrev blockParams (x2 : Vec Ideal S200x288 .f32) (x3 : Vec Ideal S288 .f32)
    (x4 x5 x6 x7 : Vec Ideal S1 .f32) (x8 x9 x10 x11 : Vec Ideal S32 .f32) (x12 x13 x14 x15 : Vec Ideal S200 .f32)
    (x16 : Vec Ideal S6144x200 .f32) (x17 : Vec Ideal S200 .f32) : Params :=
  { W1 := x2, c1 := x3, g0 := x4, b0 := x5, m0 := x6, v0 := x7, g1 := x8, b1 := x9, m1 := x10, v1 := x11,
    g2 := x12, b2 := x13, m2 := x14, v2 := x15, Wf := x16, cf := x17 }

/-- The nine sliding products of filter `o` at position `l`, added in order onto zero: the first eight as the
    body accumulates them (the first onto the zero splat, the second from its two kept factors, the next six from
    the filter array and the normalised rows), the ninth added by the stage that follows. Every factor is a filter
    tap `filt` or an entry of the normalised row `xrow`, so the sum is `conv` with the taps added in order. -/
theorem conv_apply (P : Params) (x0 x1 : Vec Ideal S256x200 .f32) (p : Fin 256) (o : Fin 32) (l : Fin 192) :
    k0_pay7 (F := Ideal) (k0_pay2 x0 P.m0 P.v0 P.g0 P.b0) (k0_pay3 x1 P.W1 P.c1)
          (k0_pay4 x0 P.m0 P.v0 P.g0 P.b0 x1 P.W1 P.c1) (k0_pay5 x1 P.W1 P.c1) (k0_pay6 x0 P.m0 P.v0 P.g0 P.b0) (ix3 p o l)
        + k0_pay8 (F := Ideal) (k0_pay3 x1 P.W1 P.c1) (ix2 p o)
          * k0_pay2 (F := Ideal) x0 P.m0 P.v0 P.g0 P.b0 (ix2 p (⟨l.val + 8, by omega⟩ : Fin 200))
      = conv scaleMul tapsInOrder P (fun j => x0 (ix2 p j)) (fun k => x1 (ix2 p k)) o l := by
  rw [pay7_apply, pay4_apply, pay5_apply, pay6_apply, pay8_apply]
  simp only [pay3_apply, pay2_apply]
  rfl

/-- The zero offsets of a rank-2 block, however they are spelt. -/
theorem hz2 : (![0, 0] : Fin 2 → Nat) = fun _ => 0 := funext fun a => by
  match a with
  | ⟨0, _⟩ => rfl
  | ⟨1, _⟩ => rfl
/-- The zero offset of a rank-1 block. -/
theorem hz1 : (![0] : Fin 1 → Nat) = fun _ => 0 := funext fun a => by
  match a with
  | ⟨0, _⟩ => rfl

/-- The body's store at row `p`, column `q`, over any weights: the hidden row of sample `p` at `q`. The one
    store covers the block and every load reads a whole block, so the stored value is the payload of the blocks
    themselves; the last three stages are read at `(p, q)`, and each of the output map's 6144 summands is the
    channel normalisation of `conv` at channel `k / 192`, position `k % 192`, times the map's entry. -/
theorem body_apply (P : Params) (x0 x1 : Vec Ideal S256x200 .f32) (p : Fin 256) (q : Fin 200) :
    out0_18 (F := Ideal) x0 x1 P.W1 P.c1 P.g0 P.b0 P.m0 P.v0 P.g1 P.b1 P.m1 P.v1 P.g2 P.b2 P.m2 P.v2 P.Wf P.cf (ix2 p q)
      = hrow scaleMul tapsInOrder P (fun j => x0 (ix2 p j)) (fun k => x1 (ix2 p k)) q := by
  unfold out0_18
  rw [View.canon_unit_zero hz2]
  simp only [View.ld_unit_zero (S := S256x200) hz2, View.ld_unit_zero (S := S200x288) hz2,
    View.ld_unit_zero (S := S6144x200) hz2, View.ld_unit_zero (S := S1) hz1, View.ld_unit_zero (S := S288) hz1,
    View.ld_unit_zero (S := S32) hz1, View.ld_unit_zero (S := S200) hz1]
  rw [pay1_apply, pay10_apply, pay9_apply]
  simp only [conv_apply]
  rfl

/-- What the body leaves in the output block, entry by entry. -/
theorem out0_18_apply (x0 x1 : Vec Ideal S256x200 .f32) (x2 : Vec Ideal S200x288 .f32) (x3 : Vec Ideal S288 .f32)
    (x4 x5 x6 x7 : Vec Ideal S1 .f32) (x8 x9 x10 x11 : Vec Ideal S32 .f32) (x12 x13 x14 x15 : Vec Ideal S200 .f32)
    (x16 : Vec Ideal S6144x200 .f32) (x17 : Vec Ideal S200 .f32) (p : Fin 256) (q : Fin 200) :
    out0_18 (F := Ideal) x0 x1 x2 x3 x4 x5 x6 x7 x8 x9 x10 x11 x12 x13 x14 x15 x16 x17 (ix2 p q)
      = hrow scaleMul tapsInOrder (blockParams x2 x3 x4 x5 x6 x7 x8 x9 x10 x11 x12 x13 x14 x15 x16 x17)
          (fun j => x0 (ix2 p j)) (fun k => x1 (ix2 p k)) q :=
  body_apply (blockParams x2 x3 x4 x5 x6 x7 x8 x9 x10 x11 x12 x13 x14 x15 x16 x17) x0 x1 p q

end Cert.KernelIdeal.HyperBody

end
-- ==== Proof.HyperArray.lean ====
/-
  Region 0's output array after its four grid points. Point `t` handles samples `256 t … 256 t + 255`; the weights'
  windows are the whole weight arrays at every point. So the array ends holding, at sample `b` and column `j`, the
  hidden row of sample `b` computed from row `b` of the two gathered arrays and the weights as the region finds them.
-/
import proofs.«159688_j3453153706530_1_alg».proof.Proof.HyperBody

noncomputable section

namespace Cert.KernelIdeal.HyperArray

open Cert.KernelIdeal Cert.KernelIdeal.Gen Cert.HyperConv Idealize.ShloMosaic Idealize.ShloMosaic.TcCoe Idealize.ShloMosaic.ValueIdx Idealize.SL.Sem
open Idealize.ShloMosaic.Pipeline (Dat)
open Cert.KernelIdeal.HyperBody (blockParams out0_18_apply)

variable (V : (c : Dev nD) → (b : Ref sig .tc) → Buf (Elt Ideal) ((c : Thread nD τ).loc b))

/-- The network's weights as region 0 finds them. -/
abbrev paramsAt (c : Dev nD) : Params :=
  { W1 := V c main_arg6, c1 := V c main_arg7, g0 := V c main_arg8, b0 := V c main_arg9, m0 := V c main_arg10,
    v0 := V c main_arg11, g1 := V c main_arg12, b1 := V c main_arg13, m1 := V c main_arg14, v1 := V c main_arg15,
    g2 := V c main_arg16, b2 := V c main_arg17, m2 := V c main_arg18, v2 := V c main_arg19,
    Wf := V c main_arg4, cf := V c main_arg5 }

/-- The hidden array as one function of the arrays the region finds: sample `i 0`, column `i 1`. -/
abbrev hiddenOf (c : Dev nD) : S1024x200.Idx → Elt Ideal .f32 :=
  fun i => hrow scaleMul tapsInOrder (paramsAt V c)
    (fun j => V c main_v6 (ix2 (i 0) j)) (fun k => V c main_v13 (ix2 (i 0) k)) (i 1)

/-! ## Where each window's block sits -/

/-- At point `t` the two gathered arrays and the output are read at block `(t, 0)`: rows `256 t …`, all columns. -/
theorem rowBlockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_18.index t (0 : Fin 2) = t.val ∧ win0_18.index t (1 : Fin 2) = 0 :=
  (by decide +kernel : ∀ t : Fin grid0.N, _)

/-- Every weight array is read at block index zero on every axis, at every point. -/
theorem weightBlockIndex : ∀ t : Fin cfg0.N,
    (∀ a, win0_2.index t a = 0) ∧ (∀ a, win0_3.index t a = 0) ∧ (∀ a, win0_4.index t a = 0) ∧ (∀ a, win0_5.index t a = 0)
    ∧ (∀ a, win0_6.index t a = 0) ∧ (∀ a, win0_7.index t a = 0) ∧ (∀ a, win0_8.index t a = 0) ∧ (∀ a, win0_9.index t a = 0)
    ∧ (∀ a, win0_10.index t a = 0) ∧ (∀ a, win0_11.index t a = 0) ∧ (∀ a, win0_12.index t a = 0) ∧ (∀ a, win0_13.index t a = 0)
    ∧ (∀ a, win0_14.index t a = 0) ∧ (∀ a, win0_15.index t a = 0) ∧ (∀ a, win0_16.index t a = 0) ∧ (∀ a, win0_17.index t a = 0) :=
  (by decide +kernel : ∀ t : Fin grid0.N, _)

/-! ## The blocks read -/

/-- Row `p` of the entity block at point `t` is row `256 t + p` of the gathered entity array. -/
theorem entityBlock_apply (c : Dev nD) (t : Fin cfg0.N) (p : Fin 256) (j : Fin 200) (b : Fin 1024)
    (hb : b.val = 256 * t.val + p.val) :
    (iblk0 (F := Ideal) V c 0 t : Vec Ideal S256x200 .f32) (ix2 p j)
      = (V c main_v6 : S1024x200.Idx → Elt Ideal .f32) (ix2 b j) := by
  obtain ⟨e0, e1, -⟩ := rowBlockIndex t
  unfold iblk0
  rw [View.read_apply]
  show V c main_v6 _ = V c main_v6 _
  congr 1
  funext a
  apply Fin.ext
  match a with
  | ⟨0, _⟩ => show win0_0.index t (0 : Fin 2) * 256 + 1 * p.val = b.val; rw [e0, hb]; omega
  | ⟨1, _⟩ => show win0_0.index t (1 : Fin 2) * 200 + 1 * j.val = j.val; rw [e1]; omega

/-- Row `p` of the relation block at point `t` is row `256 t + p` of the gathered relation array. -/
theorem relationBlock_apply (c : Dev nD) (t : Fin cfg0.N) (p : Fin 256) (k : Fin 200) (b : Fin 1024)
    (hb : b.val = 256 * t.val + p.val) :
    (iblk0 (F := Ideal) V c 1 t : Vec Ideal S256x200 .f32) (ix2 p k)
      = (V c main_v13 : S1024x200.Idx → Elt Ideal .f32) (ix2 b k) := by
  obtain ⟨-, -, e0, e1, -⟩ := rowBlockIndex t
  unfold iblk0
  rw [View.read_apply]
  show V c main_v13 _ = V c main_v13 _
  congr 1
  funext a
  apply Fin.ext
  match a with
  | ⟨0, _⟩ => show win0_1.index t (0 : Fin 2) * 256 + 1 * p.val = b.val; rw [e0, hb]; omega
  | ⟨1, _⟩ => show win0_1.index t (1 : Fin 2) * 200 + 1 * k.val = k.val; rw [e1]; omega

/-- The filter map is read whole at every point. -/
theorem blockW1 (c : Dev nD) (t : Fin cfg0.N) : (iblk0 (F := Ideal) V c 2 t : Vec Ideal S200x288 .f32) = V c main_arg6 := by
  obtain ⟨h, -⟩ := weightBlockIndex t
  have hz : (fun a => win0_2.index t a * main_arg6.ty.shape.size a) = fun _ => 0 :=
    funext fun a => by rw [h a]; exact Nat.zero_mul _
  exact Memref.read_access_unit_zero (Elt Ideal) main_arg6 hz (fun a => by rw [congrFun hz a]; simp) (V c main_arg6)

/-- The filter map's offset is read whole at every point. -/
theorem blockC1 (c : Dev nD) (t : Fin cfg0.N) : (iblk0 (F := Ideal) V c 3 t : Vec Ideal S288 .f32) = V c main_arg7 := by
  obtain ⟨-, h, -⟩ := weightBlockIndex t
  have hz : (fun a => win0_3.index t a * main_arg7.ty.shape.size a) = fun _ => 0 :=
    funext fun a => by rw [h a]; exact Nat.zero_mul _
  exact Memref.read_access_unit_zero (Elt Ideal) main_arg7 hz (fun a => by rw [congrFun hz a]; simp) (V c main_arg7)

/-- The first normalisation's gain is read whole at every point. -/
theorem blockG0 (c : Dev nD) (t : Fin cfg0.N) : (iblk0 (F := Ideal) V c 4 t : Vec Ideal S1 .f32) = V c main_arg8 := by
  obtain ⟨-, -, h, -⟩ := weightBlockIndex t
  have hz : (fun a => win0_4.index t a * main_arg8.ty.shape.size a) = fun _ => 0 :=
    funext fun a => by rw [h a]; exact Nat.zero_mul _
  exact Memref.read_access_unit_zero (Elt Ideal) main_arg8 hz (fun a => by rw [congrFun hz a]; simp) (V c main_arg8)

/-- The first normalisation's shift is read whole at every point. -/
theorem blockB0 (c : Dev nD) (t : Fin cfg0.N) : (iblk0 (F := Ideal) V c 5 t : Vec Ideal S1 .f32) = V c main_arg9 := by
  obtain ⟨-, -, -, h, -⟩ := weightBlockIndex t
  have hz : (fun a => win0_5.index t a * main_arg9.ty.shape.size a) = fun _ => 0 :=
    funext fun a => by rw [h a]; exact Nat.zero_mul _
  exact Memref.read_access_unit_zero (Elt Ideal) main_arg9 hz (fun a => by rw [congrFun hz a]; simp) (V c main_arg9)

/-- The first normalisation's mean is read whole at every point. -/
theorem blockM0 (c : Dev nD) (t : Fin cfg0.N) : (iblk0 (F := Ideal) V c 6 t : Vec Ideal S1 .f32) = V c main_arg10 := by
  obtain ⟨-, -, -, -, h, -⟩ := weightBlockIndex t
  have hz : (fun a => win0_6.index t a * main_arg10.ty.shape.size a) = fun _ => 0 :=
    funext fun a => by rw [h a]; exact Nat.zero_mul _
  exact Memref.read_access_unit_zero (Elt Ideal) main_arg10 hz (fun a => by rw [congrFun hz a]; simp) (V c main_arg10)

/-- The first normalisation's variance is read whole at every point. -/
theorem blockV0 (c : Dev nD) (t : Fin cfg0.N) : (iblk0 (F := Ideal) V c 7 t : Vec Ideal S1 .f32) = V c main_arg11 := by
  obtain ⟨-, -, -, -, -, h, -⟩ := weightBlockIndex t
  have hz : (fun a => win0_7.index t a * main_arg11.ty.shape.size a) = fun _ => 0 :=
    funext fun a => by rw [h a]; exact Nat.zero_mul _
  exact Memref.read_access_unit_zero (Elt Ideal) main_arg11 hz (fun a => by rw [congrFun hz a]; simp) (V c main_arg11)

/-- The channel normalisation's gain is read whole at every point. -/
theorem blockG1 (c : Dev nD) (t : Fin cfg0.N) : (iblk0 (F := Ideal) V c 8 t : Vec Ideal S32 .f32) = V c main_arg12 := by
  obtain ⟨-, -, -, -, -, -, h, -⟩ := weightBlockIndex t
  have hz : (fun a => win0_8.index t a * main_arg12.ty.shape.size a) = fun _ => 0 :=
    funext fun a => by rw [h a]; exact Nat.zero_mul _
  exact Memref.read_access_unit_zero (Elt Ideal) main_arg12 hz (fun a => by rw [congrFun hz a]; simp) (V c main_arg12)

/-- The channel normalisation's shift is read whole at every point. -/
theorem blockB1 (c : Dev nD) (t : Fin cfg0.N) : (iblk0 (F := Ideal) V c 9 t : Vec Ideal S32 .f32) = V c main_arg13 := by
  obtain ⟨-, -, -, -, -, -, -, h, -⟩ := weightBlockIndex t
  have hz : (fun a => win0_9.index t a * main_arg13.ty.shape.size a) = fun _ => 0 :=
    funext fun a => by rw [h a]; exact Nat.zero_mul _
  exact Memref.read_access_unit_zero (Elt Ideal) main_arg13 hz (fun a => by rw [congrFun hz a]; simp) (V c main_arg13)

/-- The channel normalisation's mean is read whole at every point. -/
theorem blockM1 (c : Dev nD) (t : Fin cfg0.N) : (iblk0 (F := Ideal) V c 10 t : Vec Ideal S32 .f32) = V c main_arg14 := by
  obtain ⟨-, -, -, -, -, -, -, -, h, -⟩ := weightBlockIndex t
  have hz : (fun a => win0_10.index t a * main_arg14.ty.shape.size a) = fun _ => 0 :=
    funext fun a => by rw [h a]; exact Nat.zero_mul _
  exact Memref.read_access_unit_zero (Elt Ideal) main_arg14 hz (fun a => by rw [congrFun hz a]; simp) (V c main_arg14)

/-- The channel normalisation's variance is read whole at every point. -/
theorem blockV1 (c : Dev nD) (t : Fin cfg0.N) : (iblk0 (F := Ideal) V c 11 t : Vec Ideal S32 .f32) = V c main_arg15 := by
  obtain ⟨-, -, -, -, -, -, -, -, -, h, -⟩ := weightBlockIndex t
  have hz : (fun a => win0_11.index t a * main_arg15.ty.shape.size a) = fun _ => 0 :=
    funext fun a => by rw [h a]; exact Nat.zero_mul _
  exact Memref.read_access_unit_zero (Elt Ideal) main_arg15 hz (fun a => by rw [congrFun hz a]; simp) (V c main_arg15)

/-- The last normalisation's gain is read whole at every point. -/
theorem blockG2 (c : Dev nD) (t : Fin cfg0.N) : (iblk0 (F := Ideal) V c 12 t : Vec Ideal S200 .f32) = V c main_arg16 := by
  obtain ⟨-, -, -, -, -, -, -, -, -, -, h, -⟩ := weightBlockIndex t
  have hz : (fun a => win0_12.index t a * main_arg16.ty.shape.size a) = fun _ => 0 :=
    funext fun a => by rw [h a]; exact Nat.zero_mul _
  exact Memref.read_access_unit_zero (Elt Ideal) main_arg16 hz (fun a => by rw [congrFun hz a]; simp) (V c main_arg16)

/-- The last normalisation's shift is read whole at every point. -/
theorem blockB2 (c : Dev nD) (t : Fin cfg0.N) : (iblk0 (F := Ideal) V c 13 t : Vec Ideal S200 .f32) = V c main_arg17 := by
  obtain ⟨-, -, -, -, -, -, -, -, -, -, -, h, -⟩ := weightBlockIndex t
  have hz : (fun a => win0_13.index t a * main_arg17.ty.shape.size a) = fun _ => 0 :=
    funext fun a => by rw [h a]; exact Nat.zero_mul _
  exact Memref.read_access_unit_zero (Elt Ideal) main_arg17 hz (fun a => by rw [congrFun hz a]; simp) (V c main_arg17)

/-- The last normalisation's mean is read whole at every point. -/
theorem blockM2 (c : Dev nD) (t : Fin cfg0.N) : (iblk0 (F := Ideal) V c 14 t : Vec Ideal S200 .f32) = V c main_arg18 := by
  obtain ⟨-, -, -, -, -, -, -, -, -, -, -, -, h, -⟩ := weightBlockIndex t
  have hz : (fun a => win0_14.index t a * main_arg18.ty.shape.size a) = fun _ => 0 :=
    funext fun a => by rw [h a]; exact Nat.zero_mul _
  exact Memref.read_access_unit_zero (Elt Ideal) main_arg18 hz (fun a => by rw [congrFun hz a]; simp) (V c main_arg18)

/-- The last normalisation's variance is read whole at every point. -/
theorem blockV2 (c : Dev nD) (t : Fin cfg0.N) : (iblk0 (F := Ideal) V c 15 t : Vec Ideal S200 .f32) = V c main_arg19 := by
  obtain ⟨-, -, -, -, -, -, -, -, -, -, -, -, -, h, -⟩ := weightBlockIndex t
  have hz : (fun a => win0_15.index t a * main_arg19.ty.shape.size a) = fun _ => 0 :=
    funext fun a => by rw [h a]; exact Nat.zero_mul _
  exact Memref.read_access_unit_zero (Elt Ideal) main_arg19 hz (fun a => by rw [congrFun hz a]; simp) (V c main_arg19)

/-- The output map is read whole at every point. -/
theorem blockWf (c : Dev nD) (t : Fin cfg0.N) : (iblk0 (F := Ideal) V c 16 t : Vec Ideal S6144x200 .f32) = V c main_arg4 := by
  obtain ⟨-, -, -, -, -, -, -, -, -, -, -, -, -, -, h, -⟩ := weightBlockIndex t
  have hz : (fun a => win0_16.index t a * main_arg4.ty.shape.size a) = fun _ => 0 :=
    funext fun a => by rw [h a]; exact Nat.zero_mul _
  exact Memref.read_access_unit_zero (Elt Ideal) main_arg4 hz (fun a => by rw [congrFun hz a]; simp) (V c main_arg4)

/-- The output map's offset is read whole at every point. -/
theorem blockCf (c : Dev nD) (t : Fin cfg0.N) : (iblk0 (F := Ideal) V c 17 t : Vec Ideal S200 .f32) = V c main_arg5 := by
  obtain ⟨-, -, -, -, -, -, -, -, -, -, -, -, -, -, -, h⟩ := weightBlockIndex t
  have hz : (fun a => win0_17.index t a * main_arg5.ty.shape.size a) = fun _ => 0 :=
    funext fun a => by rw [h a]; exact Nat.zero_mul _
  exact Memref.read_access_unit_zero (Elt Ideal) main_arg5 hz (fun a => by rw [congrFun hz a]; simp) (V c main_arg5)

/-- So the weights the body loads at any point are the weights the region finds. -/
theorem blockParams_eq (c : Dev nD) (t : Fin cfg0.N) :
    blockParams (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) = paramsAt V c := by
  rw [blockW1 V c t, blockC1 V c t, blockG0 V c t, blockB0 V c t, blockM0 V c t, blockV0 V c t, blockG1 V c t, blockB1 V c t, blockM1 V c t, blockV1 V c t, blockG2 V c t, blockB2 V c t, blockM2 V c t, blockV2 V c t, blockWf V c t, blockCf V c t]

/-! ## What a point writes back, and the cover -/

/-- Entry `(p, q)` of the output block at point `t` sits at row `256 t + p`, column `q` of the array. -/
theorem outBlock_emb (t : Fin cfg0.N) (p : Fin 256) (q : Fin 200) (b : Fin 1024) (hb : b.val = 256 * t.val + p.val) :
    (((cfg0.win 18).blk t).view.emb (ix2 p q) : S1024x200.Idx) = ix2 b q := by
  obtain ⟨-, -, -, -, e0, e1⟩ := rowBlockIndex t
  funext a
  apply Fin.ext
  match a with
  | ⟨0, _⟩ => show win0_18.index t (0 : Fin 2) * 256 + 1 * p.val = b.val; rw [e0, hb]; omega
  | ⟨1, _⟩ => show win0_18.index t (1 : Fin 2) * 200 + 1 * q.val = q.val; rw [e1]; omega

/-- Point `t` writes back block `t` of the hidden array: each of its 256 rows is the hidden row of its sample. -/
theorem flushed_eq (c : Dev nD) (t : Fin cfg0.N) :
    (dat0 (F := Ideal) V c).flushed 18 t = ((cfg0.win 18).blk t).view.read (Elt Ideal) (hiddenOf V c) := by
  show (cfg0.win 18).cut (grid0.coords t) ((dat0 (F := Ideal) V c).after 18 t) = _
  rw [after0_18]
  funext j
  obtain ⟨p, q, rfl⟩ : ∃ (p : Fin 256) (q : Fin 200), j = ix2 p q := ⟨j 0, j 1, eq_ix2 j⟩
  obtain ⟨b, hb⟩ : ∃ b : Fin 1024, b.val = 256 * t.val + p.val :=
    ⟨⟨256 * t.val + p.val, by have := t.isLt; have hN : cfg0.N = 4 := N_0; omega⟩, rfl⟩
  rw [View.read_apply]
  show out0_18 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (ix2 p q)
    = hiddenOf V c (((cfg0.win 18).blk t).view.emb (ix2 p q))
  rw [outBlock_emb t p q b hb]
  refine (out0_18_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) p q).trans ?_
  rw [blockParams_eq V c t]
  exact congrArg₂ (fun e r => hrow scaleMul tapsInOrder (paramsAt V c) e r q)
    (funext fun j => entityBlock_apply V c t p j b hb) (funext fun k => relationBlock_apply V c t p k b hb)

/-- An index of the array is in point `t`'s output block iff each coordinate is in the block's range on its axis. -/
theorem mem_outBlock (t : Fin cfg0.N) (i : S1024x200.Idx) :
    i ∈ ((cfg0.win 18).blk t).view.set ↔ ∀ a : Fin 2, win0_18.index t a * S256x200.size a ≤ (i a).val
      ∧ (i a).val < win0_18.index t a * S256x200.size a + S256x200.size a := by
  show i ∈ ((View.whole main_v14).slice (win0_18.rect t)).set ↔ _
  rw [View.set_slice_whole, Rect.mem_set_unit]
  exact Iff.rfl

/-- Sample `b` is covered by point `b / 256`. -/
theorem covered (i : S1024x200.Idx) :
    ∃ t : Fin cfg0.N, (cfg0.win 18).flush t = true ∧ i ∈ ((cfg0.win 18).blk t).view.set := by
  have hi0 : (i 0).val < 1024 := (i 0).isLt
  have hi1 : (i 1).val < 200 := (i 1).isLt
  have hN : cfg0.N = 4 := N_0
  obtain ⟨t, ht⟩ : ∃ t : Fin cfg0.N, t.val = (i 0).val / 256 := ⟨⟨(i 0).val / 256, by rw [hN]; omega⟩, rfl⟩
  obtain ⟨-, -, -, -, e0, e1⟩ := rowBlockIndex t
  refine ⟨t, flush0_18 t, ?_⟩
  rw [mem_outBlock]
  intro a
  match a with
  | ⟨0, _⟩ =>
    show win0_18.index t (0 : Fin 2) * 256 ≤ (i 0).val ∧ (i 0).val < win0_18.index t (0 : Fin 2) * 256 + 256
    rw [e0, ht]; omega
  | ⟨1, _⟩ =>
    show win0_18.index t (1 : Fin 2) * 200 ≤ (i 1).val ∧ (i 1).val < win0_18.index t (1 : Fin 2) * 200 + 200
    rw [e1]; omega

/-- The hidden array: sample `b`, column `j`. -/
theorem hidden_array (c : Dev nD) :
    (dat0 (F := Ideal) V c).arrAt 18 cfg0.N
      = (fun i : S1024x200.Idx => hrow scaleMul tapsInOrder (paramsAt V c)
          (fun j => V c main_v6 (ix2 (i 0) j)) (fun k => V c main_v13 (ix2 (i 0) k)) (i 1)) :=
  (dat0 (F := Ideal) V c).arrAt_eq_of_cover 18 (hiddenOf V c) (fun t _ => flushed_eq V c t) covered

end Cert.KernelIdeal.HyperArray

end
-- ==== Proof.ScoreBody.lean ====
/-
  Region 1's body at one entry: at row `b` and column `n` of the 1024 × 1536 block it stores the score of hidden
  row `b` against row `n` of the entity block with the bias at column `n`.
-/
import proofs.«159688_j3453153706530_1_alg».proof.Proof.Gen.KernelIdeal.Frame
import proofs.«159688_j3453153706530_1_alg».proof.Proof.RowMath
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ScoreBody

open Cert.KernelIdeal Cert.KernelIdeal.Gen Cert.HyperConv Idealize.ShloMosaic Idealize.ShloMosaic.ValueIdx

/-! ## The product's operand indices

The product contracts axis 1 of both operands: entry `(b, n)` of the result pairs row `b` of the left operand with
row `n` of the right one, and the contracted coordinate runs along both rows. -/

theorem lhs_score_0 (i : S1024x1536.Idx) (q : dot_S1024x200_S1536x200_S1024x1536_1_1_0_0_n_n.contr.Idx) :
    (dot_S1024x200_S1536x200_S1024x1536_1_1_0_0_n_n.lhsIdx i q 0).val = (i 0).val := by
  unfold DotDims.lhsIdx
  rw [dif_neg (show ¬(0 : Fin S1024x200.rank) ∈ dot_S1024x200_S1536x200_S1024x1536_1_1_0_0_n_n.lhsBatch by decide), dif_pos (show (0 : Fin S1024x200.rank) ∈ dot_S1024x200_S1536x200_S1024x1536_1_1_0_0_n_n.lhsNonContracting by decide)]
  rfl
theorem lhs_score_1 (i : S1024x1536.Idx) (q : dot_S1024x200_S1536x200_S1024x1536_1_1_0_0_n_n.contr.Idx) :
    (dot_S1024x200_S1536x200_S1024x1536_1_1_0_0_n_n.lhsIdx i q 1).val = (q ⟨0, by decide⟩).val :=
  dot_S1024x200_S1536x200_S1024x1536_1_1_0_0_n_n.lhsIdx_val_of_single rfl i q
theorem rhs_score_0 (i : S1024x1536.Idx) (q : dot_S1024x200_S1536x200_S1024x1536_1_1_0_0_n_n.contr.Idx) :
    (dot_S1024x200_S1536x200_S1024x1536_1_1_0_0_n_n.rhsIdx i q 0).val = (i 1).val := by
  unfold DotDims.rhsIdx
  rw [dif_neg (show ¬(0 : Fin S1536x200.rank) ∈ dot_S1024x200_S1536x200_S1024x1536_1_1_0_0_n_n.rhsBatch by decide), dif_pos (show (0 : Fin S1536x200.rank) ∈ dot_S1024x200_S1536x200_S1024x1536_1_1_0_0_n_n.rhsNonContracting by decide)]
  rfl
theorem rhs_score_1 (i : S1024x1536.Idx) (q : dot_S1024x200_S1536x200_S1024x1536_1_1_0_0_n_n.contr.Idx) :
    (dot_S1024x200_S1536x200_S1024x1536_1_1_0_0_n_n.rhsIdx i q 1).val = (q ⟨0, by decide⟩).val :=
  dot_S1024x200_S1536x200_S1024x1536_1_1_0_0_n_n.rhsIdx_val_of_single rfl i q

/-- The product into a zero accumulator, at row `b` and column `n`: the inner product of row `b` of the left operand
    with row `n` of the right one. -/
theorem rowsDot_apply (a : FVec Ideal S1024x200 .bf16) (e : FVec Ideal S1536x200 .bf16) (b : Fin 1024) (n : Fin 1536) :
    matmul dot_S1024x200_S1536x200_S1024x1536_1_1_0_0_n_n none a e (constant (F := Ideal) S1024x1536 .f32 0x00000000#32) (ix2 b n)
      = ∑ d : Fin 200, a (ix2 b d) * e (ix2 n d) := by
  show FloatOps.matmul dot_S1024x200_S1536x200_S1024x1536_1_1_0_0_n_n none a e (constant (F := Ideal) S1024x1536 .f32 0x00000000#32) (ix2 b n) = _
  rw [Ideal.matmul_constant_zero_apply, ← Equiv.sum_comp (ValueIdx.contrEquiv1 dot_S1024x200_S1536x200_S1024x1536_1_1_0_0_n_n 200 rfl rfl).symm]
  refine Finset.sum_congr rfl fun k _ => ?_
  have hk := ValueIdx.contrEquiv1_symm_val dot_S1024x200_S1536x200_S1024x1536_1_1_0_0_n_n 200 rfl rfl k
  have el : dot_S1024x200_S1536x200_S1024x1536_1_1_0_0_n_n.lhsIdx (ix2 b n) ((ValueIdx.contrEquiv1 dot_S1024x200_S1536x200_S1024x1536_1_1_0_0_n_n 200 rfl rfl).symm k) = ix2 b k := funext fun x => Fin.ext (by
    match x with
    | ⟨0, _⟩ => exact lhs_score_0 _ _
    | ⟨1, _⟩ => exact (lhs_score_1 _ _).trans hk)
  have er : dot_S1024x200_S1536x200_S1024x1536_1_1_0_0_n_n.rhsIdx (ix2 b n) ((ValueIdx.contrEquiv1 dot_S1024x200_S1536x200_S1024x1536_1_1_0_0_n_n 200 rfl rfl).symm k) = ix2 n k := funext fun x => Fin.ext (by
    match x with
    | ⟨0, _⟩ => exact rhs_score_0 _ _
    | ⟨1, _⟩ => exact (rhs_score_1 _ _).trans hk)
  rw [el, er]

/-- The bias row sent down the 1024 rows: column `n` of every row reads the bias at `n`. -/
theorem biasDown_apply (c : FVec Ideal S1x1536 .f32) (b : Fin 1024) (n : Fin 1536) :
    broadcastTo S1024x1536 c broadcasts_S1x1536_S1024x1536 (ix2 b n) = c (ix2 0 n) := by
  refine broadcastTo_apply c broadcasts_S1x1536_S1024x1536 (ix2 b n) (ix2 0 n) fun x => ?_
  match x with
  | ⟨0, _⟩ => rfl
  | ⟨1, _⟩ => rfl

/-- What the body leaves in the output block, entry by entry. -/
theorem out1_3_apply (x0 : Vec Ideal S1024x200 .f32) (x1 : Vec Ideal S1536x200 .f32) (x2 : Vec Ideal S1x1536 .f32)
    (b : Fin 1024) (n : Fin 1536) :
    out1_3 (F := Ideal) x0 x1 x2 (ix2 b n)
      = score (fun d => x0 (ix2 b d)) (fun d => x1 (ix2 n d)) (x2 (ix2 0 n)) := by
  have hz : (![0, 0] : Fin 2 → Nat) = fun _ => 0 := by
    funext x
    match x with
    | ⟨0, _⟩ => rfl
    | ⟨1, _⟩ => rfl
  unfold out1_3
  rw [View.canon_unit_zero hz]
  simp only [View.ld_unit_zero (S := S1024x200) hz, View.ld_unit_zero (S := S1536x200) hz,
    View.ld_unit_zero (S := S1x1536) hz]
  unfold k1_pay1
  simp only [shapeCast_self]
  show Ideal.logistic
      (matmul dot_S1024x200_S1536x200_S1024x1536_1_1_0_0_n_n none (truncf .bf16 x0 bitsLt_bf16_f32)
          (truncf .bf16 x1 bitsLt_bf16_f32) (constant (F := Ideal) S1024x1536 .f32 0x00000000#32) (ix2 b n)
        + broadcastTo S1024x1536 x2 broadcasts_S1x1536_S1024x1536 (ix2 b n)) = _
  rw [rowsDot_apply, biasDown_apply]
  rfl

end Cert.KernelIdeal.ScoreBody

end
-- ==== Proof.ScoreArray.lean ====
/-
  Region 1's output array after its 66 grid points. Point `t` handles entity rows `1536 t … 1536 t + 1535` (of the
  padded entity array) against all 1024 hidden rows. So the array ends holding, at sample `b` and column `n`, the
  score of hidden row `b` against padded entity row `n` with the padded bias at `n`.
-/
import proofs.«159688_j3453153706530_1_alg».proof.Proof.ScoreBody

noncomputable section

namespace Cert.KernelIdeal.ScoreArray

open Cert.KernelIdeal Cert.KernelIdeal.Gen Cert.HyperConv Idealize.ShloMosaic Idealize.ShloMosaic.TcCoe Idealize.ShloMosaic.ValueIdx Idealize.SL.Sem
open Idealize.ShloMosaic.Pipeline (Dat)
open Cert.KernelIdeal.ScoreBody

variable (V : (c : Dev nD) → (b : Ref sig .tc) → Buf (Elt Ideal) ((c : Thread nD τ).loc b))

/-! ## Where each window's block sits at point `t`

The hidden array is one block, read whole at every point. The entity rows, the bias columns and the output columns
move together: point `t` has block `t` of each, 1536 rows (columns) wide. -/

theorem block_indices : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- There are 66 points, so column `q` of block `t` is a column of the padded array. -/
theorem col_lt (t : Fin cfg1.N) (q : Fin 1536) : t.val * 1536 + q.val < 101376 := by
  have ht : t.val < 66 := lt_of_lt_of_eq t.isLt N_1
  have hq : q.val < 1536 := q.isLt
  omega

/-- Row `p` of the hidden block is row `p` of the hidden array. -/
theorem hidden_block (c : Dev nD) (t : Fin cfg1.N) (p : Fin 1024) (d : Fin 200) :
    iblk1 V c 0 t (ix2 p d) = V c main_v14 (ix2 p d) := by
  obtain ⟨e0, e1, -⟩ := block_indices t
  show V c main_v14 (((cfg1.win 0).blk t).view.emb (ix2 p d)) = V c main_v14 (ix2 p d)
  refine congrArg (V c main_v14) (funext fun a => Fin.ext ?_)
  match a with
  | ⟨0, _⟩ => show win1_0.index t (0 : Fin 2) * 1024 + 1 * p.val = p.val; omega
  | ⟨1, _⟩ => show win1_0.index t (1 : Fin 2) * 200 + 1 * d.val = d.val; omega

/-- Row `q` of the entity block at point `t` is row `1536 t + q` of the padded entity array. -/
theorem entity_block (c : Dev nD) (t : Fin cfg1.N) (q : Fin 1536) (d : Fin 200) :
    iblk1 V c 1 t (ix2 q d) = V c main_v15 (ix2 ⟨t.val * 1536 + q.val, col_lt t q⟩ d) := by
  obtain ⟨-, -, e0, e1, -⟩ := block_indices t
  show V c main_v15 (((cfg1.win 1).blk t).view.emb (ix2 q d)) = V c main_v15 (ix2 ⟨t.val * 1536 + q.val, col_lt t q⟩ d)
  refine congrArg (V c main_v15) (funext fun a => Fin.ext ?_)
  match a with
  | ⟨0, _⟩ => show win1_1.index t (0 : Fin 2) * 1536 + 1 * q.val = t.val * 1536 + q.val; omega
  | ⟨1, _⟩ => show win1_1.index t (1 : Fin 2) * 200 + 1 * d.val = d.val; omega

/-- Column `q` of the bias block at point `t` is column `1536 t + q` of the padded bias row. -/
theorem bias_block (c : Dev nD) (t : Fin cfg1.N) (q : Fin 1536) :
    iblk1 V c 2 t (ix2 0 q) = V c main_v17 (ix2 0 ⟨t.val * 1536 + q.val, col_lt t q⟩) := by
  obtain ⟨-, -, -, -, e0, e1, -⟩ := block_indices t
  show V c main_v17 (((cfg1.win 2).blk t).view.emb (ix2 0 q)) = V c main_v17 (ix2 0 ⟨t.val * 1536 + q.val, col_lt t q⟩)
  refine congrArg (V c main_v17) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 1536 + 1 * q.val = t.val * 1536 + q.val; omega

/-- Entry `(p, q)` of the output block at point `t` is entry `(p, 1536 t + q)` of the score array. -/
theorem out_block_index (t : Fin cfg1.N) (p : Fin 1024) (q : Fin 1536) :
    ((cfg1.win 3).blk t).view.emb (ix2 p q) = (ix2 p ⟨t.val * 1536 + q.val, col_lt t q⟩ : S1024x101376.Idx) := by
  obtain ⟨-, -, -, -, -, -, e0, e1⟩ := block_indices t
  refine funext fun a => Fin.ext ?_
  match a with
  | ⟨0, _⟩ => show win1_3.index t (0 : Fin 2) * 1024 + 1 * p.val = p.val; omega
  | ⟨1, _⟩ => show win1_3.index t (1 : Fin 2) * 1536 + 1 * q.val = t.val * 1536 + q.val; omega

/-- The score array: sample `b` against padded entity `n`. -/
abbrev scores (c : Dev nD) : S1024x101376.Idx → EReal := fun i =>
  score (fun d => V c main_v14 (ix2 (i 0) d)) (fun d => V c main_v15 (ix2 (i 1) d)) (V c main_v17 (ix2 0 (i 1)))

/-- What point `t` writes back is block `t` of the score array. -/
theorem flushed_scores (c : Dev nD) (t : Fin cfg1.N) :
    (dat1 (F := Ideal) V c).flushed 3 t = ((cfg1.win 3).blk t).view.read (Elt Ideal) (scores V c) := by
  show (cfg1.win 3).cut (grid1.coords t) ((dat1 V c).after 3 t) = _
  rw [after1_3]
  funext j
  obtain ⟨p, q, rfl⟩ : ∃ (p : Fin 1024) (q : Fin 1536), j = ix2 p q := ⟨j 0, j 1, eq_ix2 j⟩
  show out1_3 (iblk1 V c 0 t) (iblk1 V c 1 t) (iblk1 V c 2 t) (ix2 p q) = scores V c (((cfg1.win 3).blk t).view.emb (ix2 p q))
  rw [out1_3_apply (iblk1 V c 0 t) (iblk1 V c 1 t) (iblk1 V c 2 t) p q, out_block_index t p q]
  have h0 : (fun d => iblk1 V c 0 t (ix2 p d)) = fun d => V c main_v14 (ix2 p d) := funext fun d => hidden_block V c t p d
  have h1 : (fun d => iblk1 V c 1 t (ix2 q d)) = fun d => V c main_v15 (ix2 ⟨t.val * 1536 + q.val, col_lt t q⟩ d) :=
    funext fun d => entity_block V c t q d
  rw [h0, h1, bias_block V c t q]

/-- An index of the score array is in point `t`'s block iff each coordinate is in the block's range on its axis. -/
theorem mem_block (t : Fin cfg1.N) (i : S1024x101376.Idx) :
    i ∈ ((cfg1.win 3).blk t).view.set ↔ ∀ a : Fin 2, win1_3.index t a * S1024x1536.size a ≤ (i a).val ∧ (i a).val < win1_3.index t a * S1024x1536.size a + S1024x1536.size a := by
  show i ∈ ((View.whole main_v18).slice (win1_3.rect t)).set ↔ _
  rw [View.set_slice_whole, Rect.mem_set_unit]
  exact Iff.rfl

/-- Column `n` lies in the block of point `n / 1536`: the 66 blocks fill the array. -/
theorem covered (i : S1024x101376.Idx) :
    ∃ t : Fin cfg1.N, (cfg1.win 3).flush t = true ∧ i ∈ ((cfg1.win 3).blk t).view.set := by
  have hi0 : (i 0).val < 1024 := (i 0).isLt
  have hi1 : (i 1).val < 101376 := (i 1).isLt
  have hN : cfg1.N = 66 := N_1
  have ht : (i 1).val / 1536 < cfg1.N := by rw [hN]; omega
  obtain ⟨-, -, -, -, -, -, e0, e1⟩ := block_indices ⟨(i 1).val / 1536, ht⟩
  refine ⟨⟨(i 1).val / 1536, ht⟩, flush1_3 _, ?_⟩
  rw [mem_block]
  intro a
  match a with
  | ⟨0, _⟩ =>
    show win1_3.index ⟨(i 1).val / 1536, ht⟩ (0 : Fin 2) * 1024 ≤ (i 0).val ∧ (i 0).val < win1_3.index ⟨(i 1).val / 1536, ht⟩ (0 : Fin 2) * 1024 + 1024
    omega
  | ⟨1, _⟩ =>
    show win1_3.index ⟨(i 1).val / 1536, ht⟩ (1 : Fin 2) * 1536 ≤ (i 1).val ∧ (i 1).val < win1_3.index ⟨(i 1).val / 1536, ht⟩ (1 : Fin 2) * 1536 + 1536
    have e1' : win1_3.index ⟨(i 1).val / 1536, ht⟩ (1 : Fin 2) = (i 1).val / 1536 := e1
    omega

/-- The score array: sample `b`, padded entity `n`. -/
theorem score_array (c : Dev nD) :
    (dat1 (F := Ideal) V c).arrAt 3 cfg1.N
      = (fun i : S1024x101376.Idx => score (fun d => V c main_v14 (ix2 (i 0) d)) (fun d => V c main_v15 (ix2 (i 1) d))
          (V c main_v17 (ix2 0 (i 1)))) :=
  (dat1 V c).arrAt_eq_of_cover 3 (scores V c) (fun t _ => flushed_scores V c t) covered

end Cert.KernelIdeal.ScoreArray

end
-- ==== Proof.HostGlue.lean ====
/-
  The host operations around the two regions, read at the extended reals. Before region 0 the host gathers 1024 rows
  of the entity table and of the relation table (negative indices wrapped once, then clamped by the gather); the
  weights reach region 0 untouched. Between the regions the host pads the entity table and the bias with 1376 zero
  rows / entries (to 101376 = 66 × 1536) and reshapes the bias to one row; the hidden array reaches region 1 as
  region 0 left it. After region 1 the host keeps columns 0 … 99999 of the score array.
-/
import proofs.«159688_j3453153706530_1_alg».proof.Proof.Gen.KernelIdeal.Frame
import proofs.«159688_j3453153706530_1_alg».proof.Proof.RowMath
import Idealize.ShloMosaic.Lib.ValueIdx
import Idealize.ShloMosaic.Lib.Pipeline.Value
import Idealize.ShloMosaic.Lib.StableHlo.Run
import Idealize.ShloMosaic.Lib.KernelVsHost

noncomputable section

namespace Cert.KernelIdeal.HostGlue

open Cert.KernelIdeal Cert.KernelIdeal.Gen Cert.HyperConv Idealize.ShloMosaic Idealize.ShloMosaic.TcCoe Idealize.ShloMosaic.ValueIdx Idealize.SL.Sem

variable (m : (ℓ : Loc nD τ sig) → Buf (Elt Ideal) ℓ) (ρ : Dev nD → PrngReg)

/-- The gathered entity rows: row `b` is the table's row at index `idx b` (wrapped once if negative, clamped). -/
def entRows (E : Vec Ideal S100000x200 .f32) (idx : IVec S1024 32) : Vec Ideal S1024x200 .f32 :=
  Host.gather gather_S100000x200_S1024x1_S1024x200_1_0_n_n_0_1_1200 E
    (broadcastInDim S1024x1 ![0] bcast_S1024_S1024x1_0
      (select (cmpi .slt idx (broadcastInDim S1024 ![] bcast_S_S1024 (constantI S_ 32 0#32)))
        (addi idx (broadcastInDim S1024 ![] bcast_S_S1024 (constantI S_ 32 100000#32))) idx))

/-- The gathered relation rows. -/
def relRows (R : Vec Ideal S500x200 .f32) (idx : IVec S1024 32) : Vec Ideal S1024x200 .f32 :=
  Host.gather gather_S500x200_S1024x1_S1024x200_1_0_n_n_0_1_1200 R
    (broadcastInDim S1024x1 ![0] bcast_S1024_S1024x1_0
      (select (cmpi .slt idx (broadcastInDim S1024 ![] bcast_S_S1024 (constantI S_ 32 0#32)))
        (addi idx (broadcastInDim S1024 ![] bcast_S_S1024 (constantI S_ 32 500#32))) idx))

/-- The network's weights at launch. -/
abbrev paramsOf (c : Dev nD) : Params :=
  { W1 := m ((c : Thread nD τ).loc main_arg6), c1 := m ((c : Thread nD τ).loc main_arg7), g0 := m ((c : Thread nD τ).loc main_arg8), b0 := m ((c : Thread nD τ).loc main_arg9), m0 := m ((c : Thread nD τ).loc main_arg10),
    v0 := m ((c : Thread nD τ).loc main_arg11), g1 := m ((c : Thread nD τ).loc main_arg12), b1 := m ((c : Thread nD τ).loc main_arg13), m1 := m ((c : Thread nD τ).loc main_arg14), v1 := m ((c : Thread nD τ).loc main_arg15),
    g2 := m ((c : Thread nD τ).loc main_arg16), b2 := m ((c : Thread nD τ).loc main_arg17), m2 := m ((c : Thread nD τ).loc main_arg18), v2 := m ((c : Thread nD τ).loc main_arg19),
    Wf := m ((c : Thread nD τ).loc main_arg4), cf := m ((c : Thread nD τ).loc main_arg5) }

/-- Region 0 finds the gathered entity rows in its window 0's array. -/
theorem entry0_ent (c : Dev nD) :
    V1 m ρ c main_v6 = entRows (m ((c : Thread nD τ).loc main_arg2)) (m ((c : Thread nD τ).loc main_arg0)) := by
  show StableHlo.after hostOps0 (W0 m ρ c) (Proc.devRef .tc main_v6) = _
  dsimp only [hostOps0]
  after_results
  rfl

/-- Region 0 finds the gathered relation rows in its window 1's array. -/
theorem entry0_rel (c : Dev nD) :
    V1 m ρ c main_v13 = relRows (m ((c : Thread nD τ).loc main_arg3)) (m ((c : Thread nD τ).loc main_arg1)) := by
  show StableHlo.after hostOps0 (W0 m ρ c) (Proc.devRef .tc main_v13) = _
  dsimp only [hostOps0]
  after_results
  rfl

/-! ## Buffers no host operation before region 0 writes

The eighteen host operations before region 0 write the two gathers' intermediate and result buffers only, so each
weight is read as launched. -/

theorem launched_arg4 (c : Dev nD) : V1 m ρ c main_arg4 = m ((c : Thread nD τ).loc main_arg4) := by
  show StableHlo.after hostOps0 (W0 m ρ c) (Proc.devRef .tc main_arg4) = _
  dsimp only [hostOps0]
  after_results

theorem launched_arg5 (c : Dev nD) : V1 m ρ c main_arg5 = m ((c : Thread nD τ).loc main_arg5) := by
  show StableHlo.after hostOps0 (W0 m ρ c) (Proc.devRef .tc main_arg5) = _
  dsimp only [hostOps0]
  after_results

theorem launched_arg6 (c : Dev nD) : V1 m ρ c main_arg6 = m ((c : Thread nD τ).loc main_arg6) := by
  show StableHlo.after hostOps0 (W0 m ρ c) (Proc.devRef .tc main_arg6) = _
  dsimp only [hostOps0]
  after_results

theorem launched_arg7 (c : Dev nD) : V1 m ρ c main_arg7 = m ((c : Thread nD τ).loc main_arg7) := by
  show StableHlo.after hostOps0 (W0 m ρ c) (Proc.devRef .tc main_arg7) = _
  dsimp only [hostOps0]
  after_results

theorem launched_arg8 (c : Dev nD) : V1 m ρ c main_arg8 = m ((c : Thread nD τ).loc main_arg8) := by
  show StableHlo.after hostOps0 (W0 m ρ c) (Proc.devRef .tc main_arg8) = _
  dsimp only [hostOps0]
  after_results

theorem launched_arg9 (c : Dev nD) : V1 m ρ c main_arg9 = m ((c : Thread nD τ).loc main_arg9) := by
  show StableHlo.after hostOps0 (W0 m ρ c) (Proc.devRef .tc main_arg9) = _
  dsimp only [hostOps0]
  after_results

theorem launched_arg10 (c : Dev nD) : V1 m ρ c main_arg10 = m ((c : Thread nD τ).loc main_arg10) := by
  show StableHlo.after hostOps0 (W0 m ρ c) (Proc.devRef .tc main_arg10) = _
  dsimp only [hostOps0]
  after_results

theorem launched_arg11 (c : Dev nD) : V1 m ρ c main_arg11 = m ((c : Thread nD τ).loc main_arg11) := by
  show StableHlo.after hostOps0 (W0 m ρ c) (Proc.devRef .tc main_arg11) = _
  dsimp only [hostOps0]
  after_results

theorem launched_arg12 (c : Dev nD) : V1 m ρ c main_arg12 = m ((c : Thread nD τ).loc main_arg12) := by
  show StableHlo.after hostOps0 (W0 m ρ c) (Proc.devRef .tc main_arg12) = _
  dsimp only [hostOps0]
  after_results

theorem launched_arg13 (c : Dev nD) : V1 m ρ c main_arg13 = m ((c : Thread nD τ).loc main_arg13) := by
  show StableHlo.after hostOps0 (W0 m ρ c) (Proc.devRef .tc main_arg13) = _
  dsimp only [hostOps0]
  after_results

theorem launched_arg14 (c : Dev nD) : V1 m ρ c main_arg14 = m ((c : Thread nD τ).loc main_arg14) := by
  show StableHlo.after hostOps0 (W0 m ρ c) (Proc.devRef .tc main_arg14) = _
  dsimp only [hostOps0]
  after_results

theorem launched_arg15 (c : Dev nD) : V1 m ρ c main_arg15 = m ((c : Thread nD τ).loc main_arg15) := by
  show StableHlo.after hostOps0 (W0 m ρ c) (Proc.devRef .tc main_arg15) = _
  dsimp only [hostOps0]
  after_results

theorem launched_arg16 (c : Dev nD) : V1 m ρ c main_arg16 = m ((c : Thread nD τ).loc main_arg16) := by
  show StableHlo.after hostOps0 (W0 m ρ c) (Proc.devRef .tc main_arg16) = _
  dsimp only [hostOps0]
  after_results

theorem launched_arg17 (c : Dev nD) : V1 m ρ c main_arg17 = m ((c : Thread nD τ).loc main_arg17) := by
  show StableHlo.after hostOps0 (W0 m ρ c) (Proc.devRef .tc main_arg17) = _
  dsimp only [hostOps0]
  after_results

theorem launched_arg18 (c : Dev nD) : V1 m ρ c main_arg18 = m ((c : Thread nD τ).loc main_arg18) := by
  show StableHlo.after hostOps0 (W0 m ρ c) (Proc.devRef .tc main_arg18) = _
  dsimp only [hostOps0]
  after_results

theorem launched_arg19 (c : Dev nD) : V1 m ρ c main_arg19 = m ((c : Thread nD τ).loc main_arg19) := by
  show StableHlo.after hostOps0 (W0 m ρ c) (Proc.devRef .tc main_arg19) = _
  dsimp only [hostOps0]
  after_results

/-- Region 0 finds the weights as launched. -/
theorem entry0_params (c : Dev nD) :
    ({ W1 := V1 m ρ c main_arg6, c1 := V1 m ρ c main_arg7, g0 := V1 m ρ c main_arg8, b0 := V1 m ρ c main_arg9, m0 := V1 m ρ c main_arg10,
       v0 := V1 m ρ c main_arg11, g1 := V1 m ρ c main_arg12, b1 := V1 m ρ c main_arg13, m1 := V1 m ρ c main_arg14, v1 := V1 m ρ c main_arg15,
       g2 := V1 m ρ c main_arg16, b2 := V1 m ρ c main_arg17, m2 := V1 m ρ c main_arg18, v2 := V1 m ρ c main_arg19,
       Wf := V1 m ρ c main_arg4, cf := V1 m ρ c main_arg5 } : Params) = paramsOf m c := by
  rw [launched_arg4 m ρ c, launched_arg5 m ρ c, launched_arg6 m ρ c, launched_arg7 m ρ c, launched_arg8 m ρ c, launched_arg9 m ρ c, launched_arg10 m ρ c, launched_arg11 m ρ c, launched_arg12 m ρ c, launched_arg13 m ρ c, launched_arg14 m ρ c, launched_arg15 m ρ c, launched_arg16 m ρ c, launched_arg17 m ρ c, launched_arg18 m ρ c, launched_arg19 m ρ c]

/-! ## Between the regions

Region 0 writes its output array only; the host then pads the entity table and the bias, which it reads as launched,
and leaves the hidden array alone. -/

/-- Region 1 finds the hidden array as region 0 left it: none of the operations between the regions writes it. -/
theorem entry1_hidden (c : Dev nD) : V7 m ρ c main_v14 = (dat0 (F := Ideal) (V1 m ρ) c).arrAt 18 cfg0.N := by
  refine Eq.trans ?_ (W2_arr m ρ c 18)
  show StableHlo.after hostOps1_4 (W6 m ρ c) (Proc.devRef .tc main_v14) = _
  dsimp only [hostOps1_4]
  after_results

/-- The entity table is as launched when region 0 has run: no host operation before it writes the table, and the
    table is none of region 0's arrays. -/
theorem table_after_region0 (c : Dev nD) :
    W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  dsimp only [hostOps0]
  after_results

/-- The bias is as launched when region 0 has run. -/
theorem bias_after_region0 (c : Dev nD) :
    W2 m ρ c (Proc.devRef .tc main_arg20) = m ((c : Thread nD τ).loc main_arg20) := by
  refine (W2_of_ne m ρ c main_arg20 (by decide)).trans ?_
  show StableHlo.after hostOps0 (W0 m ρ c) (Proc.devRef .tc main_arg20) = _
  dsimp only [hostOps0]
  after_results

/-- Region 1's entity array is the table padded below with 1376 rows of one value. -/
theorem padded_table (c : Dev nD) :
    (V7 m ρ c main_v15 : Vec Ideal S101376x200 .f32)
      = pad S101376x200 ![0, 0] ![1376, 0] ![0, 0] (W2 m ρ c (Proc.devRef .tc main_arg2) : Vec Ideal S100000x200 .f32)
          (sitofp (F := Ideal) .f32 (constantI S_ 32 0#32)) pads_S100000x200_S101376x200_013760_000 h_S_ := by
  show StableHlo.after hostOps1_4 (W6 m ρ c) (Proc.devRef .tc main_v15) = _
  dsimp only [hostOps1_4]
  after_results
  rfl

/-- Region 1 finds the entity table in the first 100000 rows of its padded copy. -/
theorem entry1_ent (c : Dev nD) (n : Fin 101376) (d : Fin 200) (hn : n.val < 100000) :
    V7 m ρ c main_v15 (ix2 n d) = m ((c : Thread nD τ).loc main_arg2) (ix2 ⟨n.val, hn⟩ d) := by
  refine (congrFun (padded_table m ρ c) (ix2 n d)).trans ?_
  -- row `n < 100000` lies inside the table: the padded copy reads the table there
  refine (pad_apply_of_inside ![0, 0] ![1376, 0] ![0, 0] _ _ pads_S100000x200_S101376x200_013760_000 h_S_ (ix2 n d)
    (ix2 (⟨n.val, hn⟩ : Fin 100000) d) ?_).trans (congrFun (table_after_region0 m ρ c) _)
  intro a
  match a with
  | ⟨0, _⟩ => show n.val = 0 + n.val * (0 + 1); omega
  | ⟨1, _⟩ => show d.val = 0 + d.val * (0 + 1); omega

/-- Region 1's bias array is the bias padded behind with 1376 entries of one value, laid out as one row. -/
theorem padded_bias_row (c : Dev nD) :
    (V7 m ρ c main_v17 : Vec Ideal S1x101376 .f32)
      = shapeCast S1x101376 (pad S101376 ![0] ![1376] ![0] (W2 m ρ c (Proc.devRef .tc main_arg20) : Vec Ideal S100000 .f32)
          (sitofp (F := Ideal) .f32 (constantI S_ 32 0#32)) pads_S100000_S101376_013760 h_S_) shapeCasts_S101376_S1x101376 := by
  show StableHlo.after hostOps1_4 (W6 m ρ c) (Proc.devRef .tc main_v17) = _
  dsimp only [hostOps1_4]
  after_results
  rfl

/-- Region 1 finds the bias in the first 100000 entries of its padded, reshaped copy. -/
theorem entry1_bias (c : Dev nD) (n : Fin 101376) (hn : n.val < 100000) :
    V7 m ρ c main_v17 (ix2 0 n) = m ((c : Thread nD τ).loc main_arg20) (ix1 ⟨n.val, hn⟩) := by
  refine (congrFun (padded_bias_row m ρ c) (ix2 0 n)).trans ?_
  -- entry `n` of the one row is entry `n` of the padded vector: the same row-major position
  refine (shapeCast_apply _ shapeCasts_S101376_S1x101376 (ix2 (0 : Fin 1) n) (ix1 n) ?_).trans ?_
  · rw [Shape.rowMajor_val_two, Shape.rowMajor_val_one]
    show n.val = 0 * 101376 + n.val
    omega
  -- entry `n < 100000` lies inside the bias
  refine (pad_apply_of_inside ![0] ![1376] ![0] _ _ pads_S100000_S101376_013760 h_S_ (ix1 n)
    (ix1 (⟨n.val, hn⟩ : Fin 100000)) ?_).trans (congrFun (bias_after_region0 m ρ c) _)
  intro a
  match a with
  | ⟨0, _⟩ => show n.val = 0 + n.val * (0 + 1); omega

/-! ## After region 1 -/

/-- The result array is columns 0 … 99999 of region 1's output array. -/
theorem exit_result (c : Dev nD) (b : Fin 1024) (n : Fin 100000) :
    W9 m ρ c (Proc.devRef .tc main_v19) (ix2 b n)
      = (dat1 (F := Ideal) (V7 m ρ) c).arrAt 3 cfg1.N (ix2 b ⟨n.val, by omega⟩) := by
  have e : (W9 m ρ c (Proc.devRef .tc main_v19) : Vec Ideal S1024x100000 .f32)
      = extractStridedSlice S1024x100000 ![0, 0] (W8 m ρ c (Proc.devRef .tc main_v18) : Vec Ideal S1024x101376 .f32)
          slices_S1024x101376_S1024x100000_0_0 := by
    show StableHlo.after hostOps2 (W8 m ρ c) (Proc.devRef .tc main_v19) = _
    dsimp only [hostOps2]
    after_results
    all_goals rfl
  refine (congrFun e (ix2 b n)).trans ?_
  -- a slice with zero offsets reads the same coordinates; the sliced array is region 1's window 3
  refine (extractStridedSlice_apply ![0, 0] _ slices_S1024x101376_S1024x100000_0_0 (ix2 b n)
    (ix2 b (⟨n.val, by omega⟩ : Fin 101376)) ?_).trans (congrFun (W8_arr m ρ c 3) _)
  intro a
  match a with
  | ⟨0, _⟩ => show b.val = 0 + b.val; omega
  | ⟨1, _⟩ => show n.val = 0 + n.val; omega

end Cert.KernelIdeal.HostGlue

end
-- ==== Proof.KernelValue.lean ====
/-
  The kernel program's result, entry by entry, as a function of the launch memory. The result buffer holds columns
  0 … 99999 of region 1's score array; region 1 scores region 0's hidden array against the zero-padded entity table,
  which in those columns is the entity table itself; region 0's hidden array is the hidden row of every sample from
  the gathered rows and the weights as launched.
-/
import proofs.«159688_j3453153706530_1_alg».proof.Proof.HyperArray
import proofs.«159688_j3453153706530_1_alg».proof.Proof.ScoreArray
import proofs.«159688_j3453153706530_1_alg».proof.Proof.HostGlue

noncomputable section

namespace Cert.KernelIdeal.KernelValue

open Cert.KernelIdeal Cert.KernelIdeal.Gen Cert.HyperConv Idealize.ShloMosaic Idealize.ShloMosaic.TcCoe Idealize.ShloMosaic.ValueIdx Idealize.SL.Sem

variable (m : (ℓ : Loc nD τ sig) → Buf (Elt Ideal) ℓ) (ρ : Dev nD → PrngReg)

/-- The kernel program's result at sample `i 0`, entity `i 1`. -/
def result (c : Dev nD) : S1024x100000.Idx → EReal := fun i =>
  score (fun d => hrow scaleMul tapsInOrder (HostGlue.paramsOf m c)
      (fun j => HostGlue.entRows (m ((c : Thread nD τ).loc main_arg2)) (m ((c : Thread nD τ).loc main_arg0)) (ix2 (i 0) j))
      (fun k => HostGlue.relRows (m ((c : Thread nD τ).loc main_arg3)) (m ((c : Thread nD τ).loc main_arg1)) (ix2 (i 0) k)) d)
    (fun d => m ((c : Thread nD τ).loc main_arg2) (ix2 (i 1) d)) (m ((c : Thread nD τ).loc main_arg20) (ix1 (i 1)))

/-- The hidden array region 1 finds, row `b`: the hidden row of sample `b` from the launch memory. -/
theorem hidden_row (c : Dev nD) (b : Fin 1024) :
    (fun d : Fin 200 => V7 m ρ c main_v14 (ix2 b d))
      = fun d => hrow scaleMul tapsInOrder (HostGlue.paramsOf m c)
          (fun j => HostGlue.entRows (m ((c : Thread nD τ).loc main_arg2)) (m ((c : Thread nD τ).loc main_arg0)) (ix2 b j))
          (fun k => HostGlue.relRows (m ((c : Thread nD τ).loc main_arg3)) (m ((c : Thread nD τ).loc main_arg1)) (ix2 b k)) d := by
  funext d
  rw [HostGlue.entry1_hidden m ρ c, HyperArray.hidden_array (V1 m ρ) c]
  show hrow scaleMul tapsInOrder (HyperArray.paramsAt (V1 m ρ) c) (fun j => V1 m ρ c main_v6 (ix2 b j))
      (fun k => V1 m ρ c main_v13 (ix2 b k)) d = _
  rw [HostGlue.entry0_ent m ρ c, HostGlue.entry0_rel m ρ c,
    show HyperArray.paramsAt (V1 m ρ) c = HostGlue.paramsOf m c from HostGlue.entry0_params m ρ c]

/-- The result buffer at the end of the run is `result`. -/
theorem exit_eq (c : Dev nD) :
    (W9 m ρ c (Proc.devRef .tc main_v19) : S1024x100000.Idx → EReal) = result m c := by
  funext i
  obtain ⟨b, n, rfl⟩ : ∃ (b : Fin 1024) (n : Fin 100000), i = ix2 b n := ⟨i 0, i 1, eq_ix2 i⟩
  have hn : n.val < 101376 := by omega
  rw [HostGlue.exit_result m ρ c b n, ScoreArray.score_array (V7 m ρ) c]
  show score (fun d => V7 m ρ c main_v14 (ix2 b d)) (fun d => V7 m ρ c main_v15 (ix2 (⟨n.val, hn⟩ : Fin 101376) d))
      (V7 m ρ c main_v17 (ix2 0 (⟨n.val, hn⟩ : Fin 101376))) = _
  rw [hidden_row m ρ c b,
    show (fun d : Fin 200 => V7 m ρ c main_v15 (ix2 (⟨n.val, hn⟩ : Fin 101376) d))
        = fun d => m ((c : Thread nD τ).loc main_arg2) (ix2 n d)
      from funext fun d => HostGlue.entry1_ent m ρ c ⟨n.val, hn⟩ d n.isLt,
    HostGlue.entry1_bias m ρ c ⟨n.val, hn⟩ n.isLt]
  rfl

end Cert.KernelIdeal.KernelValue

end
-- ==== Proof.WindowGather.lean ====
/-
  A gather that reads a window of columns out of a matrix. The operand is an M × N matrix, the start indices an
  R × C array of column numbers (kept as R × C × 1: the index vector has one component), the result M × R × C:
  whole columns are taken, so the result at (b, l, c) is the operand at row b and at the column the start index
  at (l, c) names, read as a signed integer and clamped into [0, N − 1].
-/
import Idealize.ShloMosaic.Lib.ValueIdx

noncomputable section

namespace Cert.HyperConv

open Idealize.ShloMosaic Idealize.ShloMosaic.ValueIdx

variable {α : Type}

/-- The dimension numbers of that gather: the result's axis 0 is the operand's row axis (a slice of all M rows),
    the column axis is collapsed (a slice of one column) and is the one the start index names. -/
abbrev windowDims (M N R C : Nat)
    (wf : GatherDims.WF ⟨2, ![M, N]⟩ ⟨3, ![R, C, 1]⟩ ⟨3, ![M, R, C]⟩ [0] [1] [] [1] [] 2 ![M, 1]) :
    GatherDims ⟨2, ![M, N]⟩ ⟨3, ![R, C, 1]⟩ ⟨3, ![M, R, C]⟩ where
  offsetDims := [0]
  collapsedSliceDims := [1]
  operandBatchingDims := []
  startIndicesBatchingDims := []
  startIndexMap := [1]
  indexVectorDim := 2
  sliceSizes := ![M, 1]
  wf := wf

/-- The window gather read at (b, l, c). -/
theorem gather_window_apply {M N R C w : Nat} (hN : 0 < N)
    (wf : GatherDims.WF ⟨2, ![M, N]⟩ ⟨3, ![R, C, 1]⟩ ⟨3, ![M, R, C]⟩ [0] [1] [] [1] [] 2 ![M, 1])
    (x : (⟨2, ![M, N]⟩ : Shape).Idx → α) (idx : IVec ⟨3, ![R, C, 1]⟩ w) (b : Fin M) (l : Fin R) (c : Fin C) :
    Host.gather (windowDims M N R C wf) x idx (ix3 b l c)
      = x (ix2 b ⟨min (idx (ix3 l c (0 : Fin 1))).toInt.toNat (N - 1), by omega⟩) := by
  unfold Host.gather
  congr 1
  funext a
  refine Fin.ext ?_
  match a with
  | ⟨0, _⟩ =>
    show (windowDims M N R C wf).start (ix3 b l c) idx 0 + (windowDims M N R C wf).batchCoord (ix3 b l c) 0
      + (windowDims M N R C wf).offCoord (ix3 b l c) 0 = b.val
    rw [GatherDims.batchCoord_eq_zero _ _ _ List.not_mem_nil]
    unfold GatherDims.start
    rw [dif_neg (show (0 : Fin 2) ∉ (windowDims M N R C wf).startIndexMap from (by decide : (0 : Fin 2) ∉ ([1] : List (Fin 2))))]
    unfold GatherDims.offCoord
    rw [dif_pos (show (0 : Fin 2) ∈ (windowDims M N R C wf).sKept from
      (GatherDims.mem_sKept _ _).mpr ⟨(by decide : (0 : Fin 2) ∉ ([1] : List (Fin 2))), List.not_mem_nil⟩)]
    simp only [Nat.zero_add, Nat.add_zero]
    rfl
  | ⟨1, _⟩ =>
    show (windowDims M N R C wf).start (ix3 b l c) idx 1 + (windowDims M N R C wf).batchCoord (ix3 b l c) 1
      + (windowDims M N R C wf).offCoord (ix3 b l c) 1 = min (idx (ix3 l c (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (windowDims M N R C wf).startIndexMap from List.mem_singleton.mpr rfl)]
    have hsi : (windowDims M N R C wf).siIdx (ix3 b l c) ⟨List.idxOf (1 : Fin 2) (windowDims M N R C wf).startIndexMap,
        List.idxOf_lt_length_iff.2 (List.mem_singleton.mpr rfl)⟩ = ix3 l c (0 : Fin 1) := by
      funext e; refine Fin.ext ?_
      match e with
      | ⟨0, _⟩ => rfl
      | ⟨1, _⟩ => rfl
      | ⟨2, _⟩ => rfl
    rw [hsi]
    rfl

end Cert.HyperConv

end
-- ==== Proof.RefConv.lean ====
/-
  The reference program up to its sliding products. The normalised entity array is read through a window of
  indices `l + w` (position `l`, tap `w`; the index array is built from two counters, is never negative and never
  reaches 200, so the wrap and the clamp leave it alone), and contracted over the nine taps with the sample's filters:
  at sample `b`, filter `o`, position `l` this is `conv` of RowMath with the normalisation factor spelt as a
  quotient by a square root and the taps as one sum.
-/
import proofs.«159688_j3453153706530_1_alg».proof.Proof.Gen.ReferenceIdeal.Run
import proofs.«159688_j3453153706530_1_alg».proof.Proof.Gen.ReferenceIdeal.Read
import proofs.«159688_j3453153706530_1_alg».proof.Proof.RowMath
import proofs.«159688_j3453153706530_1_alg».proof.Proof.WindowGather
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.RefConv

open Cert.ReferenceIdeal Cert.ReferenceIdeal.Gen Cert.ReferenceIdeal.Read Cert.HyperConv Idealize.ShloMosaic Idealize.ShloMosaic.TcCoe Idealize.ShloMosaic.ValueIdx Idealize.SL.Sem

/-- The network's weights as the program's arguments. -/
abbrev argParams (x4 : (⟨S6144x200, .f32⟩ : BufTy).Contents (Elt Ideal)) (x5 : (⟨S200, .f32⟩ : BufTy).Contents (Elt Ideal)) (x6 : (⟨S200x288, .f32⟩ : BufTy).Contents (Elt Ideal)) (x7 : (⟨S288, .f32⟩ : BufTy).Contents (Elt Ideal))
    (x8 x9 x10 x11 : (⟨S1, .f32⟩ : BufTy).Contents (Elt Ideal)) (x12 x13 x14 x15 : (⟨S32, .f32⟩ : BufTy).Contents (Elt Ideal)) (x16 x17 x18 x19 : (⟨S200, .f32⟩ : BufTy).Contents (Elt Ideal)) : Params :=
  { W1 := x6, c1 := x7, g0 := x8, b0 := x9, m0 := x10, v0 := x11, g1 := x12, b1 := x13, m1 := x14, v1 := x15,
    g2 := x16, b2 := x17, m2 := x18, v2 := x19, Wf := x4, cf := x5 }

/-- A one-entry array has one index. -/
theorem one_idx (k : S1.Idx) : k = ix1 (0 : Fin 1) :=
  funext fun a => match a with | ⟨0, _⟩ => Fin.ext (by have h : (k ⟨0, Nat.one_pos⟩).val < 1 := (k ⟨0, Nat.one_pos⟩).isLt; show (k ⟨0, _⟩).val = 0; omega)

/-- The normalised entity array at sample `b`, entry `j`. -/
theorem xrow_entry (x0 x1 : (⟨S1024, .i32⟩ : BufTy).Contents (Elt Ideal)) (x2 : (⟨S100000x200, .f32⟩ : BufTy).Contents (Elt Ideal)) (x3 : (⟨S500x200, .f32⟩ : BufTy).Contents (Elt Ideal))
    (x4 : (⟨S6144x200, .f32⟩ : BufTy).Contents (Elt Ideal)) (x5 : (⟨S200, .f32⟩ : BufTy).Contents (Elt Ideal)) (x6 : (⟨S200x288, .f32⟩ : BufTy).Contents (Elt Ideal)) (x7 : (⟨S288, .f32⟩ : BufTy).Contents (Elt Ideal))
    (x8 x9 x10 x11 : (⟨S1, .f32⟩ : BufTy).Contents (Elt Ideal)) (x12 x13 x14 x15 : (⟨S32, .f32⟩ : BufTy).Contents (Elt Ideal)) (x16 x17 x18 x19 : (⟨S200, .f32⟩ : BufTy).Contents (Elt Ideal))
    (b : Fin 1024) (j : Fin 200) :
    val_main_v26 (F := Ideal) x0 x2 x8 x9 x10 x11 (ix2 b j)
      = xrow scaleDiv (argParams x4 x5 x6 x7 x8 x9 x10 x11 x12 x13 x14 x15 x16 x17 x18 x19) (fun j => val_main_v6 (F := Ideal) x0 x2 (ix2 b j)) j := by
  rw [val_main_v26_apply, val_main_v23_apply, val_main_v16_apply, val_main_v15_apply, val_main_v14_apply,
    val_main_v22_apply, val_main_v21_apply, val_main_v20_apply, val_main_v19_apply, val_main_v18_apply,
    val_main_v17_apply, val_main_cst_apply, val_main_v25_apply, val_main_v24_apply]
  rw [one_idx (idx_main_v14 _), one_idx (idx_main_v21 _), one_idx (idx_main_v24 _)]
  rfl

/-- Position plus tap as a 32-bit word: the sum does not wrap and is not negative, so the branch that adds the row
    length back is not taken. -/
theorem window_word (l w : Nat) (hl : l < 192) (hw : w < 9) :
    Scalar.select (IntOp.cmpi .slt (IntOp.addi (BitVec.ofNat 32 l) (BitVec.ofNat 32 w)) 0#32)
      (IntOp.addi (IntOp.addi (BitVec.ofNat 32 l) (BitVec.ofNat 32 w)) 200#32)
      (IntOp.addi (BitVec.ofNat 32 l) (BitVec.ofNat 32 w)) = BitVec.ofNat 32 (l + w) := by
  have hs : IntOp.addi (BitVec.ofNat 32 l) (BitVec.ofNat 32 w) = BitVec.ofNat 32 (l + w) := by
    unfold IntOp.addi; exact (BitVec.ofNat_add _ _).symm
  rw [hs]
  have hc : ¬ IntOp.cmpi .slt (BitVec.ofNat 32 (l + w)) 0#32 = 1#1 := by
    rw [show (0#32 : BitVec 32) = BitVec.ofNat 32 0 from rfl]
    unfold IntOp.cmpi
    rw [StableHlo.Predicate.slt_ofNat_iff _ _ (by omega) (by omega)]; omega
  rw [eq_zero_of_ne_one hc, select_zero]

/-- The index array at position l, tap w. -/
theorem window_index (l : Fin 192) (w : Fin 9) :
    val_main_v44 (F := Ideal) (ix3 l w (0 : Fin 1)) = BitVec.ofNat 32 (l.val + w.val) := by
  rw [val_main_v44_apply, val_main_v43_apply, val_main_v40_apply, val_main_v42_apply, val_main_v38_apply,
    val_main_v36_apply, val_main_v37_apply, val_main_v33_apply, val_main_v35_apply, val_main_v32_apply,
    val_main_v34_apply, val_main_v39_apply, val_main_v41_apply, val_main_c_3_apply, val_main_c_4_apply]
  exact window_word l.val w.val l.isLt w.isLt

/-- The sample's filters at sample `b`, filter `o`, tap `w`: the 288 taps are laid out filter-major. -/
theorem filt_entry (x0 x1 : (⟨S1024, .i32⟩ : BufTy).Contents (Elt Ideal)) (x2 : (⟨S100000x200, .f32⟩ : BufTy).Contents (Elt Ideal)) (x3 : (⟨S500x200, .f32⟩ : BufTy).Contents (Elt Ideal))
    (x4 : (⟨S6144x200, .f32⟩ : BufTy).Contents (Elt Ideal)) (x5 : (⟨S200, .f32⟩ : BufTy).Contents (Elt Ideal)) (x6 : (⟨S200x288, .f32⟩ : BufTy).Contents (Elt Ideal)) (x7 : (⟨S288, .f32⟩ : BufTy).Contents (Elt Ideal))
    (x8 x9 x10 x11 : (⟨S1, .f32⟩ : BufTy).Contents (Elt Ideal)) (x12 x13 x14 x15 : (⟨S32, .f32⟩ : BufTy).Contents (Elt Ideal)) (x16 x17 x18 x19 : (⟨S200, .f32⟩ : BufTy).Contents (Elt Ideal))
    (b : Fin 1024) (o : Fin 32) (w : Fin 9) :
    val_main_v31 (F := Ideal) x1 x3 x6 x7 (ix3 b o w)
      = filt (argParams x4 x5 x6 x7 x8 x9 x10 x11 x12 x13 x14 x15 x16 x17 x18 x19) (fun k => val_main_v13 (F := Ideal) x1 x3 (ix2 b k)) ⟨o.val * 9 + w.val, by omega⟩ := by
  have hi : idx_main_v31 (ix3 b o w) = ix2 b (⟨o.val * 9 + w.val, by omega⟩ : Fin 288) := funext fun a => Fin.ext (by
    have hb : b.val < 1024 := b.isLt
    have ho : o.val < 32 := o.isLt
    have hw : w.val < 9 := w.isLt
    match a with
    | ⟨0, _⟩ => show ((b.val * 32 + o.val) * 9 + w.val) / 288 = b.val; omega
    | ⟨1, _⟩ => show ((b.val * 32 + o.val) * 9 + w.val) % 288 = o.val * 9 + w.val; omega)
  rw [val_main_v31_apply, hi, val_main_v30_apply, val_main_v27_apply, val_main_v29_apply, val_main_v28_apply]
  unfold filt
  have hl : ∀ k : Fin 200, lidx_main_v27 (ix2 b (⟨o.val * 9 + w.val, by omega⟩ : Fin 288)) k = ix2 b k := fun k =>
    funext fun a => Fin.ext (by match a with | ⟨0, _⟩ => rfl | ⟨1, _⟩ => rfl)
  have hr : ∀ k : Fin 200, ridx_main_v27 (ix2 b (⟨o.val * 9 + w.val, by omega⟩ : Fin 288)) k
      = ix2 k (⟨o.val * 9 + w.val, by omega⟩ : Fin 288) := fun k =>
    funext fun a => Fin.ext (by match a with | ⟨0, _⟩ => rfl | ⟨1, _⟩ => rfl)
  have hc : idx_main_v28 (idx_main_v29 (ix2 b (⟨o.val * 9 + w.val, by omega⟩ : Fin 288)))
      = ix1 (⟨o.val * 9 + w.val, by omega⟩ : Fin 288) :=
    funext fun a => Fin.ext (by match a with | ⟨0, _⟩ => rfl)
  simp only [hl, hr, hc]
  rfl

/-- The window of the normalised array at sample `b`, position `l`, tap `w`: its entry `l + w`. -/
theorem window_entry (x0 x1 : (⟨S1024, .i32⟩ : BufTy).Contents (Elt Ideal)) (x2 : (⟨S100000x200, .f32⟩ : BufTy).Contents (Elt Ideal)) (x3 : (⟨S500x200, .f32⟩ : BufTy).Contents (Elt Ideal))
    (x4 : (⟨S6144x200, .f32⟩ : BufTy).Contents (Elt Ideal)) (x5 : (⟨S200, .f32⟩ : BufTy).Contents (Elt Ideal)) (x6 : (⟨S200x288, .f32⟩ : BufTy).Contents (Elt Ideal)) (x7 : (⟨S288, .f32⟩ : BufTy).Contents (Elt Ideal))
    (x8 x9 x10 x11 : (⟨S1, .f32⟩ : BufTy).Contents (Elt Ideal)) (x12 x13 x14 x15 : (⟨S32, .f32⟩ : BufTy).Contents (Elt Ideal)) (x16 x17 x18 x19 : (⟨S200, .f32⟩ : BufTy).Contents (Elt Ideal))
    (b : Fin 1024) (l : Fin 192) (w : Fin 9) :
    val_main_v45 (F := Ideal) x0 x2 x8 x9 x10 x11 (ix3 b l w)
      = val_main_v26 (F := Ideal) x0 x2 x8 x9 x10 x11 (ix2 b ⟨l.val + w.val, by omega⟩) := by
  unfold val_main_v45
  generalize val_main_v26 (F := Ideal) x0 x2 x8 x9 x10 x11 = y
  refine (gather_window_apply (by decide) Facts₀.gather_S1024x200_S192x9x1_S1024x192x9_0_1_n_n_1_2_10241_wf y
    (val_main_v44 (F := Ideal)) b l w).trans ?_
  have h : min (val_main_v44 (F := Ideal) (ix3 l w (0 : Fin 1))).toInt.toNat (200 - 1) = l.val + w.val := by
    have hl : l.val < 192 := l.isLt
    have hw : w.val < 9 := w.isLt
    rw [window_index, StableHlo.Predicate.toInt_ofNat_small _ (by omega)]
    omega
  exact congrArg y (congrArg (ix2 b) (Fin.ext h))

/-- The sliding products at sample `b`, filter `o`, position `l`. -/
theorem conv_apply (x0 x1 : (⟨S1024, .i32⟩ : BufTy).Contents (Elt Ideal)) (x2 : (⟨S100000x200, .f32⟩ : BufTy).Contents (Elt Ideal)) (x3 : (⟨S500x200, .f32⟩ : BufTy).Contents (Elt Ideal))
    (x4 : (⟨S6144x200, .f32⟩ : BufTy).Contents (Elt Ideal)) (x5 : (⟨S200, .f32⟩ : BufTy).Contents (Elt Ideal)) (x6 : (⟨S200x288, .f32⟩ : BufTy).Contents (Elt Ideal)) (x7 : (⟨S288, .f32⟩ : BufTy).Contents (Elt Ideal))
    (x8 x9 x10 x11 : (⟨S1, .f32⟩ : BufTy).Contents (Elt Ideal)) (x12 x13 x14 x15 : (⟨S32, .f32⟩ : BufTy).Contents (Elt Ideal)) (x16 x17 x18 x19 : (⟨S200, .f32⟩ : BufTy).Contents (Elt Ideal))
    (b : Fin 1024) (o : Fin 32) (l : Fin 192) :
    val_main_v46 (F := Ideal) x0 x1 x2 x3 x6 x7 x8 x9 x10 x11 (ix3 b o l)
      = conv scaleDiv tapsSum (argParams x4 x5 x6 x7 x8 x9 x10 x11 x12 x13 x14 x15 x16 x17 x18 x19)
          (fun j => val_main_v6 (F := Ideal) x0 x2 (ix2 b j)) (fun k => val_main_v13 (F := Ideal) x1 x3 (ix2 b k)) o l := by
  rw [val_main_v46_apply]
  unfold conv tapsSum
  refine Finset.sum_congr rfl fun w _ => ?_
  have hl : lidx_main_v46 (ix3 b o l) w = ix3 b o w :=
    funext fun a => Fin.ext (by match a with | ⟨0, _⟩ => rfl | ⟨1, _⟩ => rfl | ⟨2, _⟩ => rfl)
  have hr : ridx_main_v46 (ix3 b o l) w = ix3 b l w :=
    funext fun a => Fin.ext (by match a with | ⟨0, _⟩ => rfl | ⟨1, _⟩ => rfl | ⟨2, _⟩ => rfl)
  rw [hl, hr, filt_entry x0 x1 x2 x3 x4 x5 x6 x7 x8 x9 x10 x11 x12 x13 x14 x15 x16 x17 x18 x19 b o w,
    window_entry x0 x1 x2 x3 x4 x5 x6 x7 x8 x9 x10 x11 x12 x13 x14 x15 x16 x17 x18 x19 b l w,
    xrow_entry x0 x1 x2 x3 x4 x5 x6 x7 x8 x9 x10 x11 x12 x13 x14 x15 x16 x17 x18 x19 b ⟨l.val + w.val, by omega⟩]

end Cert.ReferenceIdeal.RefConv

end
-- ==== Proof.RefLayers.lean ====
/-
  The reference program after its sliding products, one layer at a time. Each layer is read at one entry in terms of
  the layer before it: the channel normalisation from the sliding product at the same place, the flattening as
  channel `k / 192`, position `k % 192`, the output map as a sum over the 6144 flattened entries plus a bias, the
  last normalisation clipped at zero, and the score as the logistic function of an inner product with an entity row
  plus that entity's bias. A normalisation factor is the gain divided by the square root of the stabilised variance.
-/
import proofs.«159688_j3453153706530_1_alg».proof.Proof.Gen.ReferenceIdeal.Run
import proofs.«159688_j3453153706530_1_alg».proof.Proof.Gen.ReferenceIdeal.Read
import proofs.«159688_j3453153706530_1_alg».proof.Proof.RowMath
import Idealize.ShloMosaic.Lib.ValueIdx
import Idealize.ShloMosaic.Lib.IdealHost
import Idealize.ShloMosaic.PureOps.Ideal.Laws

noncomputable section

namespace Cert.ReferenceIdeal.RefLayers

open Cert.ReferenceIdeal Cert.ReferenceIdeal.Gen Cert.ReferenceIdeal.Read Cert.HyperConv Idealize.ShloMosaic Idealize.ShloMosaic.TcCoe Idealize.ShloMosaic.ValueIdx Idealize.SL.Sem

/-- The channel normalisation at sample `b`, channel `o`, position `l`, from the sliding product there. -/
theorem chanNorm_apply (x0 x1 : (⟨S1024, .i32⟩ : BufTy).Contents (Elt Ideal)) (x2 : (⟨S100000x200, .f32⟩ : BufTy).Contents (Elt Ideal)) (x3 : (⟨S500x200, .f32⟩ : BufTy).Contents (Elt Ideal)) (x6 : (⟨S200x288, .f32⟩ : BufTy).Contents (Elt Ideal)) (x7 : (⟨S288, .f32⟩ : BufTy).Contents (Elt Ideal)) (x8 x9 x10 x11 : (⟨S1, .f32⟩ : BufTy).Contents (Elt Ideal)) (x12 x13 x14 x15 : (⟨S32, .f32⟩ : BufTy).Contents (Elt Ideal))
    (b : Fin 1024) (o : Fin 32) (l : Fin 192) :
    val_main_v62 (F := Ideal) x0 x1 x2 x3 x6 x7 x8 x9 x10 x11 x12 x13 x14 x15 (ix3 b o l)
      = (val_main_v46 (F := Ideal) x0 x1 x2 x3 x6 x7 x8 x9 x10 x11 (ix3 b o l) - x14 (ix1 o)) * scaleDiv (x12 (ix1 o)) (x15 (ix1 o)) + x13 (ix1 o) := by
  have em : idx_main_v47 (idx_main_v48 (idx_main_v49 (ix3 b o l))) = ix1 o :=
    funext fun a => match a with | ⟨0, _⟩ => rfl
  have eg : idx_main_v55 (idx_main_v56 (idx_main_v57 (ix3 b o l))) = ix1 o :=
    funext fun a => match a with | ⟨0, _⟩ => rfl
  have eb : idx_main_v59 (idx_main_v60 (idx_main_v61 (ix3 b o l))) = ix1 o :=
    funext fun a => match a with | ⟨0, _⟩ => rfl
  rw [val_main_v62_apply, val_main_v58_apply, val_main_v50_apply, val_main_v49_apply, val_main_v48_apply,
    val_main_v47_apply, val_main_v57_apply, val_main_v56_apply, val_main_v55_apply, val_main_v54_apply,
    val_main_v53_apply, val_main_v52_apply, val_main_v51_apply, val_main_cst_5_apply, val_main_v61_apply,
    val_main_v60_apply, val_main_v59_apply, em, eg, eb]
  rfl

/-- The flattening: entry `k` of a sample's 6144 is channel `k / 192`, position `k % 192`. -/
theorem flat_apply (x0 x1 : (⟨S1024, .i32⟩ : BufTy).Contents (Elt Ideal)) (x2 : (⟨S100000x200, .f32⟩ : BufTy).Contents (Elt Ideal)) (x3 : (⟨S500x200, .f32⟩ : BufTy).Contents (Elt Ideal)) (x6 : (⟨S200x288, .f32⟩ : BufTy).Contents (Elt Ideal)) (x7 : (⟨S288, .f32⟩ : BufTy).Contents (Elt Ideal)) (x8 x9 x10 x11 : (⟨S1, .f32⟩ : BufTy).Contents (Elt Ideal)) (x12 x13 x14 x15 : (⟨S32, .f32⟩ : BufTy).Contents (Elt Ideal))
    (b : Fin 1024) (k : Fin 6144) :
    val_main_v63 (F := Ideal) x0 x1 x2 x3 x6 x7 x8 x9 x10 x11 x12 x13 x14 x15 (ix2 b k)
      = val_main_v62 (F := Ideal) x0 x1 x2 x3 x6 x7 x8 x9 x10 x11 x12 x13 x14 x15
          (ix3 b (⟨k.val / 192, by omega⟩ : Fin 32) (⟨k.val % 192, by omega⟩ : Fin 192)) := by
  have e : idx_main_v63 (ix2 b k)
      = ix3 b (⟨k.val / 192, by omega⟩ : Fin 32) (⟨k.val % 192, by omega⟩ : Fin 192) :=
    funext fun a => Fin.ext (by
      have hb : b.val < 1024 := b.isLt
      have hk : k.val < 6144 := k.isLt
      match a with
      | ⟨0, _⟩ => show (b.val * 6144 + k.val) / 6144 = b.val; omega
      | ⟨1, _⟩ => show (b.val * 6144 + k.val) / 192 % 32 = k.val / 192; omega
      | ⟨2, _⟩ => show (b.val * 6144 + k.val) % 192 = k.val % 192; omega)
  rw [val_main_v63_apply, e]

/-- The output map at sample `b`, feature `j`: the sum over the flattened entries plus the bias. -/
theorem outMap_apply (x0 x1 : (⟨S1024, .i32⟩ : BufTy).Contents (Elt Ideal)) (x2 : (⟨S100000x200, .f32⟩ : BufTy).Contents (Elt Ideal)) (x3 : (⟨S500x200, .f32⟩ : BufTy).Contents (Elt Ideal)) (x4 : (⟨S6144x200, .f32⟩ : BufTy).Contents (Elt Ideal)) (x5 : (⟨S200, .f32⟩ : BufTy).Contents (Elt Ideal)) (x6 : (⟨S200x288, .f32⟩ : BufTy).Contents (Elt Ideal)) (x7 : (⟨S288, .f32⟩ : BufTy).Contents (Elt Ideal)) (x8 x9 x10 x11 : (⟨S1, .f32⟩ : BufTy).Contents (Elt Ideal)) (x12 x13 x14 x15 : (⟨S32, .f32⟩ : BufTy).Contents (Elt Ideal))
    (b : Fin 1024) (j : Fin 200) :
    val_main_v67 (F := Ideal) x0 x1 x2 x3 x4 x5 x6 x7 x8 x9 x10 x11 x12 x13 x14 x15 (ix2 b j)
      = (∑ k : Fin 6144, val_main_v63 (F := Ideal) x0 x1 x2 x3 x6 x7 x8 x9 x10 x11 x12 x13 x14 x15 (ix2 b k) * x4 (ix2 k j)) + x5 (ix1 j) := by
  have el : ∀ k : Fin 6144, lidx_main_v64 (ix2 b j) k = ix2 b k := fun k =>
    funext fun a => match a with | ⟨0, _⟩ => rfl | ⟨1, _⟩ => rfl
  have er : ∀ k : Fin 6144, ridx_main_v64 (ix2 b j) k = ix2 k j := fun k =>
    funext fun a => match a with | ⟨0, _⟩ => rfl | ⟨1, _⟩ => rfl
  have ec : idx_main_v65 (idx_main_v66 (ix2 b j)) = ix1 j :=
    funext fun a => match a with | ⟨0, _⟩ => rfl
  rw [val_main_v67_apply, val_main_v64_apply, val_main_v66_apply, val_main_v65_apply, ec]
  simp only [el, er]
  rfl

/-- The last normalisation, clipped at zero, at sample `b`, feature `j`, from the output map there. -/
theorem hidden_apply (x0 x1 : (⟨S1024, .i32⟩ : BufTy).Contents (Elt Ideal)) (x2 : (⟨S100000x200, .f32⟩ : BufTy).Contents (Elt Ideal)) (x3 : (⟨S500x200, .f32⟩ : BufTy).Contents (Elt Ideal)) (x4 : (⟨S6144x200, .f32⟩ : BufTy).Contents (Elt Ideal)) (x5 : (⟨S200, .f32⟩ : BufTy).Contents (Elt Ideal)) (x6 : (⟨S200x288, .f32⟩ : BufTy).Contents (Elt Ideal)) (x7 : (⟨S288, .f32⟩ : BufTy).Contents (Elt Ideal)) (x8 x9 x10 x11 : (⟨S1, .f32⟩ : BufTy).Contents (Elt Ideal)) (x12 x13 x14 x15 : (⟨S32, .f32⟩ : BufTy).Contents (Elt Ideal)) (x16 x17 x18 x19 : (⟨S200, .f32⟩ : BufTy).Contents (Elt Ideal))
    (b : Fin 1024) (j : Fin 200) :
    val_main_v81 (F := Ideal) x0 x1 x2 x3 x4 x5 x6 x7 x8 x9 x10 x11 x12 x13 x14 x15 x16 x17 x18 x19 (ix2 b j)
      = max ((val_main_v67 (F := Ideal) x0 x1 x2 x3 x4 x5 x6 x7 x8 x9 x10 x11 x12 x13 x14 x15 (ix2 b j) - x18 (ix1 j)) * scaleDiv (x16 (ix1 j)) (x19 (ix1 j)) + x17 (ix1 j)) 0 := by
  have em : idx_main_v68 (idx_main_v69 (ix2 b j)) = ix1 j :=
    funext fun a => match a with | ⟨0, _⟩ => rfl
  have eg : idx_main_v75 (idx_main_v76 (ix2 b j)) = ix1 j :=
    funext fun a => match a with | ⟨0, _⟩ => rfl
  have eb : idx_main_v78 (idx_main_v79 (ix2 b j)) = ix1 j :=
    funext fun a => match a with | ⟨0, _⟩ => rfl
  rw [val_main_v81_apply, val_main_v80_apply, val_main_v77_apply, val_main_v70_apply, val_main_v69_apply,
    val_main_v68_apply, val_main_v76_apply, val_main_v75_apply, val_main_v74_apply, val_main_v73_apply,
    val_main_v72_apply, val_main_v71_apply, val_main_cst_6_apply, val_main_v79_apply, val_main_v78_apply,
    val_main_call0_v0_apply, val_main_call0_cst_apply, em, eg, eb,
    show FloatOps.ofBits (F := Ideal) .f32 0x00000000#32 = (0 : EReal) from Ideal.ofBits_zero_f32]
  rfl

/-- The result at sample `b`, entity `n`: the logistic function of the hidden row's inner product with the
    entity's row plus the entity's bias. -/
theorem logit_apply (x0 x1 : (⟨S1024, .i32⟩ : BufTy).Contents (Elt Ideal)) (x2 : (⟨S100000x200, .f32⟩ : BufTy).Contents (Elt Ideal)) (x3 : (⟨S500x200, .f32⟩ : BufTy).Contents (Elt Ideal)) (x4 : (⟨S6144x200, .f32⟩ : BufTy).Contents (Elt Ideal)) (x5 : (⟨S200, .f32⟩ : BufTy).Contents (Elt Ideal)) (x6 : (⟨S200x288, .f32⟩ : BufTy).Contents (Elt Ideal)) (x7 : (⟨S288, .f32⟩ : BufTy).Contents (Elt Ideal)) (x8 x9 x10 x11 : (⟨S1, .f32⟩ : BufTy).Contents (Elt Ideal)) (x12 x13 x14 x15 : (⟨S32, .f32⟩ : BufTy).Contents (Elt Ideal)) (x16 x17 x18 x19 : (⟨S200, .f32⟩ : BufTy).Contents (Elt Ideal)) (x20 : (⟨S100000, .f32⟩ : BufTy).Contents (Elt Ideal))
    (b : Fin 1024) (n : Fin 100000) :
    val_main_v92 (F := Ideal) x0 x1 x2 x3 x4 x5 x6 x7 x8 x9 x10 x11 x12 x13 x14 x15 x16 x17 x18 x19 x20 (ix2 b n)
      = Ideal.logistic ((∑ d : Fin 200, val_main_v81 (F := Ideal) x0 x1 x2 x3 x4 x5 x6 x7 x8 x9 x10 x11 x12 x13 x14 x15 x16 x17 x18 x19 (ix2 b d) * x2 (ix2 n d)) + x20 (ix1 n)) := by
  have el : ∀ d : Fin 200, lidx_main_v83 (ix2 b n) d = ix2 b d := fun d =>
    funext fun a => match a with | ⟨0, _⟩ => rfl | ⟨1, _⟩ => rfl
  have er : ∀ d : Fin 200, idx_main_v82 (ridx_main_v83 (ix2 b n) d) = ix2 n d := fun d =>
    funext fun a => match a with | ⟨0, _⟩ => rfl | ⟨1, _⟩ => rfl
  have ec : idx_main_v84 (idx_main_v85 (ix2 b n)) = ix1 n :=
    funext fun a => match a with | ⟨0, _⟩ => rfl
  rw [val_main_v92_apply, val_main_v91_apply, val_main_cst_8_apply, val_main_v90_apply, val_main_v89_apply,
    val_main_cst_7_apply, val_main_v88_apply, val_main_v87_apply, val_main_v86_apply, val_main_v83_apply,
    val_main_v85_apply, val_main_v84_apply, ec,
    show FloatOps.ofBits (F := Ideal) .f32 0x3F800000#32 = (1 : EReal) from Ideal.ofBits_one_f32]
  simp only [val_main_v82_apply, el, er]
  rfl

end Cert.ReferenceIdeal.RefLayers

end
-- ==== Proof.RefValue.lean ====
/-
  The reference program's result, entry by entry. At sample `b` and entity `n` it is the score of the sample's hidden
  row against row `n` of the entity table with bias `n`, the hidden row being `hrow` of RowMath with the
  normalisation factor spelt as gain divided by a square root and the nine taps as one contraction; the logistic
  function is spelt `1 / (1 + exp (-x))`, which is its definition.
-/
import proofs.«159688_j3453153706530_1_alg».proof.Proof.Gen.ReferenceIdeal.Run
import proofs.«159688_j3453153706530_1_alg».proof.Proof.Gen.ReferenceIdeal.Read
import proofs.«159688_j3453153706530_1_alg».proof.Proof.RowMath
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import proofs.«159688_j3453153706530_1_alg».proof.Proof.RefConv
import proofs.«159688_j3453153706530_1_alg».proof.Proof.RefLayers

noncomputable section

namespace Cert.ReferenceIdeal.RefValue

open Cert.ReferenceIdeal Cert.ReferenceIdeal.Gen Cert.ReferenceIdeal.Read Cert.HyperConv Idealize.ShloMosaic Idealize.ShloMosaic.TcCoe Idealize.ShloMosaic.ValueIdx Idealize.SL.Sem Cert.ReferenceIdeal.RefConv Cert.ReferenceIdeal.RefLayers

/-- The channel normalisation at sample `b`, channel `o`, position `l`. -/
theorem ybn_apply (x0 x1 : (⟨S1024, .i32⟩ : BufTy).Contents (Elt Ideal)) (x2 : (⟨S100000x200, .f32⟩ : BufTy).Contents (Elt Ideal)) (x3 : (⟨S500x200, .f32⟩ : BufTy).Contents (Elt Ideal))
    (x4 : (⟨S6144x200, .f32⟩ : BufTy).Contents (Elt Ideal)) (x5 : (⟨S200, .f32⟩ : BufTy).Contents (Elt Ideal)) (x6 : (⟨S200x288, .f32⟩ : BufTy).Contents (Elt Ideal)) (x7 : (⟨S288, .f32⟩ : BufTy).Contents (Elt Ideal))
    (x8 x9 x10 x11 : (⟨S1, .f32⟩ : BufTy).Contents (Elt Ideal)) (x12 x13 x14 x15 : (⟨S32, .f32⟩ : BufTy).Contents (Elt Ideal)) (x16 x17 x18 x19 : (⟨S200, .f32⟩ : BufTy).Contents (Elt Ideal))
    (b : Fin 1024) (o : Fin 32) (l : Fin 192) :
    val_main_v62 (F := Ideal) x0 x1 x2 x3 x6 x7 x8 x9 x10 x11 x12 x13 x14 x15 (ix3 b o l)
      = ybn scaleDiv tapsSum (argParams x4 x5 x6 x7 x8 x9 x10 x11 x12 x13 x14 x15 x16 x17 x18 x19)
          (fun j => val_main_v6 (F := Ideal) x0 x2 (ix2 b j)) (fun k => val_main_v13 (F := Ideal) x1 x3 (ix2 b k)) o l := by
  rw [chanNorm_apply, conv_apply x0 x1 x2 x3 x4 x5 x6 x7 x8 x9 x10 x11 x12 x13 x14 x15 x16 x17 x18 x19 b o l]
  rfl

/-- The output map at sample `b`, feature `j`. -/
theorem hpre_apply (x0 x1 : (⟨S1024, .i32⟩ : BufTy).Contents (Elt Ideal)) (x2 : (⟨S100000x200, .f32⟩ : BufTy).Contents (Elt Ideal)) (x3 : (⟨S500x200, .f32⟩ : BufTy).Contents (Elt Ideal))
    (x4 : (⟨S6144x200, .f32⟩ : BufTy).Contents (Elt Ideal)) (x5 : (⟨S200, .f32⟩ : BufTy).Contents (Elt Ideal)) (x6 : (⟨S200x288, .f32⟩ : BufTy).Contents (Elt Ideal)) (x7 : (⟨S288, .f32⟩ : BufTy).Contents (Elt Ideal))
    (x8 x9 x10 x11 : (⟨S1, .f32⟩ : BufTy).Contents (Elt Ideal)) (x12 x13 x14 x15 : (⟨S32, .f32⟩ : BufTy).Contents (Elt Ideal)) (x16 x17 x18 x19 : (⟨S200, .f32⟩ : BufTy).Contents (Elt Ideal))
    (b : Fin 1024) (j : Fin 200) :
    val_main_v67 (F := Ideal) x0 x1 x2 x3 x4 x5 x6 x7 x8 x9 x10 x11 x12 x13 x14 x15 (ix2 b j)
      = hpre scaleDiv tapsSum (argParams x4 x5 x6 x7 x8 x9 x10 x11 x12 x13 x14 x15 x16 x17 x18 x19)
          (fun j => val_main_v6 (F := Ideal) x0 x2 (ix2 b j)) (fun k => val_main_v13 (F := Ideal) x1 x3 (ix2 b k)) j := by
  rw [outMap_apply]
  simp only [flat_apply, ybn_apply x0 x1 x2 x3 x4 x5 x6 x7 x8 x9 x10 x11 x12 x13 x14 x15 x16 x17 x18 x19]
  rfl

/-- The hidden row at sample `b`, feature `j`. -/
theorem hrow_apply (x0 x1 : (⟨S1024, .i32⟩ : BufTy).Contents (Elt Ideal)) (x2 : (⟨S100000x200, .f32⟩ : BufTy).Contents (Elt Ideal)) (x3 : (⟨S500x200, .f32⟩ : BufTy).Contents (Elt Ideal))
    (x4 : (⟨S6144x200, .f32⟩ : BufTy).Contents (Elt Ideal)) (x5 : (⟨S200, .f32⟩ : BufTy).Contents (Elt Ideal)) (x6 : (⟨S200x288, .f32⟩ : BufTy).Contents (Elt Ideal)) (x7 : (⟨S288, .f32⟩ : BufTy).Contents (Elt Ideal))
    (x8 x9 x10 x11 : (⟨S1, .f32⟩ : BufTy).Contents (Elt Ideal)) (x12 x13 x14 x15 : (⟨S32, .f32⟩ : BufTy).Contents (Elt Ideal)) (x16 x17 x18 x19 : (⟨S200, .f32⟩ : BufTy).Contents (Elt Ideal))
    (b : Fin 1024) (j : Fin 200) :
    val_main_v81 (F := Ideal) x0 x1 x2 x3 x4 x5 x6 x7 x8 x9 x10 x11 x12 x13 x14 x15 x16 x17 x18 x19 (ix2 b j)
      = hrow scaleDiv tapsSum (argParams x4 x5 x6 x7 x8 x9 x10 x11 x12 x13 x14 x15 x16 x17 x18 x19)
          (fun j => val_main_v6 (F := Ideal) x0 x2 (ix2 b j)) (fun k => val_main_v13 (F := Ideal) x1 x3 (ix2 b k)) j := by
  rw [hidden_apply, hpre_apply x0 x1 x2 x3 x4 x5 x6 x7 x8 x9 x10 x11 x12 x13 x14 x15 x16 x17 x18 x19 b j]
  rfl

/-- The reference's result at sample `b`, entity `n`. -/
theorem result_apply (x0 x1 : (⟨S1024, .i32⟩ : BufTy).Contents (Elt Ideal)) (x2 : (⟨S100000x200, .f32⟩ : BufTy).Contents (Elt Ideal)) (x3 : (⟨S500x200, .f32⟩ : BufTy).Contents (Elt Ideal))
    (x4 : (⟨S6144x200, .f32⟩ : BufTy).Contents (Elt Ideal)) (x5 : (⟨S200, .f32⟩ : BufTy).Contents (Elt Ideal)) (x6 : (⟨S200x288, .f32⟩ : BufTy).Contents (Elt Ideal)) (x7 : (⟨S288, .f32⟩ : BufTy).Contents (Elt Ideal))
    (x8 x9 x10 x11 : (⟨S1, .f32⟩ : BufTy).Contents (Elt Ideal)) (x12 x13 x14 x15 : (⟨S32, .f32⟩ : BufTy).Contents (Elt Ideal)) (x16 x17 x18 x19 : (⟨S200, .f32⟩ : BufTy).Contents (Elt Ideal))
    (x20 : (⟨S100000, .f32⟩ : BufTy).Contents (Elt Ideal)) (b : Fin 1024) (n : Fin 100000) :
    val_main_v92 (F := Ideal) x0 x1 x2 x3 x4 x5 x6 x7 x8 x9 x10 x11 x12 x13 x14 x15 x16 x17 x18 x19 x20 (ix2 b n)
      = score (fun d => hrow scaleDiv tapsSum (argParams x4 x5 x6 x7 x8 x9 x10 x11 x12 x13 x14 x15 x16 x17 x18 x19)
            (fun j => val_main_v6 (F := Ideal) x0 x2 (ix2 b j)) (fun k => val_main_v13 (F := Ideal) x1 x3 (ix2 b k)) d)
          (fun d => x2 (ix2 n d)) (x20 (ix1 n)) := by
  rw [logit_apply]
  simp only [hrow_apply]
  rfl

end Cert.ReferenceIdeal.RefValue

end
-- ==== Proof.lean ====
/-
  The certificate of the scoring network: a Pallas program of two regions (the hidden rows of 1024 samples; their
  scores against 100000 entities) against its jnp reference, over the extended reals.

  Both programs compute, at sample `b` and entity `n`, the logistic function of the inner product of the sample's
  hidden row with the entity's row plus a bias (RowMath: `score`, `hrow`). They differ in two spellings. The kernel
  multiplies by gain × reciprocal square root of (variance + ε) where the reference divides gain by the square root;
  these agree exactly when variance + ε is positive, and part below zero, so the statement asks every variance input
  to be nonnegative (PreDecode reads that off the precondition; RowLaws proves the agreement). The kernel adds nine
  tap products in order onto zero where the reference contracts them in one sum (RowLaws). The kernel also pads the
  entity table and the bias with zeros to a multiple of its block and slices the padding's columns away (HostGlue).

  The kernel side: each region's body at one entry (region 0: LayoutReads, HyperHead, HyperTaps, HyperTail, composed in
  HyperBody; region 1: ScoreBody), each region's blocks as one
  array (HyperArray, ScoreArray), the host operations around them (HostGlue), the program's run with its result
  named (KernelRun) and the result as one function of the launch memory (KernelValue). The reference side: its run
  and its operations read at an index are imported; written here are its sliding products (RefConv, over
  WindowGather) and its result at one entry (RefValue).
-/
import proofs.«159688_j3453153706530_1_alg».proof.Defs
import proofs.«159688_j3453153706530_1_alg».proof.Proof.Gen.Kernel
import proofs.«159688_j3453153706530_1_alg».proof.Proof.Gen.Kernel.Skeleton
import proofs.«159688_j3453153706530_1_alg».proof.Proof.Gen.Kernel.Launch
import proofs.«159688_j3453153706530_1_alg».proof.Proof.Gen.Kernel.Points
import proofs.«159688_j3453153706530_1_alg».proof.Proof.Gen.Kernel.Frame
import proofs.«159688_j3453153706530_1_alg».proof.Proof.Gen.KernelIdeal
import proofs.«159688_j3453153706530_1_alg».proof.Proof.Gen.KernelIdeal.Skeleton
import proofs.«159688_j3453153706530_1_alg».proof.Proof.Gen.KernelIdeal.Launch
import proofs.«159688_j3453153706530_1_alg».proof.Proof.Gen.KernelIdeal.Points
import proofs.«159688_j3453153706530_1_alg».proof.Proof.Gen.KernelIdeal.Frame
import proofs.«159688_j3453153706530_1_alg».proof.Proof.Gen.ReferenceIdeal
import proofs.«159688_j3453153706530_1_alg».proof.Proof.Gen.Pre_finite_inputs
import proofs.«159688_j3453153706530_1_alg».proof.Proof.Gen.ReferenceIdeal.Run
import proofs.«159688_j3453153706530_1_alg».proof.Proof.Gen.ReferenceIdeal.Read
import proofs.«159688_j3453153706530_1_alg».proof.Proof.RowLaws
import proofs.«159688_j3453153706530_1_alg».proof.Proof.PreDecode
import proofs.«159688_j3453153706530_1_alg».proof.Proof.KernelRun
import proofs.«159688_j3453153706530_1_alg».proof.Proof.KernelValue
import proofs.«159688_j3453153706530_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem Cert.HyperConv

/-- The gathered entity rows are one term in the two programs. -/
theorem entRows_eq (E : Vec Ideal Cert.KernelIdeal.S100000x200 .f32) (idx : IVec Cert.KernelIdeal.S1024 32) :
    Cert.ReferenceIdeal.Read.val_main_v6 (F := Ideal) idx E = Cert.KernelIdeal.HostGlue.entRows E idx := rfl

/-- The gathered relation rows are one term in the two programs. -/
theorem relRows_eq (R : Vec Ideal Cert.KernelIdeal.S500x200 .f32) (idx : IVec Cert.KernelIdeal.S1024 32) :
    Cert.ReferenceIdeal.Read.val_main_v13 (F := Ideal) idx R = Cert.KernelIdeal.HostGlue.relRows R idx := rfl

/-- From memories that agree on the arguments, under the precondition, the reference's result term is the kernel
    program's result: the same score of the same hidden rows, once the two spellings are identified. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) = fun _ => 1#1)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.Value.res_main_v92 (F := Ideal) m' c = Cert.KernelIdeal.KernelValue.result m c := by
  obtain ⟨a0, a1, a2, a3, a4, a5, a6, a7, a8, a9, a10, a11, a12, a13, a14, a15, a16, a17, a18, a19, a20⟩ := hagree
  obtain ⟨hv0, hv1, hv2⟩ := Cert.Pre_finite_inputs.Decode.variances_nonneg _ _ _ _ _ _ _ _ _ _ _ _ _ _ _ _ _ _ _ _ _ hpre
  funext i
  obtain ⟨b, n, rfl⟩ : ∃ (b : Fin 1024) (n : Fin 100000), i = ix2 b n := ⟨i 0, i 1, eq_ix2 i⟩
  rw [Cert.ReferenceIdeal.Read.val_main_v92_eq, Cert.ReferenceIdeal.RefValue.result_apply, a0, a1, a2, a3, a4, a5, a6, a7, a8, a9, a10, a11, a12, a13, a14, a15, a16, a17, a18, a19, a20, entRows_eq, relRows_eq]
  show score _ _ _ = score _ _ _
  congr 1
  funext d
  exact (hrow_eq (Cert.KernelIdeal.HostGlue.paramsOf m c) _ _ (hv0 (ix1 0)) (fun o => hv1 (ix1 o)) (fun j => hv2 (ix1 j)) d).symm

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs end with equal results: the kernel program's by its run with the result named and read
    back to the launch memory, the reference's by its run, and the two results by `results_agree`. -/
theorem algebraic : Cert.algebraic_KernelIdeal_ReferenceIdeal := by
  intro m ρ m' ρ' hpre hagree
  refine ⟨fun c => Cert.KernelIdeal.KernelValue.result m c, ?_, ?_⟩
  · exact (θ_run Cert.KernelIdeal.defs _ _).mono
      (fun r h c => ⟨(h c).1.trans (Cert.KernelIdeal.KernelValue.exit_eq m ρ c), (h c).2⟩)
      (Cert.KernelIdeal.Launched.run_result (F := Ideal) m ρ)
  · exact (θ_run Cert.ReferenceIdeal.defs _ _).mono
      (fun r h c => ⟨(h c).1.trans (results_agree m m' c (hpre c) (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
